-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S1024x512 : Shape := ⟨2, ![1024, 512]⟩
abbrev S160x512 : Shape := ⟨2, ![160, 512]⟩
abbrev S5 : Shape := ⟨1, ![5]⟩
abbrev S2 : Shape := ⟨1, ![2]⟩
abbrev S_ : Shape := ⟨0, ![]⟩
abbrev S192x512 : Shape := ⟨2, ![192, 512]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .local _ .vmem, ⟨0, _⟩ => ⟨S512x512, .f32⟩
  | .local _ .vmem, ⟨1, _⟩ => ⟨S512x512, .bf16⟩
  | .local _ .vmem, ⟨2, _⟩ => ⟨S160x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v29 : BitVec 32 := Scalar.muli v2 c4_i32_15
  let v30 : BitVec 32 := Scalar.addi c0_i32_16 v29
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_17 : BitVec 32 := 2#32
  let v31 : BitVec 32 := Scalar.muli v20 c2_i32_17
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v33 : BitVec 32 := Scalar.muli v8 c1_i32_18
  let v34 : BitVec 32 := Scalar.addi v32 v33
  v34.toNat
def k0_dev2 (d0 : Dev nD) : Nat :=
  let c0_i32_21 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_20 : BitVec 32 := 4#32
  let v35 : BitVec 32 := Scalar.muli v21 c4_i32_20
  let v36 : BitVec 32 := Scalar.addi c0_i32_21 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v37 : BitVec 32 := Scalar.muli v5 c2_i32_22
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v39 : BitVec 32 := Scalar.muli v8 c1_i32_23
  let v40 : BitVec 32 := Scalar.addi v38 v39
  v40.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c352_i32 : BitVec 32 := 352#32
  let v22 : BitVec 32 := Scalar.muli v19 c352_i32
  let v41 : Index := Scalar.indexCast v22
  let c0 : Index := 0#32
  ![v41.toNat, 0]
def k0_off2 (d0 : Dev nD) : Fin 2 → Nat :=
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v23 : BitVec 32 := Scalar.subi c1_i32_10 v19
  let c352_i32_11 : BitVec 32 := 352#32
  let v24 : BitVec 32 := Scalar.muli v23 c352_i32_11
  let v55 : Index := Scalar.indexCast v24
  let c0_28 : Index := 0#32
  ![v55.toNat, 0]
def k0_off3 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v25 : BitVec 32 := Scalar.muli v5 c512_i32
  let c0_i32_31 : BitVec 32 := 0#32
  ![v25.toNat, 0]
def k0_off4 (d0 : Dev nD) (c0_i32_33 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c352_i32 : BitVec 32 := 352#32
  let v22 : BitVec 32 := Scalar.muli v19 c352_i32
  let v66 : BitVec 32 := Scalar.addi v22 c0_i32_33
  let c0_i32_42 : BitVec 32 := 0#32
  ![v66.toNat, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v67 : BitVec 32 := Scalar.muli v2 c4_i32_36
  let v68 : BitVec 32 := Scalar.addi c0_i32_37 v67
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_38 : BitVec 32 := 2#32
  let v69 : BitVec 32 := Scalar.muli v20 c2_i32_38
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v71 : BitVec 32 := Scalar.muli v8 c1_i32_39
  let v72 : BitVec 32 := Scalar.addi v70 v71
  v72.toNat
def k0_dev4 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v80 : BitVec 32 := Scalar.muli v2 c4_i32_45
  let v81 : BitVec 32 := Scalar.addi c0_i32_46 v80
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_47 : BitVec 32 := 2#32
  let v82 : BitVec 32 := Scalar.muli v20 c2_i32_47
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v84 : BitVec 32 := Scalar.muli v8 c1_i32_48
  let v85 : BitVec 32 := Scalar.addi v83 v84
  v85.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v93 : BitVec 32 := Scalar.muli v2 c4_i32_54
  let v94 : BitVec 32 := Scalar.addi c0_i32_55 v93
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_56 : BitVec 32 := 2#32
  let v95 : BitVec 32 := Scalar.muli v20 c2_i32_56
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v97 : BitVec 32 := Scalar.muli v8 c1_i32_57
  let v98 : BitVec 32 := Scalar.addi v96 v97
  v98.toNat
def k0_dev6 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v106 : BitVec 32 := Scalar.muli v2 c4_i32_62
  let v107 : BitVec 32 := Scalar.addi c0_i32_63 v106
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_64 : BitVec 32 := 2#32
  let v108 : BitVec 32 := Scalar.muli v20 c2_i32_64
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v110 : BitVec 32 := Scalar.muli v8 c1_i32_65
  let v111 : BitVec 32 := Scalar.addi v109 v110
  v111.toNat
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v119 : BitVec 32 := Scalar.muli v2 c4_i32_71
  let v120 : BitVec 32 := Scalar.addi c0_i32_72 v119
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_73 : BitVec 32 := 2#32
  let v121 : BitVec 32 := Scalar.muli v20 c2_i32_73
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v123 : BitVec 32 := Scalar.muli v8 c1_i32_74
  let v124 : BitVec 32 := Scalar.addi v122 v123
  v124.toNat
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v25 : BitVec 32 := Scalar.muli v5 c512_i32
  let c160_i32 : BitVec 32 := 160#32
  let v131 : BitVec 32 := Scalar.addi v25 c160_i32
  let c0_i32_84 : BitVec 32 := 0#32
  ![v131.toNat, 0]
def k0_dev8 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v132 : BitVec 32 := Scalar.muli v2 c4_i32_80
  let v133 : BitVec 32 := Scalar.addi c0_i32_81 v132
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let c2_i32_82 : BitVec 32 := 2#32
  let v134 : BitVec 32 := Scalar.muli v20 c2_i32_82
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v136 : BitVec 32 := Scalar.muli v8 c1_i32_83
  let v137 : BitVec 32 := Scalar.addi v135 v136
  v137.toNat
def k0_off6 (d0 : Dev nD) (c0_i32_97 : BitVec 32) : Fin 2 → Nat :=
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_12 v5
  let c512_i32_13 : BitVec 32 := 512#32
  let v27 : BitVec 32 := Scalar.muli v26 c512_i32_13
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c352_i32 : BitVec 32 := 352#32
  let v22 : BitVec 32 := Scalar.muli v19 c352_i32
  let v155 : BitVec 32 := Scalar.addi v27 v22
  let v156 : BitVec 32 := Scalar.addi v155 c0_i32_97
  let c0_i32_104 : BitVec 32 := 0#32
  ![v156.toNat, 0]
def k0_dev9 (d0 : Dev nD) : Nat :=
  let c0_i32_101 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_100 : BitVec 32 := 4#32
  let v157 : BitVec 32 := Scalar.muli v21 c4_i32_100
  let v158 : BitVec 32 := Scalar.addi c0_i32_101 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v159 : BitVec 32 := Scalar.muli v5 c2_i32_102
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v161 : BitVec 32 := Scalar.muli v8 c1_i32_103
  let v162 : BitVec 32 := Scalar.addi v160 v161
  v162.toNat
def k0_dev10 (d0 : Dev nD) : Nat :=
  let c0_i32_121 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_120 : BitVec 32 := 4#32
  let v182 : BitVec 32 := Scalar.muli v21 c4_i32_120
  let v183 : BitVec 32 := Scalar.addi c0_i32_121 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v184 : BitVec 32 := Scalar.muli v5 c2_i32_122
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v186 : BitVec 32 := Scalar.muli v8 c1_i32_123
  let v187 : BitVec 32 := Scalar.addi v185 v186
  v187.toNat
def k0_dev11 (d0 : Dev nD) : Nat :=
  let c0_i32_141 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_140 : BitVec 32 := 4#32
  let v207 : BitVec 32 := Scalar.muli v21 c4_i32_140
  let v208 : BitVec 32 := Scalar.addi c0_i32_141 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v209 : BitVec 32 := Scalar.muli v5 c2_i32_142
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v211 : BitVec 32 := Scalar.muli v8 c1_i32_143
  let v212 : BitVec 32 := Scalar.addi v210 v211
  v212.toNat
def k0_dev12 (d0 : Dev nD) : Nat :=
  let c0_i32_161 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_160 : BitVec 32 := 4#32
  let v232 : BitVec 32 := Scalar.muli v21 c4_i32_160
  let v233 : BitVec 32 := Scalar.addi c0_i32_161 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v234 : BitVec 32 := Scalar.muli v5 c2_i32_162
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v236 : BitVec 32 := Scalar.muli v8 c1_i32_163
  let v237 : BitVec 32 := Scalar.addi v235 v236
  v237.toNat
def k0_dev13 (d0 : Dev nD) : Nat :=
  let c0_i32_181 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_9 v2
  let c4_i32_180 : BitVec 32 := 4#32
  let v257 : BitVec 32 := Scalar.muli v21 c4_i32_180
  let v258 : BitVec 32 := Scalar.addi c0_i32_181 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v259 : BitVec 32 := Scalar.muli v5 c2_i32_182
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v261 : BitVec 32 := Scalar.muli v8 c1_i32_183
  let v262 : BitVec 32 := Scalar.addi v260 v261
  v262.toNat
def k0_off7 (d0 : Dev nD) : Fin 2 → Nat :=
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_12 v5
  let c512_i32_13 : BitVec 32 := 512#32
  let v27 : BitVec 32 := Scalar.muli v26 c512_i32_13
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c352_i32 : BitVec 32 := 352#32
  let v22 : BitVec 32 := Scalar.muli v19 c352_i32
  let v269 : BitVec 32 := Scalar.addi v27 v22
  let c0_i32_188 : BitVec 32 := 0#32
  ![v269.toNat, 0]
def k0_off8 (d0 : Dev nD) : Fin 2 → Nat :=
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_12 v5
  let c512_i32_13 : BitVec 32 := 512#32
  let v27 : BitVec 32 := Scalar.muli v26 c512_i32_13
  let c160_i32_189 : BitVec 32 := 160#32
  let v273 : BitVec 32 := Scalar.addi v27 c160_i32_189
  let c0_i32_196 : BitVec 32 := 0#32
  ![v273.toNat, 0]
def k0_off9 (d0 : Dev nD) (c0_i32_199 : BitVec 32) : Fin 2 → Nat :=
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_12 v5
  let c512_i32_13 : BitVec 32 := 512#32
  let v27 : BitVec 32 := Scalar.muli v26 c512_i32_13
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.addi v2 v8
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v23 : BitVec 32 := Scalar.subi c1_i32_10 v19
  let c352_i32_11 : BitVec 32 := 352#32
  let v24 : BitVec 32 := Scalar.muli v23 c352_i32_11
  let v284 : BitVec 32 := Scalar.addi v27 v24
  let v285 : BitVec 32 := Scalar.addi v284 c0_i32_199
  let c0_i32_206 : BitVec 32 := 0#32
  ![v285.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  h_S160x512 : 0 < S160x512.numel
  shapeCasts_S160x512_S160x512 : S160x512.ShapeCasts S160x512
  bitsLt_bf16_f32 : FTy.bits .bf16 < FTy.bits .f32
  inb_S512x512_S192x512_160_0 : ∀ a, (![160, 0] : Fin 2 → Nat) a + S192x512.size a ≤ S512x512.size a
  h_S192x512 : 0 < S192x512.numel
  shapeCasts_S192x512_S192x512 : S192x512.ShapeCasts S192x512
  packedbf16_S512x512_S192x512_160_0 : (Rect.unit (s := S512x512) ![160, 0] S192x512.size inb_S512x512_S192x512_160_0).PackedRows (EltTy.packing .bf16)
  inb_S2_S1_0 : ∀ a, (![0] : Fin 1 → Nat) a + S1.size a ≤ S2.size a
  squeezes_S1_S_ : S1.Squeezes S_
  hamt_2 : (2#32 : BitVec 32).msb = false
  inb_S5_S1_0 : ∀ a, (![0] : Fin 1 → Nat) a + S1.size a ≤ S5.size a
  inb_S160x512_S32x512_0_0 : ∀ a, (![0, 0] : Fin 2 → Nat) a + S32x512.size a ≤ S160x512.size a
  wordsbf16_S160x512_S32x512_0_0 : (Rect.unit (s := S160x512) ![0, 0] S32x512.size inb_S160x512_S32x512_0_0).WholeWords (EltTy.packing .bf16)
  inb_S5_S1_1 : ∀ a, (![1] : Fin 1 → Nat) a + S1.size a ≤ S5.size a
  inb_S160x512_S32x512_32_0 : ∀ a, (![32, 0] : Fin 2 → Nat) a + S32x512.size a ≤ S160x512.size a
  wordsbf16_S160x512_S32x512_32_0 : (Rect.unit (s := S160x512) ![32, 0] S32x512.size inb_S160x512_S32x512_32_0).WholeWords (EltTy.packing .bf16)
  inb_S5_S1_2 : ∀ a, (![2] : Fin 1 → Nat) a + S1.size a ≤ S5.size a
  inb_S160x512_S32x512_64_0 : ∀ a, (![64, 0] : Fin 2 → Nat) a + S32x512.size a ≤ S160x512.size a
  wordsbf16_S160x512_S32x512_64_0 : (Rect.unit (s := S160x512) ![64, 0] S32x512.size inb_S160x512_S32x512_64_0).WholeWords (EltTy.packing .bf16)
  inb_S5_S1_3 : ∀ a, (![3] : Fin 1 → Nat) a + S1.size a ≤ S5.size a
  inb_S160x512_S32x512_96_0 : ∀ a, (![96, 0] : Fin 2 → Nat) a + S32x512.size a ≤ S160x512.size a
  wordsbf16_S160x512_S32x512_96_0 : (Rect.unit (s := S160x512) ![96, 0] S32x512.size inb_S160x512_S32x512_96_0).WholeWords (EltTy.packing .bf16)
  inb_S5_S1_4 : ∀ a, (![4] : Fin 1 → Nat) a + S1.size a ≤ S5.size a
  inb_S160x512_S32x512_128_0 : ∀ a, (![128, 0] : Fin 2 → Nat) a + S32x512.size a ≤ S160x512.size a
  wordsbf16_S160x512_S32x512_128_0 : (Rect.unit (s := S160x512) ![128, 0] S32x512.size inb_S160x512_S32x512_128_0).WholeWords (EltTy.packing .bf16)
  inb_S2_S1_1 : ∀ a, (![1] : Fin 1 → Nat) a + S1.size a ≤ S2.size a
  wordsbf16_S512x512_S192x512_160_0 : (Rect.unit (s := S512x512) ![160, 0] S192x512.size inb_S512x512_S192x512_160_0).WholeWords (EltTy.packing .bf16)
  hcc0_scratch2 : 1 + S5.numel ≤ 25
  hcc0_scratch3 : 6 + S5.numel ≤ 25
  hcc0_scratch4 : 11 + S2.numel ≤ 25
  hcc0_scratch5 : 13 + S5.numel ≤ 25
  hcc0_scratch6 : 18 + S5.numel ≤ 25
  hcc0_scratch7 : 23 + S2.numel ≤ 25
  k0_dev1_lt : ∀ d0 : Dev nD, (k0_dev1 d0) < nD
  k0_dev2_lt : ∀ d0 : Dev nD, (k0_dev2 d0) < nD
  k0_off1_inb : ∀ d0 : Dev nD, ∀ a, (k0_off1 d0) a + S160x512.size a ≤ S512x512.size a
  k0_off1_packedbf16 : ∀ d0 : Dev nD, (Rect.unit (s := S512x512) (k0_off1 d0) S160x512.size (k0_off1_inb d0)).PackedRows (EltTy.packing .bf16)
  k0_off2_inb : ∀ d0 : Dev nD, ∀ a, (k0_off2 d0) a + S160x512.size a ≤ S512x512.size a
  k0_off2_packedbf16 : ∀ d0 : Dev nD, (Rect.unit (s := S512x512) (k0_off2 d0) S160x512.size (k0_off2_inb d0)).PackedRows (EltTy.packing .bf16)
  k0_off3_inb : ∀ d0 : Dev nD, ∀ a, (k0_off3 d0) a + S512x512.size a ≤ S1024x512.size a
  k0_off3_wordsbf16 : ∀ d0 : Dev nD, (Rect.unit (s := S1024x512) (k0_off3 d0) S512x512.size (k0_off3_inb d0)).WholeWords (EltTy.packing .bf16)
  k0_off4_inb : ∀ d0 : Dev nD, ∀ (r : Fin 5), ∀ a, (k0_off4 d0 (BitVec.ofNat 32 (32 * r.val))) a + S32x512.size a ≤ S512x512.size a
  k0_off4_wordsbf16 : ∀ d0 : Dev nD, ∀ (r : Fin 5), (Rect.unit (s := S512x512) (k0_off4 d0 (BitVec.ofNat 32 (32 * r.val))) S32x512.size (k0_off4_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off5_inb : ∀ d0 : Dev nD, ∀ a, (k0_off5 d0) a + S192x512.size a ≤ S1024x512.size a
  k0_off5_wordsbf16 : ∀ d0 : Dev nD, (Rect.unit (s := S1024x512) (k0_off5 d0) S192x512.size (k0_off5_inb d0)).WholeWords (EltTy.packing .bf16)
  k0_dev8_lt : ∀ d0 : Dev nD, (k0_dev8 d0) < nD
  k0_off6_inb : ∀ d0 : Dev nD, ∀ (r : Fin 5), ∀ a, (k0_off6 d0 (BitVec.ofNat 32 (32 * r.val))) a + S32x512.size a ≤ S1024x512.size a
  k0_off6_wordsbf16 : ∀ d0 : Dev nD, ∀ (r : Fin 5), (Rect.unit (s := S1024x512) (k0_off6 d0 (BitVec.ofNat 32 (32 * r.val))) S32x512.size (k0_off6_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off7_inb : ∀ d0 : Dev nD, ∀ a, (k0_off7 d0) a + S160x512.size a ≤ S1024x512.size a
  k0_off7_wordsbf16 : ∀ d0 : Dev nD, (Rect.unit (s := S1024x512) (k0_off7 d0) S160x512.size (k0_off7_inb d0)).WholeWords (EltTy.packing .bf16)
  k0_off8_inb : ∀ d0 : Dev nD, ∀ a, (k0_off8 d0) a + S192x512.size a ≤ S1024x512.size a
  k0_off8_wordsbf16 : ∀ d0 : Dev nD, (Rect.unit (s := S1024x512) (k0_off8 d0) S192x512.size (k0_off8_inb d0)).WholeWords (EltTy.packing .bf16)
  k0_off9_inb : ∀ d0 : Dev nD, ∀ (r : Fin 5), ∀ a, (k0_off9 d0 (BitVec.ofNat 32 (32 * r.val))) a + S32x512.size a ≤ S1024x512.size a
  k0_off9_wordsbf16 : ∀ d0 : Dev nD, ∀ (r : Fin 5), (Rect.unit (s := S1024x512) (k0_off9 d0 (BitVec.ofNat 32 (32 * r.val))) S32x512.size (k0_off9_inb d0 r)).WholeWords (EltTy.packing .bf16)
  hstage0_0 : ∀ j, (stage0_0 j).IsWhole

variable [Facts₀]

abbrev cc0_scratch2 : DmaSems sig S5 := SemArray.consecutive 1 S5 hcc0_scratch2
abbrev cc0_scratch3 : DmaSems sig S5 := SemArray.consecutive 6 S5 hcc0_scratch3
abbrev cc0_scratch4 : DmaSems sig S2 := SemArray.consecutive 11 S2 hcc0_scratch4
abbrev cc0_scratch5 : DmaSems sig S5 := SemArray.consecutive 13 S5 hcc0_scratch5
abbrev cc0_scratch6 : DmaSems sig S5 := SemArray.consecutive 18 S5 hcc0_scratch6
abbrev cc0_scratch7 : DmaSems sig S2 := SemArray.consecutive 23 S2 hcc0_scratch7

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KI.Mesh.lean ====
/-
  The mesh arithmetic of the all-gather: the 2 × 2 × 2 mesh numbers device (x, y, z) as 4x + 2y + z. A device's
  partner across axis y holds the other block of the gathered array; its partner across axis x holds the same block and
  forwards the complementary slab of the other one. Which slab a device forwards is decided by the parity of x + z:
  rows [352 s, 352 s + 160) of the 512-row block, s that parity; rows [160, 352) travel directly.
-/
import proofs.«900668_g7700000000000669_dist_ag_v7x_xyz2x2x2_y_m512_n512_bf16_1_alg».proof.Proof.Gen.KernelIdeal

namespace Cert.KernelIdeal.AG

open Cert.KernelIdeal Cert.KernelIdeal.Gen Idealize.ShloMosaic

/-- The partner across mesh axis y (same x and z, the other y). -/
def yN (c : Dev nD) : Dev nD := ⟨k0_dev1 c, k0_dev1_lt c⟩
/-- The partner across mesh axis x (same y and z, the other x). -/
def xN (c : Dev nD) : Dev nD := ⟨k0_dev2 c, k0_dev2_lt c⟩

theorem yN_yN (c : Dev nD) : yN (yN c) = c := by revert c; decide +kernel
theorem xN_xN (c : Dev nD) : xN (xN c) = c := by revert c; decide +kernel
theorem yN_ne_xN (c : Dev nD) : yN c ≠ xN c := by revert c; decide +kernel
theorem yN_ne_self (c : Dev nD) : yN c ≠ c := by revert c; decide +kernel
theorem xN_ne_self (c : Dev nD) : xN c ≠ c := by revert c; decide +kernel
theorem yN_xN (c : Dev nD) : yN (xN c) = xN (yN c) := by revert c; decide +kernel

def yEquiv : Dev nD ≃ Dev nD := ⟨yN, yN, yN_yN, yN_yN⟩
def xEquiv : Dev nD ≃ Dev nD := ⟨xN, xN, xN_xN, xN_xN⟩

/-- Every device id the body computes is one of the two partners. -/
theorem dev1_eq (c : Dev nD) : (⟨k0_dev1 c, k0_dev1_lt c⟩ : Dev nD) = yN c := rfl
theorem dev2_eq (c : Dev nD) : (⟨k0_dev2 c, k0_dev2_lt c⟩ : Dev nD) = xN c := rfl
theorem dev3_eq (c : Dev nD) : (⟨k0_dev3 c, k0_dev3_lt c⟩ : Dev nD) = yN c := Fin.ext ((k0_dev3_eq c).trans (k0_dev1_eq c).symm)
theorem dev4_eq (c : Dev nD) : (⟨k0_dev4 c, k0_dev4_lt c⟩ : Dev nD) = yN c := Fin.ext ((k0_dev4_eq c).trans (k0_dev1_eq c).symm)
theorem dev5_eq (c : Dev nD) : (⟨k0_dev5 c, k0_dev5_lt c⟩ : Dev nD) = yN c := Fin.ext ((k0_dev5_eq c).trans (k0_dev1_eq c).symm)
theorem dev6_eq (c : Dev nD) : (⟨k0_dev6 c, k0_dev6_lt c⟩ : Dev nD) = yN c := Fin.ext ((k0_dev6_eq c).trans (k0_dev1_eq c).symm)
theorem dev7_eq (c : Dev nD) : (⟨k0_dev7 c, k0_dev7_lt c⟩ : Dev nD) = yN c := Fin.ext ((k0_dev7_eq c).trans (k0_dev1_eq c).symm)
theorem dev8_eq (c : Dev nD) : (⟨k0_dev8 c, k0_dev8_lt c⟩ : Dev nD) = yN c := Fin.ext ((k0_dev8_eq c).trans (k0_dev1_eq c).symm)
theorem dev9_eq (c : Dev nD) : (⟨k0_dev9 c, k0_dev9_lt c⟩ : Dev nD) = xN c := Fin.ext ((k0_dev9_eq c).trans (k0_dev2_eq c).symm)
theorem dev10_eq (c : Dev nD) : (⟨k0_dev10 c, k0_dev10_lt c⟩ : Dev nD) = xN c := Fin.ext ((k0_dev10_eq c).trans (k0_dev2_eq c).symm)
theorem dev11_eq (c : Dev nD) : (⟨k0_dev11 c, k0_dev11_lt c⟩ : Dev nD) = xN c := Fin.ext ((k0_dev11_eq c).trans (k0_dev2_eq c).symm)
theorem dev12_eq (c : Dev nD) : (⟨k0_dev12 c, k0_dev12_lt c⟩ : Dev nD) = xN c := Fin.ext ((k0_dev12_eq c).trans (k0_dev2_eq c).symm)
theorem dev13_eq (c : Dev nD) : (⟨k0_dev13 c, k0_dev13_lt c⟩ : Dev nD) = xN c := Fin.ext ((k0_dev13_eq c).trans (k0_dev2_eq c).symm)

/-- The device's coordinate on mesh axis y: which block of the gathered array it holds. -/
def yC (c : Dev nD) : ℕ := (c.val / 2) % 2
/-- The parity of x + z: which outer slab of the partner's block the device receives directly. -/
def sP (c : Dev nD) : ℕ := (c.val / 4 + c.val % 2) % 2

theorem yC_lt (c : Dev nD) : yC c < 2 := Nat.mod_lt _ (by decide)
theorem sP_lt (c : Dev nD) : sP c < 2 := Nat.mod_lt _ (by decide)
theorem yC_yN (c : Dev nD) : yC (yN c) = 1 - yC c := by revert c; decide +kernel
theorem sP_yN (c : Dev nD) : sP (yN c) = sP c := by revert c; decide +kernel
theorem yC_xN (c : Dev nD) : yC (xN c) = yC c := by revert c; decide +kernel
theorem sP_xN (c : Dev nD) : sP (xN c) = 1 - sP c := by revert c; decide +kernel

/-- The row offsets the body computes, in closed form over the two coordinates. -/
theorem off1_eq (c : Dev nD) : k0_off1 c = ![352 * sP c, 0] := by revert c; decide +kernel
theorem off2_eq (c : Dev nD) : k0_off2 c = ![352 * (1 - sP c), 0] := by revert c; decide +kernel
theorem off3_eq (c : Dev nD) : k0_off3 c = ![512 * yC c, 0] := k0_off3_eq c
theorem off4_eq (c : Dev nD) (r : Fin 5) : k0_off4 c (BitVec.ofNat 32 (32 * r.val)) = ![352 * sP c + 32 * r.val, 0] := by
  revert c r; decide +kernel
theorem off5_eq (c : Dev nD) : k0_off5 c = ![512 * yC c + 160, 0] := k0_off5_eq c
theorem off6_eq (c : Dev nD) (r : Fin 5) :
    k0_off6 c (BitVec.ofNat 32 (32 * r.val)) = ![512 * (1 - yC c) + 352 * sP c + 32 * r.val, 0] := by
  revert c r; decide +kernel
theorem off7_eq (c : Dev nD) : k0_off7 c = ![512 * (1 - yC c) + 352 * sP c, 0] := by revert c; decide +kernel
theorem off8_eq (c : Dev nD) : k0_off8 c = ![512 * (1 - yC c) + 160, 0] := by revert c; decide +kernel
theorem off9_eq (c : Dev nD) (r : Fin 5) :
    k0_off9 c (BitVec.ofNat 32 (32 * r.val)) = ![512 * (1 - yC c) + 352 * (1 - sP c) + 32 * r.val, 0] := by
  revert c r; decide +kernel

end Cert.KernelIdeal.AG
-- ==== Proof.KI.Sched.lean ====
/-
  The protocol of the all-gather, as a schedule of semaphore rounds.

  Every device c owns one barrier cell and twenty-four transfer cells. Its barrier cell is paid one unit by each of
  its two partners at their entry; the partner across y hands over, with its unit, its receive scratch and the slab of
  its result array that c's direct transfer fills, the partner across x the slab of its result array that c's
  forwarded pieces fill. Each transfer pays two cells: the sender's send cell gives the source back, the receiver's
  receive cell hands the destination over, holding what the source held. All contents are named from the launch memory:
  the staging scratch holds the device's block of x entry by entry converted to bf16, the receive scratch rows
  [352 s, 352 s + 160) of the y-partner's staging scratch, and the result array both blocks in gathered order.
-/
import proofs.«900668_g7700000000000669_dist_ag_v7x_xyz2x2x2_y_m512_n512_bf16_1_alg».proof.Proof.KI.Mesh
import proofs.«900668_g7700000000000669_dist_ag_v7x_xyz2x2x2_y_m512_n512_bf16_1_alg».proof.Proof.Gen.KernelIdeal.Skeleton
import proofs.«900668_g7700000000000669_dist_ag_v7x_xyz2x2x2_y_m512_n512_bf16_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

/-! ## The resource algebra: the pipeline's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs -/

abbrev xM : Memref sig .tc .vmem S512x512 .f32 := Memref.whole cc0_stg0_0
abbrev oM : Memref sig .tc .hbm S1024x512 .bf16 := Memref.whole main_v1
abbrev vS : Memref sig .tc .vmem S512x512 .bf16 := Memref.whole cc0_scratch0
abbrev vR : Memref sig .tc .vmem S160x512 .bf16 := Memref.whole cc0_scratch1

abbrev xL (c : Dev nD) : Loc nD τ sig := (c : Thread nD τ).loc cc0_stg0_0
abbrev oL (c : Dev nD) : Loc nD τ sig := (c : Thread nD τ).loc main_v1
abbrev sL (c : Dev nD) : Loc nD τ sig := (c : Thread nD τ).loc cc0_scratch0
abbrev rL (c : Dev nD) : Loc nD τ sig := (c : Thread nD τ).loc cc0_scratch1

/-! ## Row slabs: rows [r, r + n), every column -/

abbrev oSlab (r n : ℕ) (h : r + n ≤ 1024) : Rect S1024x512 := Rect.unit (s := S1024x512) ![r, 0] ![n, 512] (Rect.inb₂ h (show (0 : ℕ) + 512 ≤ 512 from Nat.le_refl _))
abbrev sSlab (r n : ℕ) (h : r + n ≤ 512) : Rect S512x512 := Rect.unit (s := S512x512) ![r, 0] ![n, 512] (Rect.inb₂ h (show (0 : ℕ) + 512 ≤ 512 from Nat.le_refl _))
abbrev rSlab (r n : ℕ) (h : r + n ≤ 160) : Rect S160x512 := Rect.unit (s := S160x512) ![r, 0] ![n, 512] (Rect.inb₂ h (show (0 : ℕ) + 512 ≤ 512 from Nat.le_refl _))

/-- Row offsets of the pieces, in closed form over the device's two coordinates. -/
abbrev fwd (c : Dev nD) : ℕ := 352 * sP c
abbrev rfw (c : Dev nD) : ℕ := 352 * (1 - sP c)
abbrev mine (c : Dev nD) : ℕ := 512 * yC c
abbrev other (c : Dev nD) : ℕ := 512 * (1 - yC c)

theorem fwd_le (c : Dev nD) : fwd c ≤ 352 := by have := sP_lt c; unfold fwd; omega
theorem rfw_le (c : Dev nD) : rfw c ≤ 352 := by unfold rfw; omega
theorem mine_le (c : Dev nD) : mine c ≤ 512 := by have := yC_lt c; unfold mine; omega
theorem other_le (c : Dev nD) : other c ≤ 512 := by unfold other; omega

/-! ## Contents, named from the launch memory -/

/-- The device's block of x as the pipeline stages it. -/
def xstg (c : Dev nD) : (cc0_stg0_0 : Ref sig .tc).ty.Contents (Elt F) :=
  (win0_0.blk (0 : Fin 1)).view.read (Elt F) (m ((c : Thread nD τ).loc main_arg0))

/-- The staging scratch after the three stores: the block, every entry converted to bf16. -/
def stgC (c : Dev nD) : Buf (Elt F) (sL c) :=
  (truncf .bf16 (xstg m c : FVec F S512x512 .f32) bitsLt_bf16_f32 : FVec F S512x512 .bf16)

/-- The receive scratch once the y-partner's five transfers have landed: its rows [fwd, fwd + 160). -/
def recvC (c : Dev nD) : Buf (Elt F) (rL c) :=
  fun i => stgC m (yN c) (ix2 (⟨fwd c + ((i : S160x512.Idx) 0).val, by have := fwd_le c; have := idx2_lt0 (i : S160x512.Idx); omega⟩ : Fin 512) ((i : S160x512.Idx) 1))

/-- The result array at the end: the device's own block in its place; of the other block, the slab the x-partner
    forwarded holds what that partner's y-partner staged, the rest what the device's own y-partner staged. (All devices with one
    y coordinate hold the same block of x, so under the claim's layout hypothesis the two partners' staging scratches agree.) -/
def outC (c : Dev nD) : Buf (Elt F) (oL c) :=
  fun i =>
    let r : Fin 512 := ⟨((i : S1024x512.Idx) 0).val % 512, Nat.mod_lt _ (by decide)⟩
    if ((i : S1024x512.Idx) 0).val / 512 = yC c then stgC m c (ix2 r ((i : S1024x512.Idx) 1))
    else if rfw c ≤ r.val ∧ r.val < rfw c + 160 then stgC m (yN (xN c)) (ix2 r ((i : S1024x512.Idx) 1))
    else stgC m (yN c) (ix2 r ((i : S1024x512.Idx) 1))

/-! ## The cells -/

/-- The runtime's barrier semaphore of collective id 0. -/
abbrev barS : Sem sig := (SemArray.scalar (sig.barrier 0 rfl) : Sems sig S_).sem

/-- The protocol's semaphores on a device, by number: 0 the barrier; k ≥ 1 the DMA semaphore k — 1..5 the first hop's
    send side, 6..10 its receive side, 11 and 12 the direct slab's, 13..17 the second hop's send side, 18..22 its
    receive side, 23 and 24 the two local copies'. (DMA semaphore 0 is the pipeline's own.) -/
def csem : Fin 25 → SemLoc sig
  | ⟨0, _⟩ => .reg barS
  | ⟨k + 1, h⟩ => .dma (⟨k + 1, h⟩ : Fin 25)

/-- The number of a protocol semaphore. -/
def semIx : SemLoc sig → Option (Fin 25)
  | .reg _ => some 0
  | .dma q => if (q : Fin 25).val = 0 then none else some q

theorem semIx_csem (k : Fin 25) : semIx (csem k) = some k := by revert k; decide
theorem csem_injective : Function.Injective csem := fun a b h => by
  have := congrArg semIx h; rw [semIx_csem, semIx_csem] at this; exact Option.some.inj this

abbrev kcell (ck : Dev nD × Fin 25) : GSem nD τ sig := ((ck.1 : Thread nD τ), csem ck.2)
abbrev barCell (c : Dev nD) : GSem nD τ sig := kcell (c, 0)

/-- Cell numbers by role. -/
abbrev kYS (j : Fin 5) : Fin 25 := ⟨j.val + 1, by omega⟩
abbrev kYR (j : Fin 5) : Fin 25 := ⟨j.val + 6, by omega⟩
abbrev kOS : Fin 25 := 11
abbrev kOR : Fin 25 := 12
abbrev kFS (j : Fin 5) : Fin 25 := ⟨j.val + 13, by omega⟩
abbrev kFR (j : Fin 5) : Fin 25 := ⟨j.val + 18, by omega⟩
abbrev kOwn : Fin 25 := 23
abbrev kStg : Fin 25 := 24

/-! ## Amounts: a transfer credits the tile count of what it moves -/

abbrev N32 : ℕ := tileCredit S32x512 .bf16
abbrev N160 : ℕ := tileCredit S160x512 .bf16
abbrev N192 : ℕ := tileCredit S192x512 .bf16
abbrev N512 : ℕ := tileCredit S512x512 .bf16

def amt (k : Fin 25) : ℕ :=
  if k.val = 0 then 1 else if k.val = 11 ∨ k.val = 12 then N192 else if k.val = 23 then N512 else if k.val = 24 then N160 else N32

theorem amt_pos (k : Fin 25) : 0 < amt k := by
  unfold amt; split_ifs <;> first | exact Nat.one_pos | exact tileCredit_pos _ _ (by decide)

/-! ## The pieces of buffer that change hands

  Sources are held at half shares: the staging scratch is read by the copy into the device's own block (left half, whole
  buffer) while its slabs are read by the transfers to the y-partner (right half); the receive scratch's slabs are each
  read by a forwarding transfer (right half) and, all together, by the local copy into the result (left half). -/

abbrev qL : PosShare TreeShare := fullShare.left
abbrev qR : PosShare TreeShare := fullShare.right

/-- Rows of the receive scratch that transfer j fills. -/
abbrev rJ (j : Fin 5) : Rect S160x512 := rSlab (32 * j.val) 32 (by omega)
/-- Rows of the staging scratch that transfer j to the y-partner reads. -/
abbrev sJ (c : Dev nD) (j : Fin 5) : Rect S512x512 := sSlab (fwd c + 32 * j.val) 32 (by have := fwd_le c; omega)
/-- Rows of the staging scratch that travel directly. -/
abbrev sO : Rect S512x512 := sSlab 160 192 (by omega)
/-- The slabs of a device's result array: its own block; the direct slab of the other block; the slab it receives
    through its receive scratch; the slab its x-partner forwards, and that slab's five pieces. -/
abbrev oOwn (c : Dev nD) : Rect S1024x512 := oSlab (mine c) 512 (by have := mine_le c; omega)
abbrev oDir (c : Dev nD) : Rect S1024x512 := oSlab (other c + 160) 192 (by have := other_le c; omega)
abbrev oStg (c : Dev nD) : Rect S1024x512 := oSlab (other c + fwd c) 160 (by have := other_le c; have := fwd_le c; omega)
abbrev oFwd (c : Dev nD) : Rect S1024x512 := oSlab (other c + rfw c) 160 (by have := other_le c; have := rfw_le c; omega)
abbrev oFJ (c : Dev nD) (j : Fin 5) : Rect S1024x512 := oSlab (other c + rfw c + 32 * j.val) 32 (by have := other_le c; have := rfw_le c; omega)

/-! ## Payloads -/

/-- With the y-partner's unit: its receive scratch, whatever it holds, and the direct slab of its result array. -/
def barPayY (c : Dev nD) : sProp 𝕄 :=
  iprop((∃ f, rL (yN c) ↦{fullShare} f) ∗ (∃ f, oL (yN c) ↦[(oDir (yN c)).set]{fullShare} f))
/-- With the x-partner's unit: the slab of its result array that this device's forwarded pieces fill. -/
def barPayX (c : Dev nD) : sProp 𝕄 := iprop(∃ f, oL (xN c) ↦[(oFwd (xN c)).set]{fullShare} f)

def pay (c : Dev nD) (k : Fin 25) (d : Bool) : sProp 𝕄 :=
  if k.val = 0 then (if d then barPayX c else barPayY c)
  else if h : 1 ≤ k.val ∧ k.val ≤ 5 then sL c ↦[(sJ c ⟨k.val - 1, by omega⟩).set]{qR} stgC m c
  else if h : 6 ≤ k.val ∧ k.val ≤ 10 then rL c ↦[(rJ ⟨k.val - 6, by omega⟩).set]{fullShare} recvC m c
  else if k.val = 11 then sL c ↦[sO.set]{qR} stgC m c
  else if k.val = 12 then oL c ↦[(oDir c).set]{fullShare} outC m c
  else if h : 13 ≤ k.val ∧ k.val ≤ 17 then rL c ↦[(rJ ⟨k.val - 13, by omega⟩).set]{qR} recvC m c
  else if h : 18 ≤ k.val ∧ k.val ≤ 22 then oL c ↦[(oFJ c ⟨k.val - 18, by omega⟩).set]{fullShare} outC m c
  else if k.val = 23 then iprop((oL c ↦[(oOwn c).set]{fullShare} outC m c) ∗ (sL c ↦{qL} stgC m c))
  else iprop((oL c ↦[(oStg c).set]{fullShare} outC m c) ∗ (rL c ↦{qL} recvC m c))

/-! ## The schedule: one round -/

def agRd : Rounds.Schedule (GSem nD τ sig) Bool 𝕄 where
  duties g r := if r = 0 ∧ g.1.2 = .tc then (semIx g.2).elim ∅ (fun k => if k.val = 0 then Finset.univ else {false}) else ∅
  amount g _ _ := (semIx g.2).elim 1 amt
  payload g _ d := (semIx g.2).elim iprop(emp) (fun k => pay m g.1.1 k d)
  amount_pos g _ _ _ := by
    cases semIx g.2 with
    | none => exact Nat.one_pos
    | some k => exact amt_pos k

instance agRd_payload_storable (g : GSem nD τ sig) (r : ℕ) (d : Bool) :
    BI.Storable (upEmb : UEmb _ 𝕄) ((agRd (F := F) m).payload g r d) := by
  show BI.Storable upEmb ((semIx g.2).elim iprop(emp) (fun k => pay m g.1.1 k d))
  cases semIx g.2 with
  | none => exact (inferInstance : BI.Storable upEmb (iprop(emp) : sProp 𝕄))
  | some k =>
    show BI.Storable upEmb (pay m g.1.1 k d)
    unfold pay barPayX barPayY
    (repeat' split) <;> infer_instance

section Tables
variable (c : Dev nD)

theorem duties_cell (k : Fin 25) :
    (agRd (F := F) m).duties (kcell (c, k)) 0 = if k.val = 0 then Finset.univ else {false} := by
  show (if (0 : ℕ) = 0 ∧ ((c : Thread nD τ)).2 = .tc then (semIx (csem k)).elim ∅ (fun k => if k.val = 0 then Finset.univ else {false}) else ∅) = _
  rw [if_pos ⟨rfl, rfl⟩, semIx_csem]; rfl
theorem duties_bar : (agRd (F := F) m).duties (barCell c) 0 = Finset.univ := by rw [duties_cell]; rfl
theorem duties_xfer (k : Fin 25) (hk : k.val ≠ 0) : (agRd (F := F) m).duties (kcell (c, k)) 0 = {false} := by
  rw [duties_cell, if_neg hk]
theorem duties_later (g : GSem nD τ sig) : ∀ r, 1 ≤ r → (agRd (F := F) m).duties g r = ∅ :=
  fun r hr => by dsimp only [agRd]; rw [if_neg fun h => by omega]
theorem amount_cell (k : Fin 25) (d : Bool) : (agRd (F := F) m).amount (kcell (c, k)) 0 d = amt k := by
  show (semIx (csem k)).elim 1 amt = _; rw [semIx_csem]; rfl
theorem payload_cell (k : Fin 25) (d : Bool) : (agRd (F := F) m).payload (kcell (c, k)) 0 d = pay m c k d := by
  show (semIx (csem k)).elim iprop(emp) (fun k => pay m c k d) = _; rw [semIx_csem]; rfl

theorem expect_bar : (agRd (F := F) m).expect (barCell c) 0 = 2 := by
  unfold Schedule.expect Schedule.amountOf
  rw [duties_bar, Finset.sum_congr rfl fun d _ => amount_cell m c 0 d, Finset.sum_const, Finset.card_univ, Fintype.card_bool, smul_eq_mul]; rfl
theorem expect_xfer (k : Fin 25) (hk : k.val ≠ 0) : (agRd (F := F) m).expect (kcell (c, k)) 0 = amt k := by
  unfold Schedule.expect Schedule.amountOf; rw [duties_xfer m c k hk, Finset.sum_singleton, amount_cell]

theorem pay_bar_false : pay m c 0 false = barPayY c := rfl
theorem pay_bar_true : pay m c 0 true = barPayX c := rfl
theorem pay_YS (j : Fin 5) (d : Bool) : pay m c (kYS j) d = (sL c ↦[(sJ c j).set]{qR} stgC m c : sProp 𝕄) := by fin_cases j <;> rfl
theorem pay_YR (j : Fin 5) (d : Bool) : pay m c (kYR j) d = (rL c ↦[(rJ j).set]{fullShare} recvC m c : sProp 𝕄) := by fin_cases j <;> rfl
theorem pay_OS (d : Bool) : pay m c kOS d = (sL c ↦[sO.set]{qR} stgC m c : sProp 𝕄) := rfl
theorem pay_OR (d : Bool) : pay m c kOR d = (oL c ↦[(oDir c).set]{fullShare} outC m c : sProp 𝕄) := rfl
theorem pay_FS (j : Fin 5) (d : Bool) : pay m c (kFS j) d = (rL c ↦[(rJ j).set]{qR} recvC m c : sProp 𝕄) := by fin_cases j <;> rfl
theorem pay_FR (j : Fin 5) (d : Bool) : pay m c (kFR j) d = (oL c ↦[(oFJ c j).set]{fullShare} outC m c : sProp 𝕄) := by fin_cases j <;> rfl
theorem pay_Own (d : Bool) : pay m c kOwn d = (iprop((oL c ↦[(oOwn c).set]{fullShare} outC m c) ∗ (sL c ↦{qL} stgC m c)) : sProp 𝕄) := rfl
theorem pay_Stg (d : Bool) : pay m c kStg d = (iprop((oL c ↦[(oStg c).set]{fullShare} outC m c) ∗ (rL c ↦{qL} recvC m c)) : sProp 𝕄) := rfl

/-- The rest of the barrier cell's round, no duty taken: both partners' payloads. -/
theorem rest_bar : bigSep ((agRd (F := F) m).duties (barCell c) 0 \ ∅) (fun d => (agRd (F := F) m).payload (barCell c) 0 d)
    = iprop(barPayY c ∗ barPayX c) := by
  rw [Finset.sdiff_empty, duties_bar, bigSep_univ_eq_bigSepL [false, true] (by decide) (by decide), bigSepL_cons_cons, bigSepL_singleton,
    payload_cell, payload_cell]
  rfl
/-- The rest of a transfer cell's round: its one payload. -/
theorem rest_xfer (k : Fin 25) (hk : k.val ≠ 0) :
    bigSep ((agRd (F := F) m).duties (kcell (c, k)) 0 \ ∅) (fun d => (agRd (F := F) m).payload (kcell (c, k)) 0 d) = pay m c k false := by
  rw [Finset.sdiff_empty, duties_xfer m c k hk, bigSep_singleton, payload_cell]

end Tables

/-! ## What a device owes, payment by payment

  In program order a device pays: its unit to the y-partner's barrier, its unit to the x-partner's barrier, the five
  first-hop transfers, the direct slab, the five forwarded pieces. What it still owes is a sum whose last summand is
  the next payment. -/

section Owed
variable (c : Dev nD)

abbrev tFR (j : Fin 5) : CellTallies nD τ sig Unit := tallyAt (kcell (xN c, kFR j)) () N32
abbrev tYR (j : Fin 5) : CellTallies nD τ sig Unit := tallyAt (kcell (yN c, kYR j)) () N32

def OF5 : CellTallies nD τ sig Unit := 0
def OF4 : CellTallies nD τ sig Unit := OF5 + tFR c 4
def OF3 : CellTallies nD τ sig Unit := OF4 c + tFR c 3
def OF2 : CellTallies nD τ sig Unit := OF3 c + tFR c 2
def OF1 : CellTallies nD τ sig Unit := OF2 c + tFR c 1
def OF0 : CellTallies nD τ sig Unit := OF1 c + tFR c 0
def OO : CellTallies nD τ sig Unit := OF0 c + tallyAt (kcell (yN c, kOR)) () N192
def OY4 : CellTallies nD τ sig Unit := OO c + tYR c 4
def OY3 : CellTallies nD τ sig Unit := OY4 c + tYR c 3
def OY2 : CellTallies nD τ sig Unit := OY3 c + tYR c 2
def OY1 : CellTallies nD τ sig Unit := OY2 c + tYR c 1
def OY0 : CellTallies nD τ sig Unit := OY1 c + tYR c 0
def OX : CellTallies nD τ sig Unit := OY0 c + tallyAt (barCell (xN c)) () 1
/-- Everything, at launch. -/
def O₀ : CellTallies nD τ sig Unit := OX c + tallyAt (barCell (yN c)) () 1

/-- What is owed while waiting for first-hop piece j: the forwarded pieces j, …, 4. -/
def OFfrom : Fin 5 → CellTallies nD τ sig Unit
  | 0 => OF0 c | 1 => OF1 c | 2 => OF2 c | 3 => OF3 c | 4 => OF4 c

end Owed

/-! ## Levels: a device waits only on a cell below everything it still owes

  Staging, send and local-copy cells at 0 (waited owing anything or nothing); a barrier cell at 1 (waited owing transfers);
  first-hop receive cells and the direct slab's at 2 (waited owing forwarded pieces only); second-hop receive cells at 3. -/

def L (g : GSem nD τ sig) : Finset Unit := if g.1.2 = .tc then {()} else ∅
def lvK (k : Fin 25) : ℕ :=
  if k.val = 0 then 1 else if (6 ≤ k.val ∧ k.val ≤ 10) ∨ k.val = 12 then 2 else if 18 ≤ k.val ∧ k.val ≤ 22 then 3 else 0
def lv (g : GSem nD τ sig) (_ : Unit) : ℕ := (semIx g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 25) (u : Unit) : lv (kcell (c, k)) u = lvK k := by
  show (semIx (csem k)).elim 0 lvK = _; rw [semIx_csem]; rfl

end Cert.KernelIdeal.AG

end
-- ==== Proof.KI.Data.lean ====
/-
  What each device starts its kernel body from and ends it with: the ghost state of the protocol (every cell's invariant
  and first round, the device's positions on its own cells, the tokens of the duties it pays), the credit its partners owe
  its cells, and its buffers — the result array and the two scratches whole.
-/
import proofs.«900668_g7700000000000669_dist_ag_v7x_xyz2x2x2_y_m512_n512_bf16_1_alg».proof.Proof.KI.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's own (scoped) semaphores as the launch indexes them: the DMA semaphores 1, …, 24. -/
abbrev osem (i : Fin 24) : SemLoc sig := .dma (⟨i.val + 1, by omega⟩ : Fin 25)
theorem osem_eq (i : Fin 24) : osem i = csem ⟨i.val + 1, by omega⟩ := by revert i; decide

/-- Every cell's invariant, at the names the launch allocated them, and that every cell's round 0 is reached. -/
def records (K : Dev nD × Fin 25 → ℕ) : sProp 𝕄 :=
  iprop((bigSep Finset.univ fun ck : Dev nD × Fin 25 => cellInv ER (agRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_at' (K : Dev nD × Fin 25 → ℕ) (ck : Dev nD × Fin 25) :
    (bigSep Finset.univ fun ck : Dev nD × Fin 25 => (cellInv ER (agRd m) (K ck) (kcell ck) : sProp 𝕄)) ⊢ cellInv ER (agRd m) (K ck) (kcell ck) :=
  bigSep_elim (Finset.mem_univ ck)
theorem reached_at' (ck : Dev nD × Fin 25) :
    (bigSep Finset.univ fun ck : Dev nD × Fin 25 => (reached ER (kcell ck) 0 : sProp 𝕄)) ⊢ reached ER (kcell ck) 0 :=
  bigSep_elim (Finset.mem_univ ck)
theorem inv_at (K : Dev nD × Fin 25 → ℕ) (ck : Dev nD × Fin 25) : records m K ⊢ cellInv ER (agRd m) (K ck) (kcell ck) := by
  unfold records; iintro ⟨HI, -⟩; iapply (inv_at' m K ck); iexact HI
theorem reached_at (K : Dev nD × Fin 25 → ℕ) (ck : Dev nD × Fin 25) : records m K ⊢ reached ER (kcell ck) 0 := by
  unfold records; iintro ⟨-, HR⟩; iapply (reached_at' (F := F) ck); iexact HR

/-- The device's positions: round 0 of each of its own cells, nothing taken. -/
def posAll (c : Dev nD) : sProp 𝕄 := bigSep Finset.univ fun k : Fin 25 => atPos ER (kcell (c, k)) 0 ∅ 0

/-- The tokens of the duties the device pays: a unit on each partner's barrier cell, the receive side of each transfer it
    sends, and the send side (its own cell) of each transfer and local copy it issues. -/
def payToks (c : Dev nD) : sProp 𝕄 :=
  iprop(dutyTok ER (barCell (yN c)) 0 false ∗ dutyTok ER (barCell (xN c)) 0 true
    ∗ (bigSep Finset.univ fun j : Fin 5 => dutyTok ER (kcell (yN c, kYR j)) 0 false)
    ∗ dutyTok ER (kcell (yN c, kOR)) 0 false
    ∗ (bigSep Finset.univ fun j : Fin 5 => dutyTok ER (kcell (xN c, kFR j)) 0 false)
    ∗ (bigSep Finset.univ fun j : Fin 5 => dutyTok ER (kcell (c, kYS j)) 0 false)
    ∗ dutyTok ER (kcell (c, kOS)) 0 false
    ∗ (bigSep Finset.univ fun j : Fin 5 => dutyTok ER (kcell (c, kFS j)) 0 false)
    ∗ dutyTok ER (kcell (c, kOwn)) 0 false ∗ dutyTok ER (kcell (c, kStg)) 0 false)

def ghost (K : Dev nD × Fin 25 → ℕ) (c : Dev nD) : sProp 𝕄 := iprop(records m K ∗ posAll c ∗ payToks c)

/-- The credit dealt at launch for the units the partners owe the device's cells. -/
def creds (c : Dev nD) : sProp 𝕄 :=
  iprop(cred (tallyAt (barCell c) () 2)
    ∗ (bigSep Finset.univ fun j : Fin 5 => cred (tallyAt (kcell (c, kYR j)) () N32))
    ∗ cred (tallyAt (kcell (c, kOR)) () N192)
    ∗ (bigSep Finset.univ fun j : Fin 5 => cred (tallyAt (kcell (c, kFR j)) () N32)))

/-- What the device's body starts from besides its scratches: ghost state, credit, the level facts, its result array. -/
def start (c : Dev nD) : sProp 𝕄 :=
  iprop((∃ K, ghost m K c) ∗ creds c ∗ levAts L lv ∗ (oL c ↦{fullShare} m (oL c)))

def Φ₀ (c : Dev nD) : sProp 𝕄 := iprop(start m c ∗ (∃ f, sL c ↦{fullShare} f) ∗ (∃ f, rL c ↦{fullShare} f))
/-- After the point: the result array holding both blocks, the scratches whole again, the own semaphores at zero. -/
def Φ₁ (c : Dev nD) : sProp 𝕄 :=
  iprop((oL c ↦{fullShare} outC m c) ∗ ((∃ f, sL c ↦{fullShare} f) ∗ (∃ f, rL c ↦{fullShare} f))
    ∗ bigSep Finset.univ fun i : Fin 24 => semVal (((c : Thread nD τ), osem i) : GSem nD τ sig) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem share_eq (c : Dev nD) (w : Fin cfg0.W) : (dats m 0 c).share w = fullShare := by unfold Dat.share; split <;> rfl

end Cert.KernelIdeal.AG

end
-- ==== Proof.KI.Levels.lean ====
/-
  The deadlock argument's arithmetic: at each of its waits a device owes only cells of a level above the cell it
  waits on. Everything a device owes is a receive-side cell of a partner: the partners' barrier cells (level 1), the
  y-partner's first-hop and direct-slab receive cells (level 2), the x-partner's second-hop receive cells (level 3).
  It waits on its barrier owing levels 2 and 3, on a first-hop receive cell owing level 3 only, and on a level-0 cell
  (staging, send side, local copies) owing anything.
-/
import proofs.«900668_g7700000000000669_dist_ag_v7x_xyz2x2x2_y_m512_n512_bf16_1_alg».proof.Proof.KI.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## Where tallies are positive -/

/-- Every cell at which the tallies are positive is a protocol cell of level at least `b`. -/
def Above (b : ℕ) (O : CellTallies nD τ sig Unit) : Prop :=
  ∀ (g : GSem nD τ sig) (u : Unit), 0 < O g u → ∃ (d : Dev nD) (k : Fin 25), g = kcell (d, k) ∧ b ≤ lvK k

theorem above_zero (b : ℕ) : Above b (0 : CellTallies nD τ sig Unit) := fun g u h => by
  rw [Pi.zero_apply, Finsupp.zero_apply] at h; exact absurd h (Nat.lt_irrefl 0)

theorem above_add {b : ℕ} {O : CellTallies nD τ sig Unit} (hO : Above b O) (d : Dev nD) (k : Fin 25) (n : ℕ) (hk : b ≤ lvK k) :
    Above b (O + tallyAt (kcell (d, k)) () n) := fun g u h => by
  rcases Pipeline.add_pos_cases h with h | h
  · exact hO g u h
  · exact ⟨d, k, (Pipeline.tallyAt_pos h).1, hk⟩

theorem above_mono {a b : ℕ} (hab : a ≤ b) {O : CellTallies nD τ sig Unit} (hO : Above b O) : Above a O := fun g u h => by
  obtain ⟨d, k, hg, hk⟩ := hO g u h; exact ⟨d, k, hg, Nat.le_trans hab hk⟩

section Owed
variable (c : Dev nD)

/-- The forwarded pieces are owed to second-hop receive cells, level 3. -/
theorem above_OF5 : Above 3 OF5 := above_zero 3
theorem above_OF4 : Above 3 (OF4 c) := above_add above_OF5 _ _ _ (by decide)
theorem above_OF3 : Above 3 (OF3 c) := above_add (above_OF4 c) _ _ _ (by decide)
theorem above_OF2 : Above 3 (OF2 c) := above_add (above_OF3 c) _ _ _ (by decide)
theorem above_OF1 : Above 3 (OF1 c) := above_add (above_OF2 c) _ _ _ (by decide)
theorem above_OF0 : Above 3 (OF0 c) := above_add (above_OF1 c) _ _ _ (by decide)
theorem above_OFfrom (j : Fin 5) : Above 3 (OFfrom c j) := by
  fin_cases j
  · exact above_OF0 c
  · exact above_OF1 c
  · exact above_OF2 c
  · exact above_OF3 c
  · exact above_OF4 c

/-- The direct slab and the first-hop pieces are owed to level-2 cells. -/
theorem above_OO : Above 2 (OO c) := above_add (above_mono (by decide) (above_OF0 c)) _ _ _ (by decide)
theorem above_OY4 : Above 2 (OY4 c) := above_add (above_OO c) _ _ _ (by decide)
theorem above_OY3 : Above 2 (OY3 c) := above_add (above_OY4 c) _ _ _ (by decide)
theorem above_OY2 : Above 2 (OY2 c) := above_add (above_OY3 c) _ _ _ (by decide)
theorem above_OY1 : Above 2 (OY1 c) := above_add (above_OY2 c) _ _ _ (by decide)
theorem above_OY0 : Above 2 (OY0 c) := above_add (above_OY1 c) _ _ _ (by decide)

/-- The two barrier units are owed to level-1 cells. -/
theorem above_OX : Above 1 (OX c) := above_add (above_mono (by decide) (above_OY0 c)) _ _ _ (by decide)
theorem above_O₀ : Above 1 (O₀ c) := above_add (above_OX c) _ _ _ (by decide)

end Owed

/-! ## The waits -/

theorem csem_zero : csem 0 = SemLoc.reg barS := rfl
theorem lvK_kYR (j : Fin 5) : lvK (kYR j) = 2 := by revert j; decide

/-- From a bound on what is owed: the index is named at every owed cell, and the cell's level is above the cut. -/
theorem above_named {b : ℕ} {O : CellTallies nD τ sig Unit} (hO : Above b O) (g : GSem nD τ sig) (u : Unit) (h : 0 < O g u) : u ∈ L g := by
  obtain ⟨d, k, rfl, -⟩ := hO g u h; rw [L_tc]; exact Finset.mem_singleton_self _
theorem above_lv {b : ℕ} {O : CellTallies nD τ sig Unit} (hO : Above (b + 1) O) (g : GSem nD τ sig) (u : Unit) (h : 0 < O g u) : b < lv g u := by
  obtain ⟨d, k, rfl, hk⟩ := hO g u h; rw [lv_kcell]; exact hk

/-- At its barrier wait a device owes transfers only: receive cells of levels 2 and 3, above its barrier cell. -/
theorem mayWait_bar (c : Dev nD) : (levAts L lv : sProp 𝕄) ⊢ MayWait (c : Thread nD τ) (.reg barS) () (OY0 c) :=
  MayOwe.of_cut (L := L) (lev := lv) 1 (fun p hp => by rw [Finset.mem_singleton.mp hp, L_tc]; exact Finset.mem_singleton_self _)
    (above_named (above_OY0 c))
    (fun p hp => by
      rw [Finset.mem_singleton.mp hp]
      show lv (kcell (c, 0)) () ≤ 1
      rw [lv_kcell]; decide)
    (above_lv (above_OY0 c))

/-- Waiting for first-hop piece j a device owes forwarded pieces only: second-hop receive cells, level 3. -/
theorem mayWait_yr (c : Dev nD) (j : Fin 5) : (levAts L lv : sProp 𝕄) ⊢ MayWait (c : Thread nD τ) (csem (kYR j)) () (OFfrom c j) :=
  MayOwe.of_cut (L := L) (lev := lv) 2 (fun p hp => by rw [Finset.mem_singleton.mp hp, L_tc]; exact Finset.mem_singleton_self _)
    (above_named (above_OFfrom c j))
    (fun p hp => by
      rw [Finset.mem_singleton.mp hp]
      show lv (kcell (c, kYR j)) () ≤ 2
      rw [lv_kcell, lvK_kYR])
    (above_lv (above_OFfrom c j))

/-- A level-0 cell (staging, send side, local copies) may be waited on owing everything or nothing. -/
theorem mayWait_stage (c : Dev nD) (q : DmaSem sig) (hq : lv (((c : Thread nD τ), SemLoc.dma q) : GSem nD τ sig) () = 0)
    (O : CellTallies nD τ sig Unit) (hO : O = O₀ c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (above_named (above_O₀ c))
      (fun p hp => by rw [Finset.mem_singleton.mp hp]; exact Nat.le_of_eq hq)
      (above_lv (above_O₀ c))
  · rw [MayWait_zero]; iintro -; iempintro

/-- info: 'Cert.KernelIdeal.AG.mayWait_bar' depends on axioms: [propext, Classical.choice, Quot.sound] -/
#guard_msgs in #print axioms mayWait_bar
/-- info: 'Cert.KernelIdeal.AG.mayWait_yr' depends on axioms: [propext, Classical.choice, Quot.sound] -/
#guard_msgs in #print axioms mayWait_yr
/-- info: 'Cert.KernelIdeal.AG.mayWait_stage' depends on axioms: [propext, Classical.choice, Quot.sound] -/
#guard_msgs in #print axioms mayWait_stage

end Cert.KernelIdeal.AG

end
-- ==== Proof.KI.Launch.lean ====
/-
  The launch: from each device's body, proved at its proof data, to the run of the whole mesh. The launch element funds
  every cell's round state, the positions and the duty tokens; one global step allocates all cells' invariants (the
  barrier cell is shared by three devices, so no device can do it alone) and deals each device the tokens of the
  duties it pays; the launch credit is what the partners owe the device's receive-side cells. The result array is no
  window of the pipeline: it enters the body whole at the launch contents and leaves it whole at the gathered contents,
  which the final state is read against.
-/
import proofs.«900668_g7700000000000669_dist_ag_v7x_xyz2x2x2_y_m512_n512_bf16_1_alg».proof.Proof.KI.Data
import proofs.«900668_g7700000000000669_dist_ag_v7x_xyz2x2x2_y_m512_n512_bf16_1_alg».proof.Proof.KI.Levels

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## The cells and the tokens of the launch element -/

theorem ownSemFacts : Pipeline.OwnSemFacts cfg0.spec osem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- The duty tokens as minted, by the cell's device: duty `false` of each of its cells, and duty `true` of its barrier cell. -/
def tokOf (cj : Dev nD × (Fin 25 ⊕ Unit)) : GSem nD τ sig × ℕ × Bool := match cj.2 with
  | .inl k => (kcell (cj.1, k), 0, false)
  | .inr _ => (barCell cj.1, 0, true)
theorem tokOf_injective : Function.Injective tokOf := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have h2 : k = k' := csem_injective (congrArg (fun x : GSem nD τ sig × ℕ × Bool => x.1.2) h)
    subst h2; rfl
  · exact absurd (show false = true from congrArg (fun x : GSem nD τ sig × ℕ × Bool => x.2.2) h) Bool.false_ne_true
  · exact absurd (show true = false from congrArg (fun x : GSem nD τ sig × ℕ × Bool => x.2.2) h) (Ne.symm Bool.false_ne_true)
  · rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 25 => dutyTok ER (kcell (c, k)) 0 false) ∗ dutyTok ER (barCell c) 0 true)

/-- What the launch element deals device `c`. -/
def G (c : Dev nD) : sProp 𝕄 :=
  iprop((bigSep Finset.univ fun k : Fin 25 => roundState ER (agRd m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (agRd m) ringCells ringToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Enumerations -/

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- A device's twenty-five cells by role. -/
theorem split25 (Φ : Fin 25 → sProp 𝕄) :
    bigSep Finset.univ Φ ⊢ iprop(Φ 0 ∗ (bigSep Finset.univ fun j : Fin 5 => Φ (kYS j)) ∗ (bigSep Finset.univ fun j : Fin 5 => Φ (kYR j)) ∗ Φ kOS ∗ Φ kOR
      ∗ (bigSep Finset.univ fun j : Fin 5 => Φ (kFS j)) ∗ (bigSep Finset.univ fun j : Fin 5 => Φ (kFR j)) ∗ Φ kOwn ∗ Φ kStg) := by
  have e1 : (bigSep Finset.univ fun j : Fin 5 => Φ (kYS j)) = iprop(Φ 1 ∗ Φ 2 ∗ Φ 3 ∗ Φ 4 ∗ Φ 5) := bigSep_fin5 _
  have e2 : (bigSep Finset.univ fun j : Fin 5 => Φ (kYR j)) = iprop(Φ 6 ∗ Φ 7 ∗ Φ 8 ∗ Φ 9 ∗ Φ 10) := bigSep_fin5 _
  have e3 : (bigSep Finset.univ fun j : Fin 5 => Φ (kFS j)) = iprop(Φ 13 ∗ Φ 14 ∗ Φ 15 ∗ Φ 16 ∗ Φ 17) := bigSep_fin5 _
  have e4 : (bigSep Finset.univ fun j : Fin 5 => Φ (kFR j)) = iprop(Φ 18 ∗ Φ 19 ∗ Φ 20 ∗ Φ 21 ∗ Φ 22) := bigSep_fin5 _
  rw [e1, e2, e3, e4, bigSep_fin25]
  iintro ⟨H0, H1, H2, H3, H4, H5, H6, H7, H8, H9, H10, H11, H12, H13, H14, H15, H16, H17, H18, H19, H20, H21, H22, H23, H24⟩
  isplitl [H0]; · iexact H0
  isplitl [H1 H2 H3 H4 H5]
  · isplitl [H1]; · iexact H1
    isplitl [H2]; · iexact H2
    isplitl [H3]; · iexact H3
    isplitl [H4]; · iexact H4
    iexact H5
  isplitl [H6 H7 H8 H9 H10]
  · isplitl [H6]; · iexact H6
    isplitl [H7]; · iexact H7
    isplitl [H8]; · iexact H8
    isplitl [H9]; · iexact H9
    iexact H10
  isplitl [H11]; · iexact H11
  isplitl [H12]; · iexact H12
  isplitl [H13 H14 H15 H16 H17]
  · isplitl [H13]; · iexact H13
    isplitl [H14]; · iexact H14
    isplitl [H15]; · iexact H15
    isplitl [H16]; · iexact H16
    iexact H17
  isplitl [H18 H19 H20 H21 H22]
  · isplitl [H18]; · iexact H18
    isplitl [H19]; · iexact H19
    isplitl [H20]; · iexact H20
    isplitl [H21]; · iexact H21
    iexact H22
  isplitl [H23]; · iexact H23
  iexact H24

/-- Cell 0 first, then the twenty-four others. -/
theorem bigSep_fin25_succ (Φ : Fin 25 → sProp 𝕄) : bigSep Finset.univ Φ = iprop(Φ 0 ∗ bigSep Finset.univ fun i : Fin 24 => Φ i.succ) := by
  rw [Fin.univ_succ, Finset.cons_eq_insert, bigSep_insert (by simp), bigSep_map]; rfl

/-! ## The global step: every cell's invariant, and the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  have e : (Pipeline.ownSems0 (Ix := Unit) (Name := ℕ) (U := UU) (Lvl := ℕ) (Val := Elt F) (τ := τ) osem c : sProp 𝕄)
      = bigSep Finset.univ fun i : Fin 24 => semVal (kcell (c, i.succ)) 0 := rfl
  rw [unscopedSems0_eq, bigSep_fin25_succ, e]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (agRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (agRd m) (kcell (c, k)) 0)
      ⊢ (|={Set.univ}=> bigSep Finset.univ fun k : Fin 25 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's own tokens, by role. -/
def myToks (c : Dev nD) : sProp 𝕄 :=
  iprop(dutyTok ER (barCell c) 0 false ∗ dutyTok ER (barCell c) 0 true
    ∗ (bigSep Finset.univ fun j : Fin 5 => dutyTok ER (kcell (c, kYR j)) 0 false)
    ∗ dutyTok ER (kcell (c, kOR)) 0 false
    ∗ (bigSep Finset.univ fun j : Fin 5 => dutyTok ER (kcell (c, kFR j)) 0 false)
    ∗ (bigSep Finset.univ fun j : Fin 5 => dutyTok ER (kcell (c, kYS j)) 0 false)
    ∗ dutyTok ER (kcell (c, kOS)) 0 false
    ∗ (bigSep Finset.univ fun j : Fin 5 => dutyTok ER (kcell (c, kFS j)) 0 false)
    ∗ dutyTok ER (kcell (c, kOwn)) 0 false ∗ dutyTok ER (kcell (c, kStg)) 0 false)

theorem toks_split (c : Dev nD) : (toks c : sProp 𝕄) ⊢ myToks c := by
  unfold toks myToks
  iintro ⟨H, HT⟩
  ihave H' := (split25 (F := F) fun k : Fin 25 => dutyTok ER (kcell (c, k)) 0 false) $$ H
  icases H' with ⟨H0, HYS, HYR, HOS, HOR, HFS, HFR, HOwn, HStg⟩
  isplitl [H0]; · iexact H0
  isplitl [HT]; · iexact HT
  isplitl [HYR]; · iexact HYR
  isplitl [HOR]; · iexact HOR
  isplitl [HFR]; · iexact HFR
  isplitl [HYS]; · iexact HYS
  isplitl [HOS]; · iexact HOS
  isplitl [HFS]; · iexact HFS
  isplitl [HOwn]; · iexact HOwn
  iexact HStg

/-- The tokens dealt to their payers: those of a device's barrier duty `false`, of its first-hop receive cells and of its
    direct-slab receive cell to its y-partner; those of its barrier duty `true` and of its second-hop receive cells to its
    x-partner; the rest stay. -/
theorem toks_around : (bigSep Finset.univ fun c : Dev nD => (myToks c : sProp 𝕄)) ⊢ bigSep Finset.univ fun c : Dev nD => payToks c := by
  unfold myToks payToks
  simp only [bigSep_sep']
  iintro ⟨H1, H2, H3, H4, H5, H6, H7, H8, H9, H10⟩
  isplitl [H1]
  · iapply (Entails.of_eq (bigSep_univ_equiv yEquiv (fun c : Dev nD => (dutyTok ER (barCell c) 0 false : sProp 𝕄)))); iexact H1
  isplitl [H2]
  · iapply (Entails.of_eq (bigSep_univ_equiv xEquiv (fun c : Dev nD => (dutyTok ER (barCell c) 0 true : sProp 𝕄)))); iexact H2
  isplitl [H3]
  · iapply (Entails.of_eq (bigSep_univ_equiv yEquiv (fun c : Dev nD => (bigSep Finset.univ fun j : Fin 5 => dutyTok ER (kcell (c, kYR j)) 0 false : sProp 𝕄)))); iexact H3
  isplitl [H4]
  · iapply (Entails.of_eq (bigSep_univ_equiv yEquiv (fun c : Dev nD => (dutyTok ER (kcell (c, kOR)) 0 false : sProp 𝕄)))); iexact H4
  isplitl [H5]
  · iapply (Entails.of_eq (bigSep_univ_equiv xEquiv (fun c : Dev nD => (bigSep Finset.univ fun j : Fin 5 => dutyTok ER (kcell (c, kFR j)) 0 false : sProp 𝕄)))); iexact H5
  isplitl [H6]; · iexact H6
  isplitl [H7]; · iexact H7
  isplitl [H8]; · iexact H8
  isplitl [H9]; · iexact H9
  iexact H10

theorem toks_deal : (bigSep Finset.univ fun c : Dev nD => (toks c : sProp 𝕄)) ⊢ bigSep Finset.univ fun c : Dev nD => payToks c :=
  (bigSep_mono fun c _ => toks_split (F := F) c).trans (toks_around (F := F))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 25 → ℕ) (c : Dev nD) : iprop(records m K ∗ (posAll c ∗ payToks c)) ⊢ G' m c := by
  unfold G' ghost
  iintro H; iexists K; iexact H

theorem regroup :
    (bigSep Finset.univ fun c : Dev nD => iprop((bigSep Finset.univ fun k : Fin 25 => iprop(∃ κ : ℕ, cellInv ER (agRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (agRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (agRd m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (posAll c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- One summand of what the devices owe, addressed through an involution of the mesh, is one credit token of the
    addressed device. -/
theorem cred_peel (A : Dev nD → CellTallies nD τ sig Unit) (k : Fin 25) (f : Dev nD → Dev nD) (hf : ∀ c, f (f c) = c) (n : ℕ) (c : Dev nD) :
    (Pipeline.launchCred (fun d => A d + tallyAt (kcell (f d, k)) () n) c : sProp 𝕄)
      ⊢ iprop(Pipeline.launchCred A c ∗ cred (tallyAt (kcell (c, k)) () n)) := by
  rw [Pipeline.launchCred_add]
  exact sep_mono_right (Pipeline.launchCred_tallyAt (csem k) f f hf hf () n c)

/-- The launch credit of a device: two units on its barrier cell, and the tile counts of the pieces its partners send on
    its first-hop, direct-slab and second-hop receive cells. -/
theorem creds_intro (c : Dev nD) : (Pipeline.launchCred O₀ c : sProp 𝕄) ⊢ creds c := by
  have q1 : (Pipeline.launchCred O₀ c : sProp 𝕄) ⊢ iprop(Pipeline.launchCred OX c ∗ cred (tallyAt (barCell c) () 1)) := cred_peel OX 0 yN yN_yN 1 c
  have q2 : (Pipeline.launchCred OX c : sProp 𝕄) ⊢ iprop(Pipeline.launchCred OY0 c ∗ cred (tallyAt (barCell c) () 1)) := cred_peel OY0 0 xN xN_xN 1 c
  have y0 : (Pipeline.launchCred OY0 c : sProp 𝕄) ⊢ iprop(Pipeline.launchCred OY1 c ∗ cred (tallyAt (kcell (c, kYR 0)) () N32)) := cred_peel OY1 (kYR 0) yN yN_yN N32 c
  have y1 : (Pipeline.launchCred OY1 c : sProp 𝕄) ⊢ iprop(Pipeline.launchCred OY2 c ∗ cred (tallyAt (kcell (c, kYR 1)) () N32)) := cred_peel OY2 (kYR 1) yN yN_yN N32 c
  have y2 : (Pipeline.launchCred OY2 c : sProp 𝕄) ⊢ iprop(Pipeline.launchCred OY3 c ∗ cred (tallyAt (kcell (c, kYR 2)) () N32)) := cred_peel OY3 (kYR 2) yN yN_yN N32 c
  have y3 : (Pipeline.launchCred OY3 c : sProp 𝕄) ⊢ iprop(Pipeline.launchCred OY4 c ∗ cred (tallyAt (kcell (c, kYR 3)) () N32)) := cred_peel OY4 (kYR 3) yN yN_yN N32 c
  have y4 : (Pipeline.launchCred OY4 c : sProp 𝕄) ⊢ iprop(Pipeline.launchCred OO c ∗ cred (tallyAt (kcell (c, kYR 4)) () N32)) := cred_peel OO (kYR 4) yN yN_yN N32 c
  have o1 : (Pipeline.launchCred OO c : sProp 𝕄) ⊢ iprop(Pipeline.launchCred OF0 c ∗ cred (tallyAt (kcell (c, kOR)) () N192)) := cred_peel OF0 kOR yN yN_yN N192 c
  have f0 : (Pipeline.launchCred OF0 c : sProp 𝕄) ⊢ iprop(Pipeline.launchCred OF1 c ∗ cred (tallyAt (kcell (c, kFR 0)) () N32)) := cred_peel OF1 (kFR 0) xN xN_xN N32 c
  have f1 : (Pipeline.launchCred OF1 c : sProp 𝕄) ⊢ iprop(Pipeline.launchCred OF2 c ∗ cred (tallyAt (kcell (c, kFR 1)) () N32)) := cred_peel OF2 (kFR 1) xN xN_xN N32 c
  have f2 : (Pipeline.launchCred OF2 c : sProp 𝕄) ⊢ iprop(Pipeline.launchCred OF3 c ∗ cred (tallyAt (kcell (c, kFR 2)) () N32)) := cred_peel OF3 (kFR 2) xN xN_xN N32 c
  have f3 : (Pipeline.launchCred OF3 c : sProp 𝕄) ⊢ iprop(Pipeline.launchCred OF4 c ∗ cred (tallyAt (kcell (c, kFR 3)) () N32)) := cred_peel OF4 (kFR 3) xN xN_xN N32 c
  have f4 : (Pipeline.launchCred OF4 c : sProp 𝕄) ⊢ iprop(Pipeline.launchCred (fun _ => OF5) c ∗ cred (tallyAt (kcell (c, kFR 4)) () N32)) := cred_peel (fun _ => OF5) (kFR 4) xN xN_xN N32 c
  have hb : iprop(cred (tallyAt (barCell c) () 1) ∗ cred (tallyAt (barCell c) () 1)) ⊢ (cred (tallyAt (barCell c) () 2) : sProp 𝕄) :=
    (cred_add _ _).2.trans (Entails.of_eq (by rw [tallyAt_add]))
  iintro H
  ihave H1 := q1 $$ H; icases H1 with ⟨H1, B1⟩
  ihave H2 := q2 $$ H1; icases H2 with ⟨H2, B2⟩
  ihave H3 := y0 $$ H2; icases H3 with ⟨H3, Y0⟩
  ihave H4 := y1 $$ H3; icases H4 with ⟨H4, Y1⟩
  ihave H5 := y2 $$ H4; icases H5 with ⟨H5, Y2⟩
  ihave H6 := y3 $$ H5; icases H6 with ⟨H6, Y3⟩
  ihave H7 := y4 $$ H6; icases H7 with ⟨H7, Y4⟩
  ihave H8 := o1 $$ H7; icases H8 with ⟨H8, O1⟩
  ihave H9 := f0 $$ H8; icases H9 with ⟨H9, F0⟩
  ihave H10 := f1 $$ H9; icases H10 with ⟨H10, F1⟩
  ihave H11 := f2 $$ H10; icases H11 with ⟨H11, F2⟩
  ihave H12 := f3 $$ H11; icases H12 with ⟨H12, F3⟩
  ihave H13 := f4 $$ H12; icases H13 with ⟨-, F4⟩
  unfold creds
  rw [bigSep_fin5, bigSep_fin5]
  isplitl [B1 B2]
  · iapply hb; isplitl [B1] <;> iassumption
  isplitl [Y0 Y1 Y2 Y3 Y4]
  · isplitl [Y0]; · iexact Y0
    isplitl [Y1]; · iexact Y1
    isplitl [Y2]; · iexact Y2
    isplitl [Y3]; · iexact Y3
    iexact Y4
  isplitl [O1]; · iexact O1
  isplitl [F0]; · iexact F0
  isplitl [F1]; · iexact F1
  isplitl [F2]; · iexact F2
  isplitl [F3]; · iexact F3
  iexact F4

/-! ## The theorem's side conditions -/

/-- What a device's body starts from: the result array, no window of the pipeline, arrives whole at the launch contents. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ho, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Ho
  · iempintro

/-- The two scratches enter the body whole, at whatever they hold. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- At the end: the result array at the gathered contents, the own semaphores at zero, the scratches whole. -/
theorem phi1_exit (c : Dev nD) :
    (dats m 0 c).Φ (Fin.last cfg0.N) ⊢ iprop((oL c ↦{fullShare} outC m c) ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨Ho, Hs, Hz⟩
  isplitl [Ho]; · iexact Ho
  isplitl [Hz]; · iexact Hz
  iexact Hs

/-- The pipeline's staging cell sits at level 0: it may be waited on owing everything (before the point) or nothing (after). -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

set_option maxRecDepth 8000 in
/-- At the compiled mesh of eight devices, for any float values, from any memory with zero counters: if every device's
    body meets its obligation, every weakly fair execution of @main terminates, and every final state has each device's
    result array at the gathered contents and its block of `x` unchanged. -/
theorem run_main (ρ : Dev nD → PrngReg) (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem (oL c) = outC m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => oL c ↦{fullShare} outC m c) (Z := fun _ => iprop(emp))
    (hX := start_intro m ρ) (hin := phi0_intro m) (hout := phi1_exit m)
    (QY := fun c s => s.mem (oL c) = outC m c)
    (hY := fun c s' => by
      iintro ⟨Ho, -, HSI⟩
      icombine HSI Ho gives %ho
      imodintro
      isplitr; · ipureintro; exact Buf.eq_of_forall_mem_univ ho
      iexact HSI)
    (hQ := fun s h c => ⟨(h c).2.2, ((h c).1 0).trans ((dats (F := F) m 0 c).arrAt_in 0 rfl _)⟩)

/-- info: 'Cert.KernelIdeal.AG.run_main' depends on axioms: [propext, Classical.choice, Quot.sound] -/
#guard_msgs in #print axioms run_main

end Cert.KernelIdeal.AG

end
-- ==== Proof.KI.Views.lean ====
/-
  The slices the transfers go through, over the row slabs of Sched.lean: the source and destination memrefs of every copy
  of the protocol, each the whole buffer restricted to a slab.
-/
import proofs.«900668_g7700000000000669_dist_ag_v7x_xyz2x2x2_y_m512_n512_bf16_1_alg».proof.Proof.KI.Sched

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-- Rows of the staging scratch that first-hop transfer j reads; rows of the receive scratch it fills (on the y-partner)
    and that second-hop transfer j reads. -/
abbrev vSJ (c : Dev nD) (j : Fin 5) : Memref sig .tc .vmem S32x512 .bf16 := vS.slice (sJ c j) (fun _ => rfl)
abbrev vRJ (j : Fin 5) : Memref sig .tc .vmem S32x512 .bf16 := vR.slice (rJ j) (fun _ => rfl)
/-- The rows of the staging scratch that travel directly, and where they land in the y-partner's result array. -/
abbrev vSO : Memref sig .tc .vmem S192x512 .bf16 := vS.slice sO (fun _ => rfl)
abbrev oMDir (c : Dev nD) : Memref sig .tc .hbm S192x512 .bf16 := oM.slice (oDir c) (fun _ => rfl)
/-- Where second-hop transfer j lands in the result array; where the two local copies land. -/
abbrev oMFJ (c : Dev nD) (j : Fin 5) : Memref sig .tc .hbm S32x512 .bf16 := oM.slice (oFJ c j) (fun _ => rfl)
abbrev oMOwn (c : Dev nD) : Memref sig .tc .hbm S512x512 .bf16 := oM.slice (oOwn c) (fun _ => rfl)
abbrev oMStg (c : Dev nD) : Memref sig .tc .hbm S160x512 .bf16 := oM.slice (oStg c) (fun _ => rfl)

/-- A slice of a whole buffer goes through its slab's elements. -/
theorem vSJ_set (c : Dev nD) (j : Fin 5) : (vSJ c j).view.set = (sJ c j).set := View.set_slice_whole _ _
theorem vRJ_set (j : Fin 5) : (vRJ j).view.set = (rJ j).set := View.set_slice_whole _ _
theorem vSO_set : vSO.view.set = sO.set := View.set_slice_whole _ _
theorem oMDir_set (c : Dev nD) : (oMDir c).view.set = (oDir c).set := View.set_slice_whole _ _
theorem oMFJ_set (c : Dev nD) (j : Fin 5) : (oMFJ c j).view.set = (oFJ c j).set := View.set_slice_whole _ _
theorem oMOwn_set (c : Dev nD) : (oMOwn c).view.set = (oOwn c).set := View.set_slice_whole _ _
theorem oMStg_set (c : Dev nD) : (oMStg c).view.set = (oStg c).set := View.set_slice_whole _ _

/-- What each transfer credits: the tile count of its rows. -/
theorem vRJ_credit (j : Fin 5) : (vRJ j).view.dmaCredit = N32 := rfl
theorem vSJ_credit (c : Dev nD) (j : Fin 5) : (vSJ c j).view.dmaCredit = N32 := rfl
theorem oMFJ_credit (c : Dev nD) (j : Fin 5) : (oMFJ c j).view.dmaCredit = N32 := rfl
theorem oMDir_credit (c : Dev nD) : (oMDir c).view.dmaCredit = N192 := rfl
theorem vSO_credit : vSO.view.dmaCredit = N192 := rfl
theorem oMOwn_credit (c : Dev nD) : (oMOwn c).view.dmaCredit = N512 := rfl
theorem oMStg_credit (c : Dev nD) : (oMStg c).view.dmaCredit = N160 := rfl

/-- The program's slices are these: its row-offset chains in closed form over the device's two coordinates. -/
theorem p_vSJ (c : Dev nD) (j : Fin 5) :
    vS.slice (Rect.unit (s := S512x512) (k0_off4 c (BitVec.ofNat 32 (32 * j.val))) S32x512.size (k0_off4_inb c j)) (fun _ => rfl) = vSJ c j :=
  Memref.slice_unit_congr vS (off4_eq c j) _ _ _ _
theorem p_oMOwn (c : Dev nD) :
    oM.slice (Rect.unit (s := S1024x512) (k0_off3 c) S512x512.size (k0_off3_inb c)) (fun _ => rfl) = oMOwn c :=
  Memref.slice_unit_congr oM (off3_eq c) _ _ _ _
theorem p_oMStg (c : Dev nD) :
    oM.slice (Rect.unit (s := S1024x512) (k0_off7 c) S160x512.size (k0_off7_inb c)) (fun _ => rfl) = oMStg c :=
  Memref.slice_unit_congr oM (off7_eq c) _ _ _ _
/-- The direct slab as its receiver waits for it. -/
theorem p_oMDir_wait (c : Dev nD) :
    oM.slice (Rect.unit (s := S1024x512) (k0_off8 c) S192x512.size (k0_off8_inb c)) (fun _ => rfl) = oMDir c :=
  Memref.slice_unit_congr oM (off8_eq c) _ _ _ _
/-- The direct slab as its sender addresses it: on the y-partner. -/
theorem p_oMDir_send (c : Dev nD) :
    oM.slice (Rect.unit (s := S1024x512) (k0_off5 c) S192x512.size (k0_off5_inb c)) (fun _ => rfl) = oMDir (yN c) :=
  Memref.slice_unit_congr oM ((off5_eq c).trans (by revert c; decide +kernel)) _ _ _ _
/-- A forwarded piece as its receiver waits for it, and as its sender addresses it: on the x-partner. -/
theorem p_oMFJ_wait (c : Dev nD) (j : Fin 5) :
    oM.slice (Rect.unit (s := S1024x512) (k0_off9 c (BitVec.ofNat 32 (32 * j.val))) S32x512.size (k0_off9_inb c j)) (fun _ => rfl) = oMFJ c j :=
  Memref.slice_unit_congr oM (off9_eq c j) _ _ _ _
theorem p_oMFJ_send (c : Dev nD) (j : Fin 5) :
    oM.slice (Rect.unit (s := S1024x512) (k0_off6 c (BitVec.ofNat 32 (32 * j.val))) S32x512.size (k0_off6_inb c j)) (fun _ => rfl) = oMFJ (xN c) j :=
  Memref.slice_unit_congr oM ((off6_eq c j).trans (by revert c j; decide +kernel)) _ _ _ _

end Cert.KernelIdeal.AG

end
-- ==== Proof.KI.Rules.lean ====
/-
  The library's rules at this protocol's cells: each statement of the kernel body that touches a semaphore, stated once
  over the schedule's tables, with what it consumes and what it gives.
-/
import proofs.«900668_g7700000000000669_dist_ag_v7x_xyz2x2x2_y_m512_n512_bf16_1_alg».proof.Proof.KI.Data
import proofs.«900668_g7700000000000669_dist_ag_v7x_xyz2x2x2_y_m512_n512_bf16_1_alg».proof.Proof.KI.Views

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

variable (K : Dev nD × Fin 25 → ℕ)

local notation "WP" => wp frame (wpE (defs₀ (F := F)) 𝒱₀ _ none) Set.univ

theorem amt_bar : amt 0 = 1 := rfl
theorem amt_YS (j : Fin 5) : amt (kYS j) = N32 := by fin_cases j <;> rfl
theorem amt_YR (j : Fin 5) : amt (kYR j) = N32 := by fin_cases j <;> rfl
theorem amt_FS (j : Fin 5) : amt (kFS j) = N32 := by fin_cases j <;> rfl
theorem amt_FR (j : Fin 5) : amt (kFR j) = N32 := by fin_cases j <;> rfl
theorem amt_OS : amt kOS = N192 := rfl
theorem amt_OR : amt kOR = N192 := rfl
theorem amt_Own : amt kOwn = N512 := rfl
theorem amt_Stg : amt kStg = N160 := rfl
theorem kYS_ne (j : Fin 5) : (kYS j).val ≠ 0 := by simp
theorem kYR_ne (j : Fin 5) : (kYR j).val ≠ 0 := by simp
theorem kFS_ne (j : Fin 5) : (kFS j).val ≠ 0 := by simp
theorem kFR_ne (j : Fin 5) : (kFR j).val ≠ 0 := by simp

/-- The unit to the y-partner's barrier cell: with it go the device's receive scratch and the direct slab of its result. -/
theorem wp_sigY (c n : Dev nD) (hn : n = yN c) {α : Type} {Q : α → sProp 𝕄} {k : PUnit → Prog (TpuEff nD τ sig (Elt F) Λ₀ .tc) α}
    {k' : ℕ} (hk' : k' = 1) (W : Waits sig Unit) :
    iprop(cellInv ER (agRd m) (K (yN c, 0)) (barCell (yN c)) ∗ owes (c : Thread nD τ) (O₀ c) W
        ∗ dutyTok ER (barCell (yN c)) 0 false ∗ ((∃ f, rL c ↦{fullShare} f) ∗ (∃ f, oL c ↦[(oDir c).set]{fullShare} f))
        ∗ reached ER (barCell (yN c)) 0)
      ⊢ iprop((owes (c : Thread nD τ) (OX c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  have hp : (agRd m).payload (barCell (yN c)) 0 false = iprop((∃ f, rL c ↦{fullShare} f) ∗ (∃ f, oL c ↦[(oDir c).set]{fullShare} f)) := by
    rw [payload_cell, pay_bar_false]; unfold barPayY; rw [yN_yN]
  rw [← hp]
  exact Rounds.wp_signal 𝒱₀ ER (agRd m) (c : Thread nD τ) none (dst := (yN c : Thread nD τ)) (κ := K (yN c, 0)) (d := false)
    (by show false ∈ (agRd m).duties (barCell (yN c)) 0; rw [duties_bar]; exact Finset.mem_univ _) (amount_cell m (yN c) 0 false) () (OX c) rfl

/-- The unit to the x-partner's barrier cell: with it goes the slab of the result that partner's forwarded pieces fill. -/
theorem wp_sigX (c n : Dev nD) (hn : n = xN c) {α : Type} {Q : α → sProp 𝕄} {k : PUnit → Prog (TpuEff nD τ sig (Elt F) Λ₀ .tc) α}
    {k' : ℕ} (hk' : k' = 1) (W : Waits sig Unit) :
    iprop(cellInv ER (agRd m) (K (xN c, 0)) (barCell (xN c)) ∗ owes (c : Thread nD τ) (OX c) W
        ∗ dutyTok ER (barCell (xN c)) 0 true ∗ (∃ f, oL c ↦[(oFwd c).set]{fullShare} f)
        ∗ reached ER (barCell (xN c)) 0)
      ⊢ iprop((owes (c : Thread nD τ) (OY0 c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  have hp : (agRd m).payload (barCell (xN c)) 0 true = iprop(∃ f, oL c ↦[(oFwd c).set]{fullShare} f) := by
    rw [payload_cell, pay_bar_true]; unfold barPayX; rw [xN_xN]
  rw [← hp]
  exact Rounds.wp_signal 𝒱₀ ER (agRd m) (c : Thread nD τ) none (dst := (xN c : Thread nD τ)) (κ := K (xN c, 0)) (d := true)
    (by show true ∈ (agRd m).duties (barCell (xN c)) 0; rw [duties_bar]; exact Finset.mem_univ _) (amount_cell m (xN c) 0 true) () (OY0 c) rfl

/-- The wait for both partners' units: their payloads come with it. -/
theorem wp_waitBar (c : Dev nD) {α : Type} {Q : α → sProp 𝕄} {k : PUnit → Prog (TpuEff nD τ sig (Elt F) Λ₀ .tc) α}
    {k' : ℕ} (hk' : k' = 2) (O : CellTallies nD τ sig Unit) (W : Waits sig Unit) :
    iprop(cellInv ER (agRd m) (K (c, 0)) (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (csem 0, ()) W) ∗ atPos ER (barCell c) 1 ∅ 0 ∗ barPayY (F := F) c ∗ barPayX (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  rw [show (MayWait (c : Thread nD τ) (SemLoc.reg barS) () O : sProp 𝕄) = MayWait (c : Thread nD τ) (csem 0) () O from rfl]
  iintro H Hk
  iapply (Rounds.wp_wait_rest_token 𝒱₀ ER (agRd m) (c : Thread nD τ) none (κ := K (c, 0)) (sm := csem 0) (k' := 2)
      (wpE_semWait_eq 𝒱₀ (c : Thread nD τ) none Set.univ) (Set.mem_univ _) () (O := O) (W := W) (R := 0) (m := 0) (T := ∅)
      (by show 0 + 2 = (agRd m).expect (barCell c) 0; rw [expect_bar])) $$ H
  iintro ⟨HO, Hat, -, Hpay⟩
  ihave Hp := (Entails.of_eq (rest_bar m c)) $$ Hpay
  icases Hp with ⟨HY, HX⟩
  iapply Hk
  isplitl [HO]; · iexact HO
  isplitl [Hat]; · iexact Hat
  isplitl [HY]; · iexact HY
  iexact HX

/-! ## Transfers -/

section Xfer
variable (c : Dev nD)

/-- First-hop transfer j: rows of the staging scratch into slab j of the y-partner's receive scratch. -/
theorem wp_ysend (n : Dev nD) (hn : n = yN c) (j : Fin 5)
    {src : Memref sig .tc .vmem S32x512 .bf16} (hs : src = vSJ c j)
    {dst : Memref sig .tc .vmem S32x512 .bf16} (hd : dst = vRJ j)
    {sS sem : SemLoc sig} (hsS : sS = csem (kYS j)) (hsem : sem = csem (kYR j))
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (rL (yN c))) (O : CellTallies nD τ sig Unit) (W : Waits sig Unit)
    (hland : ∀ i ∈ (rJ j).set, (vRJ j).view.write (Elt F) fd ((vSJ c j).view.read (Elt F) (stgC m c)) Finset.univ i = recvC m (yN c) i) :
    iprop(cellInv ER (agRd m) (K (c, kYS j)) (kcell (c, kYS j)) ∗ cellInv ER (agRd m) (K (yN c, kYR j)) (kcell (yN c, kYR j))
        ∗ (sL c ↦[(sJ c j).set]{qR} stgC m c) ∗ (rL (yN c) ↦[(rJ j).set]{fullShare} fd)
        ∗ owes (c : Thread nD τ) (O + tYR c j) W
        ∗ dutyTok ER (kcell (c, kYS j)) 0 false ∗ reached ER (kcell (c, kYS j)) 0
        ∗ dutyTok ER (kcell (yN c, kYR j)) 0 false ∗ reached ER (kcell (yN c, kYR j)) 0)
      ⊢ iprop(((cred (tallyAt (kcell (c, kYS j)) () N32) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : ((vSJ c j).view.loc (c : Thread nD τ) ↦[(vSJ c j).view.set]{qR} stgC m c : sProp 𝕄) ⊢ (agRd m).payload (kcell (c, kYS j)) 0 false := by
    rw [payload_cell, pay_YS, vSJ_set]
  have h2 : ((vRJ j).view.loc (yN c : Thread nD τ) ↦[(vRJ j).view.set]{fullShare}
        ((vRJ j).view.write (Elt F) fd ((vSJ c j).view.read (Elt F) (stgC m c)) Finset.univ) : sProp 𝕄)
      ⊢ (agRd m).payload (kcell (yN c, kYR j)) 0 false := by
    rw [payload_cell, pay_YR, vRJ_set]; exact Entails.of_eq (pointsTo_congr hland)
  rw [← vSJ_set c j, ← vRJ_set j]
  exact Rounds.wp_send_pointsTo 𝒱₀ ER (agRd m) (c : Thread nD τ) none (κ₁ := K (c, kYS j)) (κ₂ := K (yN c, kYR j))
    (c' := (yN c : Thread nD τ)) (src := vSJ c j) (dst := vRJ j) (sS := csem (kYS j)) (sem := csem (kYR j))
    (r₁ := 0) (r₂ := 0) (d₁ := false) (d₂ := false) (fd := fd) (q := qR) (fs := stgC m c)
    (by show false ∈ (agRd m).duties (kcell (c, kYS j)) 0; rw [duties_xfer m c _ (kYS_ne j)]; exact Finset.mem_singleton_self _)
    (by show false ∈ (agRd m).duties (kcell (yN c, kYR j)) 0; rw [duties_xfer m _ _ (kYR_ne j)]; exact Finset.mem_singleton_self _)
    () () N32 (show (vRJ j).view.amount (csem (kYR j)) = N32 from rfl) ((amount_cell m c (kYS j) false).trans (amt_YS j)) ((amount_cell m (yN c) (kYR j) false).trans (amt_YR j))
    O rfl (W := W) h1 h2

/-- The direct slab: rows [160, 352) of the staging scratch into the y-partner's result array. -/
theorem wp_ovsend (n : Dev nD) (hn : n = yN c)
    {src : Memref sig .tc .vmem S192x512 .bf16} (hs : src = vSO)
    {dst : Memref sig .tc .hbm S192x512 .bf16} (hd : dst = oMDir (yN c))
    {sS sem : SemLoc sig} (hsS : sS = csem kOS) (hsem : sem = csem kOR)
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (oL (yN c))) (O : CellTallies nD τ sig Unit) (W : Waits sig Unit)
    (hland : ∀ i ∈ (oDir (yN c)).set, (oMDir (yN c)).view.write (Elt F) fd (vSO.view.read (Elt F) (stgC m c)) Finset.univ i = outC m (yN c) i) :
    iprop(cellInv ER (agRd m) (K (c, kOS)) (kcell (c, kOS)) ∗ cellInv ER (agRd m) (K (yN c, kOR)) (kcell (yN c, kOR))
        ∗ (sL c ↦[sO.set]{qR} stgC m c) ∗ (oL (yN c) ↦[(oDir (yN c)).set]{fullShare} fd)
        ∗ owes (c : Thread nD τ) (O + tallyAt (kcell (yN c, kOR)) () N192) W
        ∗ dutyTok ER (kcell (c, kOS)) 0 false ∗ reached ER (kcell (c, kOS)) 0
        ∗ dutyTok ER (kcell (yN c, kOR)) 0 false ∗ reached ER (kcell (yN c, kOR)) 0)
      ⊢ iprop(((cred (tallyAt (kcell (c, kOS)) () N192) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : (vSO.view.loc (c : Thread nD τ) ↦[vSO.view.set]{qR} stgC m c : sProp 𝕄) ⊢ (agRd m).payload (kcell (c, kOS)) 0 false := by
    rw [payload_cell, pay_OS, vSO_set]
  have h2 : ((oMDir (yN c)).view.loc (yN c : Thread nD τ) ↦[(oMDir (yN c)).view.set]{fullShare}
        ((oMDir (yN c)).view.write (Elt F) fd (vSO.view.read (Elt F) (stgC m c)) Finset.univ) : sProp 𝕄)
      ⊢ (agRd m).payload (kcell (yN c, kOR)) 0 false := by
    rw [payload_cell, pay_OR, oMDir_set]; exact Entails.of_eq (pointsTo_congr hland)
  rw [← vSO_set, ← oMDir_set (yN c)]
  exact Rounds.wp_send_pointsTo 𝒱₀ ER (agRd m) (c : Thread nD τ) none (κ₁ := K (c, kOS)) (κ₂ := K (yN c, kOR))
    (c' := (yN c : Thread nD τ)) (src := vSO) (dst := oMDir (yN c)) (sS := csem kOS) (sem := csem kOR)
    (r₁ := 0) (r₂ := 0) (d₁ := false) (d₂ := false) (fd := fd) (q := qR) (fs := stgC m c)
    (by show false ∈ (agRd m).duties (kcell (c, kOS)) 0; rw [duties_xfer m c _ (by decide)]; exact Finset.mem_singleton_self _)
    (by show false ∈ (agRd m).duties (kcell (yN c, kOR)) 0; rw [duties_xfer m _ _ (by decide)]; exact Finset.mem_singleton_self _)
    () () N192 (show (oMDir (yN c)).view.amount (csem kOR) = N192 from rfl) ((amount_cell m c kOS false).trans amt_OS) ((amount_cell m (yN c) kOR false).trans amt_OR)
    O rfl (W := W) h1 h2

/-- Second-hop transfer j: slab j of the receive scratch into the x-partner's result array. -/
theorem wp_fsend (n : Dev nD) (hn : n = xN c) (j : Fin 5)
    {src : Memref sig .tc .vmem S32x512 .bf16} (hs : src = vRJ j)
    {dst : Memref sig .tc .hbm S32x512 .bf16} (hd : dst = oMFJ (xN c) j)
    {sS sem : SemLoc sig} (hsS : sS = csem (kFS j)) (hsem : sem = csem (kFR j))
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (oL (xN c))) (O : CellTallies nD τ sig Unit) (W : Waits sig Unit)
    (hland : ∀ i ∈ (oFJ (xN c) j).set, (oMFJ (xN c) j).view.write (Elt F) fd ((vRJ j).view.read (Elt F) (recvC m c)) Finset.univ i = outC m (xN c) i) :
    iprop(cellInv ER (agRd m) (K (c, kFS j)) (kcell (c, kFS j)) ∗ cellInv ER (agRd m) (K (xN c, kFR j)) (kcell (xN c, kFR j))
        ∗ (rL c ↦[(rJ j).set]{qR} recvC m c) ∗ (oL (xN c) ↦[(oFJ (xN c) j).set]{fullShare} fd)
        ∗ owes (c : Thread nD τ) (O + tFR c j) W
        ∗ dutyTok ER (kcell (c, kFS j)) 0 false ∗ reached ER (kcell (c, kFS j)) 0
        ∗ dutyTok ER (kcell (xN c, kFR j)) 0 false ∗ reached ER (kcell (xN c, kFR j)) 0)
      ⊢ iprop(((cred (tallyAt (kcell (c, kFS j)) () N32) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : ((vRJ j).view.loc (c : Thread nD τ) ↦[(vRJ j).view.set]{qR} recvC m c : sProp 𝕄) ⊢ (agRd m).payload (kcell (c, kFS j)) 0 false := by
    rw [payload_cell, pay_FS, vRJ_set]
  have h2 : ((oMFJ (xN c) j).view.loc (xN c : Thread nD τ) ↦[(oMFJ (xN c) j).view.set]{fullShare}
        ((oMFJ (xN c) j).view.write (Elt F) fd ((vRJ j).view.read (Elt F) (recvC m c)) Finset.univ) : sProp 𝕄)
      ⊢ (agRd m).payload (kcell (xN c, kFR j)) 0 false := by
    rw [payload_cell, pay_FR, oMFJ_set]; exact Entails.of_eq (pointsTo_congr hland)
  rw [← vRJ_set j, ← oMFJ_set (xN c) j]
  exact Rounds.wp_send_pointsTo 𝒱₀ ER (agRd m) (c : Thread nD τ) none (κ₁ := K (c, kFS j)) (κ₂ := K (xN c, kFR j))
    (c' := (xN c : Thread nD τ)) (src := vRJ j) (dst := oMFJ (xN c) j) (sS := csem (kFS j)) (sem := csem (kFR j))
    (r₁ := 0) (r₂ := 0) (d₁ := false) (d₂ := false) (fd := fd) (q := qR) (fs := recvC m c)
    (by show false ∈ (agRd m).duties (kcell (c, kFS j)) 0; rw [duties_xfer m c _ (kFS_ne j)]; exact Finset.mem_singleton_self _)
    (by show false ∈ (agRd m).duties (kcell (xN c, kFR j)) 0; rw [duties_xfer m _ _ (kFR_ne j)]; exact Finset.mem_singleton_self _)
    () () N32 (show (oMFJ (xN c) j).view.amount (csem (kFR j)) = N32 from rfl) ((amount_cell m c (kFS j) false).trans (amt_FS j)) ((amount_cell m (xN c) (kFR j) false).trans (amt_FR j))
    O rfl (W := W) h1 h2

end Xfer

/-! ## Local copies -/

section Local
variable (c : Dev nD)

/-- A whole scratch as its memref's view names it. -/
theorem vS_whole (q : PosShare TreeShare) (f : Buf (Elt F) (sL c)) :
    (sL c ↦{q} f : sProp 𝕄) = (vS.view.loc (c : Thread nD τ) ↦[(vS : Memref sig .tc .vmem S512x512 .bf16).view.set]{q} f) := by
  show _ = pointsTo _ (View.whole cc0_scratch0).set q f; rw [View.set_whole]
theorem vR_whole (q : PosShare TreeShare) (f : Buf (Elt F) (rL c)) :
    (rL c ↦{q} f : sProp 𝕄) = (vR.view.loc (c : Thread nD τ) ↦[(vR : Memref sig .tc .vmem S160x512 .bf16).view.set]{q} f) := by
  show _ = pointsTo _ (View.whole cc0_scratch1).set q f; rw [View.set_whole]

/-- The copy of the whole staging scratch into the device's own block of its result. -/
theorem wp_own {dst : Memref sig .tc .hbm S512x512 .bf16} (hd : dst = oMOwn c) {sem : SemLoc sig} (hsem : sem = csem kOwn)
    {hsrc : (vS : Memref sig .tc .vmem S512x512 .bf16).view.WordExact} {hdst : dst.view.WordExact}
    {htyp : DmaTarget.Typed (nD := nD) (τ := τ) .vmem sem (DmaTarget.here (p := Proc.tc) dst)}
    {α : Type} {Q : α → sProp 𝕄} {k : PUnit → Prog (TpuEff nD τ sig (Elt F) Λ₀ .tc) α}
    (fd : Buf (Elt F) (oL c))
    (hland : ∀ i ∈ (oOwn c).set, (oMOwn c).view.write (Elt F) fd (vS.view.read (Elt F) (stgC m c)) Finset.univ i = outC m c i) :
    iprop(cellInv ER (agRd m) (K (c, kOwn)) (kcell (c, kOwn)) ∗ (sL c ↦{qL} stgC m c) ∗ (oL c ↦[(oOwn c).set]{fullShare} fd)
        ∗ dutyTok ER (kcell (c, kOwn)) 0 false ∗ reached ER (kcell (c, kOwn)) 0)
      ⊢ iprop((cred (tallyAt (kcell (c, kOwn)) () N512) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma vS (.here dst) sem hsrc hdst htyp) k) Q) := by
  subst hd hsem
  have hp : (iprop(((oMOwn c).view.loc (c : Thread nD τ) ↦[(oMOwn c).view.set]{fullShare}
          ((oMOwn c).view.write (Elt F) fd (vS.view.read (Elt F) (stgC m c)) Finset.univ))
        ∗ (vS.view.loc (c : Thread nD τ) ↦[(vS : Memref sig .tc .vmem S512x512 .bf16).view.set]{qL} stgC m c)) : sProp 𝕄)
      ⊢ (agRd m).payload (kcell (c, kOwn)) 0 false := by
    rw [payload_cell, pay_Own, oMOwn_set, ← vS_whole]
    exact sep_mono_left (Entails.of_eq (pointsTo_congr hland))
  rw [vS_whole, ← oMOwn_set c]
  exact Rounds.wp_copy_pointsTo 𝒱₀ ER (agRd m) (c : Thread nD τ) none (κ := K (c, kOwn)) (src := vS) (dst := oMOwn c) (sem := csem kOwn)
    (r := 0) (d := false) (fd := fd) (q := qL) (fs := stgC m c)
    (by show false ∈ (agRd m).duties (kcell (c, kOwn)) 0; rw [duties_xfer m c _ (by decide)]; exact Finset.mem_singleton_self _)
    () N512 (show (oMOwn c).view.amount (csem kOwn) = N512 from rfl) ((amount_cell m c kOwn false).trans amt_Own) hp

/-- The copy of the whole receive scratch into the slab of the result it belongs to. -/
theorem wp_stgcopy {dst : Memref sig .tc .hbm S160x512 .bf16} (hd : dst = oMStg c) {sem : SemLoc sig} (hsem : sem = csem kStg)
    {hsrc : (vR : Memref sig .tc .vmem S160x512 .bf16).view.WordExact} {hdst : dst.view.WordExact}
    {htyp : DmaTarget.Typed (nD := nD) (τ := τ) .vmem sem (DmaTarget.here (p := Proc.tc) dst)}
    {α : Type} {Q : α → sProp 𝕄} {k : PUnit → Prog (TpuEff nD τ sig (Elt F) Λ₀ .tc) α}
    (fd : Buf (Elt F) (oL c))
    (hland : ∀ i ∈ (oStg c).set, (oMStg c).view.write (Elt F) fd (vR.view.read (Elt F) (recvC m c)) Finset.univ i = outC m c i) :
    iprop(cellInv ER (agRd m) (K (c, kStg)) (kcell (c, kStg)) ∗ (rL c ↦{qL} recvC m c) ∗ (oL c ↦[(oStg c).set]{fullShare} fd)
        ∗ dutyTok ER (kcell (c, kStg)) 0 false ∗ reached ER (kcell (c, kStg)) 0)
      ⊢ iprop((cred (tallyAt (kcell (c, kStg)) () N160) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma vR (.here dst) sem hsrc hdst htyp) k) Q) := by
  subst hd hsem
  have hp : (iprop(((oMStg c).view.loc (c : Thread nD τ) ↦[(oMStg c).view.set]{fullShare}
          ((oMStg c).view.write (Elt F) fd (vR.view.read (Elt F) (recvC m c)) Finset.univ))
        ∗ (vR.view.loc (c : Thread nD τ) ↦[(vR : Memref sig .tc .vmem S160x512 .bf16).view.set]{qL} recvC m c)) : sProp 𝕄)
      ⊢ (agRd m).payload (kcell (c, kStg)) 0 false := by
    rw [payload_cell, pay_Stg, oMStg_set, ← vR_whole]
    exact sep_mono_left (Entails.of_eq (pointsTo_congr hland))
  rw [vR_whole, ← oMStg_set c]
  exact Rounds.wp_copy_pointsTo 𝒱₀ ER (agRd m) (c : Thread nD τ) none (κ := K (c, kStg)) (src := vR) (dst := oMStg c) (sem := csem kStg)
    (r := 0) (d := false) (fd := fd) (q := qL) (fs := recvC m c)
    (by show false ∈ (agRd m).duties (kcell (c, kStg)) 0; rw [duties_xfer m c _ (by decide)]; exact Finset.mem_singleton_self _)
    () N160 (show (oMStg c).view.amount (csem kStg) = N160 from rfl) ((amount_cell m c kStg false).trans amt_Stg) hp

/-! ## The wait for a transfer cell's round: its payload comes with it -/

theorem wp_waitX (k : Fin 25) (hk : k.val ≠ 0) {α : Type} {Q : α → sProp 𝕄} {kont : PUnit → Prog (TpuEff nD τ sig (Elt F) Λ₀ .tc) α}
    {w : TpuEff nD τ sig (Elt F) Λ₀ .tc PUnit} {sm : SemLoc sig} {k' : ℕ}
    (hw : ∀ Kp : PUnit → sProp 𝕄, wpE (defs₀ (F := F)) 𝒱₀ (c : Thread nD τ) none Set.univ w Kp = waitSpec (c : Thread nD τ) Set.univ sm k' Kp)
    (hsm : sm = csem k) (hk' : k' = amt k) (O : CellTallies nD τ sig Unit) (W : Waits sig Unit) :
    iprop(cellInv ER (agRd m) (K (c, k)) (kcell (c, k)) ∗ cred (tallyAt (kcell (c, k)) () (amt k)) ∗ owes (c : Thread nD τ) O W
        ∗ MayWait (c : Thread nD τ) (csem k) () O ∗ atPos ER (kcell (c, k)) 0 ∅ 0)
      ⊢ iprop(((owes (c : Thread nD τ) O (insert (csem k, ()) W) ∗ atPos ER (kcell (c, k)) 1 ∅ 0 ∗ pay m c k false)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hsm hk'
  iintro H Hk
  iapply (Rounds.wp_wait_rest_token 𝒱₀ ER (agRd m) (c : Thread nD τ) none (κ := K (c, k)) (sm := csem k) (k' := amt k)
      hw (Set.mem_univ _) () (O := O) (W := W) (R := 0) (m := 0) (T := ∅)
      (by show 0 + amt k = (agRd m).expect (kcell (c, k)) 0; rw [expect_xfer m c k hk, Nat.zero_add])) $$ H
  iintro ⟨HO, Hat, -, Hpay⟩
  ihave Hp := (Entails.of_eq (rest_xfer m c k hk)) $$ Hpay
  iapply Hk
  isplitl [HO]; · iexact HO
  isplitl [Hat]; · iexact Hat
  iexact Hp

/-- A transfer cell closes once its one round is consumed: its counter, at zero, is the device's again. -/
theorem close_cell (k : Fin 25) (hk : k.val ≠ 0) :
    iprop(cellInv ER (agRd m) (K (c, k)) (kcell (c, k)) ∗ atPos ER (kcell (c, k)) 1 ∅ 0) ⊢ iprop(|={Set.univ}=> semVal (kcell (c, k)) 0 : sProp 𝕄) :=
  Rounds.cell_close ER (agRd m) (Set.mem_univ (K (c, k))) (fun h => h) (R := 1) (duties_later m (kcell (c, k)))

end Local

end Cert.KernelIdeal.AG

end
-- ==== Proof.KI.Regions.lean ====
/-
  Cutting a device's buffers into the row slabs the protocol hands around, and putting them back.

  Every slab spans all 512 columns, so a slab is an interval of rows and all the set facts are arithmetic on the row
  coordinate. The staging scratch is cut into the five 32-row pieces sent to the y-partner, the 192 rows that travel
  directly and the 160 rows that stay; the receive scratch into its five 32-row pieces; the result array into the
  device's own block and the three slabs of the other block, the forwarded one again into its five pieces. A full
  share is cut into its two halves.
-/
import proofs.«900668_g7700000000000669_dist_ag_v7x_xyz2x2x2_y_m512_n512_bf16_1_alg».proof.Proof.KI.Views

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## Row slabs as intervals of rows -/

/-- An element lies in a row slab exactly when its row does. -/
theorem mem_rows {n0 r n : ℕ} {inb} (i : (⟨2, ![n0, 512]⟩ : Shape).Idx) :
    i ∈ (Rect.unit (s := ⟨2, ![n0, 512]⟩) ![r, 0] ![n, 512] inb).set ↔ r ≤ (i 0).val ∧ (i 0).val < r + n := by
  rw [Rect.mem_set_unit, Fin.forall_fin_two]
  have h1 := idx2_lt1 i
  show (r ≤ (i 0).val ∧ (i 0).val < r + n) ∧ (0 ≤ (i 1).val ∧ (i 1).val < 0 + 512) ↔ _
  omega

/-- Row slabs over separate intervals of rows share no element. -/
theorem rows_disjoint {n0 r n r' n' : ℕ} {inb inb'} (h : r + n ≤ r' ∨ r' + n' ≤ r) :
    Disjoint (Rect.unit (s := ⟨2, ![n0, 512]⟩) ![r, 0] ![n, 512] inb).set
      (Rect.unit (s := ⟨2, ![n0, 512]⟩) ![r', 0] ![n', 512] inb').set :=
  Rect.unit_disjoint 0 h

/-! ## Points-to along a disjoint union, as an equation -/

theorem pointsTo_union_eq {ℓ : Loc nD τ sig} {I J : Finset (Idx ℓ)} {q : PosShare TreeShare} {f : Buf (Elt F) ℓ}
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

/-- The row offsets are linear in the two coordinates, each 0 or 1. -/
theorem offsets (c : Dev nD) :
    sP c < 2 ∧ yC c < 2 ∧ fwd c = 352 * sP c ∧ rfw c = 352 * (1 - sP c) ∧ mine c = 512 * yC c ∧ other c = 512 * (1 - yC c) :=
  ⟨sP_lt c, yC_lt c, rfl, rfl, rfl, rfl⟩

/-- The five pieces' numbers. -/
theorem five : ((0 : Fin 5) : ℕ) = 0 ∧ ((1 : Fin 5) : ℕ) = 1 ∧ ((2 : Fin 5) : ℕ) = 2 ∧ ((3 : Fin 5) : ℕ) = 3 ∧ ((4 : Fin 5) : ℕ) = 4 :=
  ⟨rfl, rfl, rfl, rfl, rfl⟩

/-- Slabs over pairwise separate intervals of rows: each disjoint from the union of the later ones. -/
local macro "slabs_apart" : tactic =>
  `(tactic| ((try simp only [Finset.disjoint_union_right]); and_intros <;> exact rows_disjoint (by omega)))

/-! ## The result array -/

theorem o_mem (c : Dev nD) (i : S1024x512.Idx) :
    i ∈ (oOwn c).set ∪ ((oDir c).set ∪ ((oStg c).set ∪ (oFwd c).set)) := by
  have h0 := idx2_lt0 i
  obtain ⟨hs, hy, e1, e2, e3, e4⟩ := offsets c
  simp only [Finset.mem_union, mem_rows]
  omega

theorem o_cover (c : Dev nD) :
    (Finset.univ : Finset (Idx (oL c))) = (oOwn c).set ∪ ((oDir c).set ∪ ((oStg c).set ∪ (oFwd c).set)) :=
  (Finset.eq_univ_iff_forall.mpr (o_mem c)).symm

theorem oL_split (c : Dev nD) (q : PosShare TreeShare) (f : Buf (Elt F) (oL c)) :
    (oL c ↦{q} f : sProp 𝕄) ⊣⊢ iprop((oL c ↦[(oOwn c).set]{q} f) ∗ (oL c ↦[(oDir c).set]{q} f) ∗ (oL c ↦[(oStg c).set]{q} f) ∗ (oL c ↦[(oFwd c).set]{q} f)) := by
  obtain ⟨hs, hy, e1, e2, e3, e4⟩ := offsets c
  refine BiEntails.of_eq ?_
  rw [o_cover c, pointsTo_union_eq (by slabs_apart), pointsTo_union_eq (by slabs_apart), pointsTo_union_eq (by slabs_apart)]

/-- The forwarded slab is its five pieces. -/
theorem oFwd_eq (c : Dev nD) :
    (oFwd c).set = (oFJ c 0).set ∪ ((oFJ c 1).set ∪ ((oFJ c 2).set ∪ ((oFJ c 3).set ∪ (oFJ c 4).set))) := by
  obtain ⟨v0, v1, v2, v3, v4⟩ := five
  ext i
  simp only [Finset.mem_union, mem_rows]
  omega

theorem oFwd_split (c : Dev nD) (q : PosShare TreeShare) (f : Buf (Elt F) (oL c)) :
    (oL c ↦[(oFwd c).set]{q} f : sProp 𝕄) ⊣⊢ iprop((oL c ↦[(oFJ c 0).set]{q} f) ∗ (oL c ↦[(oFJ c 1).set]{q} f) ∗ (oL c ↦[(oFJ c 2).set]{q} f) ∗ (oL c ↦[(oFJ c 3).set]{q} f) ∗ (oL c ↦[(oFJ c 4).set]{q} f)) := by
  obtain ⟨v0, v1, v2, v3, v4⟩ := five
  refine BiEntails.of_eq ?_
  rw [show ((oFwd c).set : Finset (Idx (oL c))) = _ from oFwd_eq c,
    pointsTo_union_eq (by slabs_apart), pointsTo_union_eq (by slabs_apart), pointsTo_union_eq (by slabs_apart),
    pointsTo_union_eq (by slabs_apart)]

/-! ## The receive scratch -/

theorem r_mem (i : S160x512.Idx) :
    i ∈ (rJ 0).set ∪ ((rJ 1).set ∪ ((rJ 2).set ∪ ((rJ 3).set ∪ (rJ 4).set))) := by
  have h0 := idx2_lt0 i
  obtain ⟨v0, v1, v2, v3, v4⟩ := five
  simp only [Finset.mem_union, mem_rows]
  omega

theorem r_cover (c : Dev nD) :
    (Finset.univ : Finset (Idx (rL c))) = (rJ 0).set ∪ ((rJ 1).set ∪ ((rJ 2).set ∪ ((rJ 3).set ∪ (rJ 4).set))) :=
  (Finset.eq_univ_iff_forall.mpr r_mem).symm

theorem rL_split (c : Dev nD) (q : PosShare TreeShare) (f : Buf (Elt F) (rL c)) :
    (rL c ↦{q} f : sProp 𝕄) ⊣⊢ iprop((rL c ↦[(rJ 0).set]{q} f) ∗ (rL c ↦[(rJ 1).set]{q} f) ∗ (rL c ↦[(rJ 2).set]{q} f) ∗ (rL c ↦[(rJ 3).set]{q} f) ∗ (rL c ↦[(rJ 4).set]{q} f)) := by
  obtain ⟨v0, v1, v2, v3, v4⟩ := five
  refine BiEntails.of_eq ?_
  rw [r_cover c, pointsTo_union_eq (by slabs_apart), pointsTo_union_eq (by slabs_apart), pointsTo_union_eq (by slabs_apart),
    pointsTo_union_eq (by slabs_apart)]

/-! ## The staging scratch -/

/-- The 160 rows of the staging scratch that are neither in the five pieces nor in the direct slab:
    rows [rfw, rfw + 160). -/
def sRest (c : Dev nD) : Rect S512x512 := sSlab (rfw c) 160 (by have := rfw_le c; omega)

theorem s_mem (c : Dev nD) (i : S512x512.Idx) :
    i ∈ (sJ c 0).set ∪ ((sJ c 1).set ∪ ((sJ c 2).set ∪ ((sJ c 3).set ∪ ((sJ c 4).set ∪ (sO.set ∪ (sRest c).set))))) := by
  have h0 := idx2_lt0 i
  obtain ⟨hs, hy, e1, e2, e3, e4⟩ := offsets c
  obtain ⟨v0, v1, v2, v3, v4⟩ := five
  simp only [Finset.mem_union, mem_rows, sRest]
  omega

theorem s_cover (c : Dev nD) :
    (Finset.univ : Finset (Idx (sL c)))
      = (sJ c 0).set ∪ ((sJ c 1).set ∪ ((sJ c 2).set ∪ ((sJ c 3).set ∪ ((sJ c 4).set ∪ (sO.set ∪ (sRest c).set))))) :=
  (Finset.eq_univ_iff_forall.mpr (s_mem c)).symm

theorem sL_split (c : Dev nD) (q : PosShare TreeShare) (f : Buf (Elt F) (sL c)) :
    (sL c ↦{q} f : sProp 𝕄) ⊣⊢ iprop((sL c ↦[(sJ c 0).set]{q} f) ∗ (sL c ↦[(sJ c 1).set]{q} f) ∗ (sL c ↦[(sJ c 2).set]{q} f) ∗ (sL c ↦[(sJ c 3).set]{q} f) ∗ (sL c ↦[(sJ c 4).set]{q} f) ∗ (sL c ↦[sO.set]{q} f) ∗ (sL c ↦[(sRest c).set]{q} f)) := by
  obtain ⟨hs, hy, e1, e2, e3, e4⟩ := offsets c
  obtain ⟨v0, v1, v2, v3, v4⟩ := five
  refine BiEntails.of_eq ?_
  rw [s_cover c, pointsTo_union_eq (by unfold sRest; slabs_apart), pointsTo_union_eq (by unfold sRest; slabs_apart),
    pointsTo_union_eq (by unfold sRest; slabs_apart), pointsTo_union_eq (by unfold sRest; slabs_apart),
    pointsTo_union_eq (by unfold sRest; slabs_apart), pointsTo_union_eq (by unfold sRest; slabs_apart)]

/-! ## A full share in two halves -/

theorem halves {ℓ : Loc nD τ sig} (I : Finset (Idx ℓ)) (f : Buf (Elt F) ℓ) :
    (ℓ ↦[I]{fullShare} f : sProp 𝕄) ⊣⊢ iprop((ℓ ↦[I]{qL} f) ∗ (ℓ ↦[I]{qR} f)) :=
  pointsTo_share (q := fullShare) (q₁ := qL) (q₂ := qR) (PosShare.mem_left_op_right fullShare)

end Cert.KernelIdeal.AG

end
-- ==== Proof.KI.Values.lean ====
/-
  What each copy of the protocol lands. Every buffer's contents are named as a function of the launch memory: the staging
  scratch holds the device's block of x converted entry by entry, the receive scratch 160 rows of the y-partner's staging
  scratch, the result array both blocks in gathered order. A transfer writes, through its destination slice, what it reads
  through its source slice; on the destination's elements this agrees with the named contents of the destination buffer.
  Each statement is an identity of rows: an element of the destination slice is row (offset of the slice) + a, column b,
  the copy puts there the source buffer's entry at row (offset of the source slice) + a, column b, and the named contents
  of the destination read the same entry of the same staging scratch.
-/
import proofs.«900668_g7700000000000669_dist_ag_v7x_xyz2x2x2_y_m512_n512_bf16_1_alg».proof.Proof.KI.Views
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## The result array, read by rows

  Row 512 q + a of the gathered result (a < 512) belongs to block q. In the device's own block it holds the device's
  staged row a; in the other block it holds row a of the partner's staging scratch — the y-partner's, except on the 160
  rows the x-partner forwards, where it is the x-partner's y-partner's. -/

theorem outC_own (c : Dev nD) (i : S1024x512.Idx) (a : Fin 512) (h0 : (i 0).val = mine c + a.val) :
    outC m c i = stgC m c (ix2 a (i 1)) := by
  have hy := yC_lt c
  have ha := a.isLt
  have hd : (i 0).val / 512 = yC c := by rw [h0]; unfold mine; omega
  have hr : (⟨(i 0).val % 512, Nat.mod_lt _ (by decide)⟩ : Fin 512) = a := Fin.ext (by show (i 0).val % 512 = a.val; rw [h0]; unfold mine; omega)
  unfold outC
  dsimp only
  rw [if_pos hd, hr]

theorem outC_fwd (c : Dev nD) (i : S1024x512.Idx) (a : Fin 512) (h0 : (i 0).val = other c + a.val)
    (hlo : rfw c ≤ a.val) (hhi : a.val < rfw c + 160) :
    outC m c i = stgC m (yN (xN c)) (ix2 a (i 1)) := by
  have hy := yC_lt c
  have ha := a.isLt
  have hd : ¬ (i 0).val / 512 = yC c := by rw [h0]; unfold other; omega
  have hm : (i 0).val % 512 = a.val := by rw [h0]; unfold other; omega
  have hr : (⟨(i 0).val % 512, Nat.mod_lt _ (by decide)⟩ : Fin 512) = a := Fin.ext hm
  unfold outC
  dsimp only
  rw [if_neg hd, if_pos (by rw [hm]; exact ⟨hlo, hhi⟩), hr]

theorem outC_dir (c : Dev nD) (i : S1024x512.Idx) (a : Fin 512) (h0 : (i 0).val = other c + a.val)
    (hout : a.val < rfw c ∨ rfw c + 160 ≤ a.val) :
    outC m c i = stgC m (yN c) (ix2 a (i 1)) := by
  have hy := yC_lt c
  have ha := a.isLt
  have hd : ¬ (i 0).val / 512 = yC c := by rw [h0]; unfold other; omega
  have hm : (i 0).val % 512 = a.val := by rw [h0]; unfold other; omega
  have hr : (⟨(i 0).val % 512, Nat.mod_lt _ (by decide)⟩ : Fin 512) = a := Fin.ext hm
  unfold outC
  dsimp only
  rw [if_neg hd, if_neg (by rw [hm]; omega), hr]

/-- The staging contents at equal devices and equal coordinates. -/
theorem stgC_at {c c' : Dev nD} (h : c = c') (p q : S512x512.Idx) (h0 : (p 0).val = (q 0).val) (h1 : (p 1).val = (q 1).val) :
    stgC m c p = stgC m c' q := by
  subst h
  have : p = q := by
    funext a
    match a with
    | ⟨0, _⟩ => exact Fin.ext h0
    | ⟨1, _⟩ => exact Fin.ext h1
  rw [this]

/-- Which slab a device's x-partner forwards is the one the device itself receives through its receive scratch. -/
theorem rfw_xN (c : Dev nD) : rfw (xN c) = fwd c := by
  have := sP_lt c
  unfold rfw fwd; rw [sP_xN]; omega
theorem fwd_yN (c : Dev nD) : fwd (yN c) = fwd c := by unfold fwd; rw [sP_yN]
theorem rfw_yN (c : Dev nD) : rfw (yN c) = rfw c := by unfold rfw; rw [sP_yN]
theorem other_xN (c : Dev nD) : other (xN c) = other c := by unfold other; rw [yC_xN]

/-! ## The five landings -/

/-- The local copy of the staging scratch into the device's own block: row mine + a of the result takes staged row a. -/
theorem land_own (c : Dev nD) (fd : Buf (Elt F) (oL c)) : ∀ i ∈ (oOwn c).set,
    (oMOwn c).view.write (Elt F) fd (vS.view.read (Elt F) (stgC m c)) Finset.univ i = outC m c i := by
  intro i hi
  rw [← oMOwn_set] at hi
  obtain ⟨x, rfl⟩ := View.exists_emb_of_mem_set _ hi
  rw [View.write_emb_of_mem _ _ (Finset.mem_univ x)]
  have h0 : (((oMOwn c).view.emb x : S1024x512.Idx) 0).val = mine c + (x 0).val := by
    show ((oOwn c).emb x 0).val = _
    rw [Rect.emb_apply]; show mine c + 1 * (x 0).val = _; omega
  have h1 : (((oMOwn c).view.emb x : S1024x512.Idx) 1) = x 1 := by
    apply Fin.ext
    show ((oOwn c).emb x 1).val = _
    rw [Rect.emb_apply]; show 0 + 1 * (x 1).val = _; omega
  rw [outC_own m c _ (x 0) h0, h1]
  exact congrArg (stgC m c) (ValueIdx.eq_ix2 x)

/-- The local copy of the receive scratch into the result: row other + fwd + a takes received row a, which is row fwd + a
    of the y-partner's staging scratch; that row lies outside the slab the x-partner forwards. -/
theorem land_stg (c : Dev nD) (fd : Buf (Elt F) (oL c)) : ∀ i ∈ (oStg c).set,
    (oMStg c).view.write (Elt F) fd (vR.view.read (Elt F) (recvC m c)) Finset.univ i = outC m c i := by
  intro i hi
  rw [← oMStg_set] at hi
  obtain ⟨x, rfl⟩ := View.exists_emb_of_mem_set _ hi
  rw [View.write_emb_of_mem _ _ (Finset.mem_univ x)]
  have hx0 := idx2_lt0 x
  have hs := sP_lt c
  have hf := fwd_le c
  have h0 : (((oMStg c).view.emb x : S1024x512.Idx) 0).val = other c + (fwd c + (x 0).val) := by
    show ((oStg c).emb x 0).val = _
    rw [Rect.emb_apply]; show (other c + fwd c) + 1 * (x 0).val = _; omega
  have h1 : (((oMStg c).view.emb x : S1024x512.Idx) 1) = x 1 := by
    apply Fin.ext
    show ((oStg c).emb x 1).val = _
    rw [Rect.emb_apply]; show 0 + 1 * (x 1).val = _; omega
  rw [outC_dir m c _ ⟨fwd c + (x 0).val, by omega⟩ h0 (by show fwd c + (x 0).val < rfw c ∨ rfw c + 160 ≤ fwd c + (x 0).val; unfold fwd rfw; omega), h1]
  rfl

/-- First-hop transfer j: row 32 j + a of the y-partner's receive scratch takes row fwd + 32 j + a of the sender's staging
    scratch, and the partner's partner is the sender. -/
theorem land_y (c : Dev nD) (j : Fin 5) (fd : Buf (Elt F) (rL (yN c))) : ∀ i ∈ (rJ j).set,
    (vRJ j).view.write (Elt F) fd ((vSJ c j).view.read (Elt F) (stgC m c)) Finset.univ i = recvC m (yN c) i := by
  intro i hi
  rw [← vRJ_set] at hi
  obtain ⟨x, rfl⟩ := View.exists_emb_of_mem_set _ hi
  rw [View.write_emb_of_mem _ _ (Finset.mem_univ x)]
  have hx0 := idx2_lt0 x
  have hj := j.isLt
  have h0 : (((vRJ j).view.emb x : S160x512.Idx) 0).val = 32 * j.val + (x 0).val := by
    show ((rJ j).emb x 0).val = _
    rw [Rect.emb_apply]; show 32 * j.val + 1 * (x 0).val = _; omega
  have h1 : (((vRJ j).view.emb x : S160x512.Idx) 1).val = (x 1).val := by
    show ((rJ j).emb x 1).val = _
    rw [Rect.emb_apply]; show 0 + 1 * (x 1).val = _; omega
  have s0 : (((sJ c j).emb x : S512x512.Idx) 0).val = fwd c + 32 * j.val + (x 0).val := by
    rw [Rect.emb_apply]; show (fwd c + 32 * j.val) + 1 * (x 0).val = _; omega
  have s1 : (((sJ c j).emb x : S512x512.Idx) 1).val = (x 1).val := by
    rw [Rect.emb_apply]; show 0 + 1 * (x 1).val = _; omega
  show stgC m c ((sJ c j).emb x) = stgC m (yN (yN c)) (ix2 ⟨fwd (yN c) + (((vRJ j).view.emb x : S160x512.Idx) 0).val, _⟩ (((vRJ j).view.emb x : S160x512.Idx) 1))
  exact stgC_at m (yN_yN c).symm _ _ (by rw [s0]; show _ = fwd (yN c) + (((vRJ j).view.emb x : S160x512.Idx) 0).val; rw [h0, fwd_yN]; omega)
    (by rw [s1]; exact h1.symm)

/-- The direct slab: row other + 160 + a of the y-partner's result takes row 160 + a of the sender's staging scratch;
    rows [160, 352) lie outside both outer slabs. -/
theorem land_o (c : Dev nD) (fd : Buf (Elt F) (oL (yN c))) : ∀ i ∈ (oDir (yN c)).set,
    (oMDir (yN c)).view.write (Elt F) fd (vSO.view.read (Elt F) (stgC m c)) Finset.univ i = outC m (yN c) i := by
  intro i hi
  rw [← oMDir_set] at hi
  obtain ⟨x, rfl⟩ := View.exists_emb_of_mem_set _ hi
  rw [View.write_emb_of_mem _ _ (Finset.mem_univ x)]
  have hx0 := idx2_lt0 x
  have hs := sP_lt (yN c)
  have h0 : (((oMDir (yN c)).view.emb x : S1024x512.Idx) 0).val = other (yN c) + (160 + (x 0).val) := by
    show ((oDir (yN c)).emb x 0).val = _
    rw [Rect.emb_apply]; show (other (yN c) + 160) + 1 * (x 0).val = _; omega
  have h1 : (((oMDir (yN c)).view.emb x : S1024x512.Idx) 1) = x 1 := by
    apply Fin.ext
    show ((oDir (yN c)).emb x 1).val = _
    rw [Rect.emb_apply]; show 0 + 1 * (x 1).val = _; omega
  have s0 : (((sO).emb x : S512x512.Idx) 0).val = 160 + (x 0).val := by
    rw [Rect.emb_apply]; show 160 + 1 * (x 0).val = _; omega
  have s1 : (((sO).emb x : S512x512.Idx) 1).val = (x 1).val := by
    rw [Rect.emb_apply]; show 0 + 1 * (x 1).val = _; omega
  rw [outC_dir m (yN c) _ ⟨160 + (x 0).val, by omega⟩ h0 (by show 160 + (x 0).val < rfw (yN c) ∨ rfw (yN c) + 160 ≤ 160 + (x 0).val; unfold rfw; omega), h1]
  show stgC m c (sO.emb x) = _
  exact stgC_at m (yN_yN c).symm _ _ s0 s1

/-- Second-hop transfer j: row other + rfw + 32 j + a of the x-partner's result takes row 32 j + a of the sender's receive
    scratch, which is row fwd + 32 j + a of the sender's y-partner's staging scratch. The x-partner holds the same block
    as the sender, the slab it is forwarded is the one the sender received, and its x-partner is the sender. -/
theorem land_f (c : Dev nD) (j : Fin 5) (fd : Buf (Elt F) (oL (xN c))) : ∀ i ∈ (oFJ (xN c) j).set,
    (oMFJ (xN c) j).view.write (Elt F) fd ((vRJ j).view.read (Elt F) (recvC m c)) Finset.univ i = outC m (xN c) i := by
  intro i hi
  rw [← oMFJ_set] at hi
  obtain ⟨x, rfl⟩ := View.exists_emb_of_mem_set _ hi
  rw [View.write_emb_of_mem _ _ (Finset.mem_univ x)]
  have hx0 := idx2_lt0 x
  have hj := j.isLt
  have hr := rfw_le (xN c)
  have hf := fwd_le c
  have h0 : (((oMFJ (xN c) j).view.emb x : S1024x512.Idx) 0).val = other (xN c) + (rfw (xN c) + 32 * j.val + (x 0).val) := by
    show ((oFJ (xN c) j).emb x 0).val = _
    rw [Rect.emb_apply]; show (other (xN c) + rfw (xN c) + 32 * j.val) + 1 * (x 0).val = _; omega
  have h1 : (((oMFJ (xN c) j).view.emb x : S1024x512.Idx) 1) = x 1 := by
    apply Fin.ext
    show ((oFJ (xN c) j).emb x 1).val = _
    rw [Rect.emb_apply]; show 0 + 1 * (x 1).val = _; omega
  have s0 : (((rJ j).emb x : S160x512.Idx) 0).val = 32 * j.val + (x 0).val := by
    rw [Rect.emb_apply]; show 32 * j.val + 1 * (x 0).val = _; omega
  have s1 : (((rJ j).emb x : S160x512.Idx) 1).val = (x 1).val := by
    rw [Rect.emb_apply]; show 0 + 1 * (x 1).val = _; omega
  rw [outC_fwd m (xN c) _ ⟨rfw (xN c) + 32 * j.val + (x 0).val, by omega⟩ h0 (by show rfw (xN c) ≤ rfw (xN c) + 32 * j.val + (x 0).val; omega)
    (by show rfw (xN c) + 32 * j.val + (x 0).val < rfw (xN c) + 160; omega), h1]
  show stgC m (yN c) (ix2 ⟨fwd c + (((rJ j).emb x : S160x512.Idx) 0).val, _⟩ (((rJ j).emb x : S160x512.Idx) 1)) = _
  exact stgC_at m (by rw [xN_xN]) _ _ (by show fwd c + (((rJ j).emb x : S160x512.Idx) 0).val = rfw (xN c) + 32 * j.val + (x 0).val; rw [s0, rfw_xN]; omega) s1

end Cert.KernelIdeal.AG

end
-- ==== Proof.KI.Stores.lean ====
/-
  The three vector stores that fill the staging scratch: each writes, through a slab of rows, the conversion to bf16 of the
  same rows of the staged block. The three slabs tile the 512 rows, so afterwards the scratch holds the block converted
  entry by entry, whatever it held before.
-/
import proofs.«900668_g7700000000000669_dist_ag_v7x_xyz2x2x2_y_m512_n512_bf16_1_alg».proof.Proof.KI.Views
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

namespace Stores

/-! ## An update of a block at an index -/

/-- Inside the updated block the array takes the update, at the index shifted by the block's start. -/
theorem updateSlice_of_mem {α : Type} {s u : Shape} (x : s.Idx → α) (upd : u.Idx → α) (start : Fin s.rank → ℕ)
    (h : s.Slices start u) (i : s.Idx) (y : u.Idx)
    (hy : ∀ a : Fin s.rank, (i a).val = start a + (y (a.cast h.1.symm)).val) :
    updateSlice x upd start h i = upd y := by
  unfold updateSlice
  rw [dif_pos fun a => ⟨by have := hy a; omega, by have := hy a; have := (y (a.cast h.1.symm)).isLt; omega⟩]
  congr 1
  funext b
  apply Fin.ext
  have := hy (b.cast h.1)
  show (i (b.cast h.1)).val - start (b.cast h.1) = (y b).val
  have e : (b.cast h.1).cast h.1.symm = b := rfl
  rw [e] at this
  omega

/-- Off the updated block on some axis the array keeps its value. -/
theorem updateSlice_of_not_mem {α : Type} {s u : Shape} (x : s.Idx → α) (upd : u.Idx → α) (start : Fin s.rank → ℕ)
    (h : s.Slices start u) (i : s.Idx) (a : Fin s.rank)
    (ha : (i a).val < start a ∨ start a + u.size (a.cast h.1.symm) ≤ (i a).val) :
    updateSlice x upd start h i = x i := by
  unfold updateSlice
  rw [dif_neg fun hin => by have := hin a; omega]

/-! ## One store through a slab of rows -/

/-- A store on every index through a slab of the staging scratch updates that block of the scratch. -/
theorem slab_write {n : ℕ} (off : Fin 2 → ℕ) (inb : ∀ a, off a + (![n, 512] : Fin 2 → ℕ) a ≤ S512x512.size a)
    (f : (cc0_scratch0 : Ref sig .tc).ty.Contents (Elt F)) (w : (Rect.unit (s := S512x512) off ![n, 512] inb).shape.Idx → Elt F .bf16) :
    (vS.access (Rect.unit (s := S512x512) off ![n, 512] inb)).write (Elt F) f w Finset.univ
      = updateSlice (s := S512x512) f w off ⟨rfl, inb⟩ :=
  View.write_whole_slice_unit (cc0_scratch0 : Ref sig .tc) off ![n, 512] inb f w

/-- The staged block loaded through a slab, at the slab's index under a buffer index, is the block there. -/
theorem slab_load {n : ℕ} (off : Fin 2 → ℕ) (inb : ∀ a, off a + (![n, 512] : Fin 2 → ℕ) a ≤ S512x512.size a)
    (X : (cc0_stg0_0 : Ref sig .tc).ty.Contents (Elt F)) (i : S512x512.Idx) (y : (⟨2, ![n, 512]⟩ : Shape).Idx)
    (hy : ∀ a : Fin 2, (i a).val = off a + (y a).val) :
    xM.view.readAt (Elt F) (Rect.unit (s := S512x512) off ![n, 512] inb).toLoadRect X y = X i := by
  show X ((Rect.unit (s := S512x512) off ![n, 512] inb).toLoadRect.idx y) = X i
  refine congrArg X (funext fun a => Fin.ext ?_)
  rw [LoadRect.idx_apply]
  show off a + 1 * (y a).val = (i a).val
  have := hy a
  omega

/-- The three payloads: a cast to the same shape is the identity, so each is the conversion of what was loaded. -/
theorem pay1_eq (v : Vec F S160x512 .f32) : k0_pay1 v = truncf .bf16 (v : FVec F S160x512 .f32) bitsLt_bf16_f32 := by
  show shapeCast S160x512 (truncf .bf16 (shapeCast S160x512 v shapeCasts_S160x512_S160x512) bitsLt_bf16_f32) shapeCasts_S160x512_S160x512 = _
  rw [shapeCast_self, shapeCast_self]
theorem pay2_eq (v : Vec F S192x512 .f32) : k0_pay2 v = truncf .bf16 (v : FVec F S192x512 .f32) bitsLt_bf16_f32 := by
  show shapeCast S192x512 (truncf .bf16 (shapeCast S192x512 v shapeCasts_S192x512_S192x512) bitsLt_bf16_f32) shapeCasts_S192x512_S192x512 = _
  rw [shapeCast_self, shapeCast_self]
theorem pay3_eq (v : Vec F S160x512 .f32) : k0_pay3 v = truncf .bf16 (v : FVec F S160x512 .f32) bitsLt_bf16_f32 := by
  show shapeCast S160x512 (truncf .bf16 (shapeCast S160x512 v shapeCasts_S160x512_S160x512) bitsLt_bf16_f32) shapeCasts_S160x512_S160x512 = _
  rw [shapeCast_self, shapeCast_self]

/-- The conversion of the block loaded through a slab, at the slab's index under a buffer index, is the converted block there. -/
theorem slab_conv {n : ℕ} (off : Fin 2 → ℕ) (inb : ∀ a, off a + (![n, 512] : Fin 2 → ℕ) a ≤ S512x512.size a)
    (c : Dev nD) (i : S512x512.Idx) (y : (⟨2, ![n, 512]⟩ : Shape).Idx) (hy : ∀ a : Fin 2, (i a).val = off a + (y a).val) :
    (truncf .bf16 (xM.view.readAt (Elt F) (Rect.unit (s := S512x512) off ![n, 512] inb).toLoadRect (xstg m c) : FVec F ⟨2, ![n, 512]⟩ .f32)
      bitsLt_bf16_f32 : FVec F ⟨2, ![n, 512]⟩ .bf16) y = stgC m c i :=
  congrArg (FloatOps.truncf .bf16 bitsLt_bf16_f32) (slab_load off inb (xstg m c) i y hy)

/-- A row inside the slab: after the store of the converted rows the scratch holds the converted block there. -/
theorem slab_store_of_mem {n : ℕ} (off : Fin 2 → ℕ) (inb : ∀ a, off a + (![n, 512] : Fin 2 → ℕ) a ≤ S512x512.size a)
    (c : Dev nD) (g : (cc0_scratch0 : Ref sig .tc).ty.Contents (Elt F)) (i : S512x512.Idx)
    (h0 : off 0 ≤ (i 0).val) (hn : (i 0).val < off 0 + n) (h1 : off 1 = 0) :
    updateSlice (s := S512x512) g
      (truncf .bf16 (xM.view.readAt (Elt F) (Rect.unit (s := S512x512) off ![n, 512] inb).toLoadRect (xstg m c) : FVec F ⟨2, ![n, 512]⟩ .f32)
        bitsLt_bf16_f32 : FVec F ⟨2, ![n, 512]⟩ .bf16) off ⟨rfl, inb⟩ i = stgC m c i := by
  have hy : ∀ a : Fin 2, (i a).val
      = off a + ((ix2 (⟨(i 0).val - off 0, by omega⟩ : Fin n) (i 1) : (⟨2, ![n, 512]⟩ : Shape).Idx) a).val := fun a =>
    match a with
    | ⟨0, _⟩ => by show (i 0).val = off 0 + ((i 0).val - off 0); omega
    | ⟨1, _⟩ => by show (i 1).val = off 1 + (i 1).val; omega
  exact (updateSlice_of_mem _ _ _ _ i _ hy).trans (slab_conv m off inb c i _ hy)

/-- A row outside the slab: the store leaves the scratch as it was there. -/
theorem slab_store_of_not_mem {n : ℕ} (off : Fin 2 → ℕ) (inb : ∀ a, off a + (![n, 512] : Fin 2 → ℕ) a ≤ S512x512.size a)
    (g : (cc0_scratch0 : Ref sig .tc).ty.Contents (Elt F)) (w : (⟨2, ![n, 512]⟩ : Shape).Idx → Elt F .bf16) (i : S512x512.Idx)
    (h : (i 0).val < off 0 ∨ off 0 + n ≤ (i 0).val) :
    updateSlice (s := S512x512) g w off ⟨rfl, inb⟩ i = g i :=
  updateSlice_of_not_mem _ _ _ _ i 0 h

end Stores

/-! ## The three stores -/

/-- The three slabs — rows [352 s, 352 s + 160), [160, 352) and [352 (1 - s), 352 (1 - s) + 160), s the device's parity — tile
    the 512 rows: whatever the scratch held, after the three stores it holds the device's block converted to bf16. -/
theorem stores_stgC (c : Dev nD) (f0 : Buf (Elt F) (sL c)) :
    (vS.access (Rect.unit (s := S512x512) (k0_off2 c) ![160, 512] (k0_off2_inb c))).write (Elt F)
      ((vS.access (Rect.unit (s := S512x512) ![160, 0] ![192, 512] inb_S512x512_S192x512_160_0)).write (Elt F)
        ((vS.access (Rect.unit (s := S512x512) (k0_off1 c) ![160, 512] (k0_off1_inb c))).write (Elt F) f0
          (k0_pay1 (xM.view.readAt (Elt F) (Rect.unit (s := S512x512) (k0_off1 c) ![160, 512] (k0_off1_inb c)).toLoadRect (xstg m c))) Finset.univ)
        (k0_pay2 (xM.view.readAt (Elt F) (Rect.unit (s := S512x512) ![160, 0] ![192, 512] inb_S512x512_S192x512_160_0).toLoadRect (xstg m c))) Finset.univ)
      (k0_pay3 (xM.view.readAt (Elt F) (Rect.unit (s := S512x512) (k0_off2 c) ![160, 512] (k0_off2_inb c)).toLoadRect (xstg m c))) Finset.univ
    = stgC m c := by
  rw [Stores.slab_write, Stores.slab_write, Stores.slab_write, Stores.pay1_eq, Stores.pay2_eq, Stores.pay3_eq]
  refine funext fun (i : S512x512.Idx) => ?_
  have h10 : k0_off1 c 0 = 352 * sP c := congrFun (off1_eq c) 0
  have h11 : k0_off1 c 1 = 0 := congrFun (off1_eq c) 1
  have h20 : k0_off2 c 0 = 352 * (1 - sP c) := congrFun (off2_eq c) 0
  have h21 : k0_off2 c 1 = 0 := congrFun (off2_eq c) 1
  have hs := sP_lt c
  have hi0 := idx2_lt0 i
  by_cases hA : k0_off2 c 0 ≤ (i 0).val ∧ (i 0).val < k0_off2 c 0 + 160
  · exact Stores.slab_store_of_mem m _ (k0_off2_inb c) c _ i hA.1 hA.2 h21
  · refine (Stores.slab_store_of_not_mem _ (k0_off2_inb c) _ _ i (by omega)).trans ?_
    by_cases hB : 160 ≤ (i 0).val ∧ (i 0).val < 160 + 192
    · exact Stores.slab_store_of_mem m _ inb_S512x512_S192x512_160_0 c _ i hB.1 hB.2 rfl
    · refine (Stores.slab_store_of_not_mem _ inb_S512x512_S192x512_160_0 _ _ i
        (show (i 0).val < 160 ∨ 160 + 192 ≤ (i 0).val by omega)).trans ?_
      exact Stores.slab_store_of_mem m _ (k0_off1_inb c) c _ i (by omega) (by omega) h11

end Cert.KernelIdeal.AG

end
-- ==== Proof.KI.Body.lean ====
/-
  The kernel body on one device, from what the launch deals it to what it hands back: the two units to the partners'
  barriers with the buffers they may write; the block converted into the staging scratch and copied to its place; then,
  once both partners are inside, the first hop, the direct slab, the second hop piece by piece as the first hop lands;
  at the end every transfer's two sides are waited for, and the three buffers are whole again.
-/
import proofs.«900668_g7700000000000669_dist_ag_v7x_xyz2x2x2_y_m512_n512_bf16_1_alg».proof.Proof.KI.Rules
import proofs.«900668_g7700000000000669_dist_ag_v7x_xyz2x2x2_y_m512_n512_bf16_1_alg».proof.Proof.KI.Regions
import proofs.«900668_g7700000000000669_dist_ag_v7x_xyz2x2x2_y_m512_n512_bf16_1_alg».proof.Proof.KI.Values
import proofs.«900668_g7700000000000669_dist_ag_v7x_xyz2x2x2_y_m512_n512_bf16_1_alg».proof.Proof.KI.Levels
import proofs.«900668_g7700000000000669_dist_ag_v7x_xyz2x2x2_y_m512_n512_bf16_1_alg».proof.Proof.KI.Stores
import proofs.«900668_g7700000000000669_dist_ag_v7x_xyz2x2x2_y_m512_n512_bf16_1_alg».proof.Proof.Gen.KernelIdeal.Points

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

variable (K : Dev nD × Fin 25 → ℕ)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin25 (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ (oL c ↦{fullShare} m (oL c)) ∗ (∃ f, sL c ↦{fullShare} f) ∗ (∃ f, rL c ↦{fullShare} f))
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

set_option maxRecDepth 65536 in
set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt := by
  simp only [cc0_body_eq_skeleton]; unfold cc0_body_skel
  simp only [k0_part13_eq_skeleton]; unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre ghost posAll payToks creds
  rw [bigSep_fin25]
  simp only [bigSep_fin5]
  iintro ⟨⟨⟨⟨#Hrec, ⟨Ha0, Ha1, Ha2, Ha3, Ha4, Ha5, Ha6, Ha7, Ha8, Ha9, Ha10, Ha11, Ha12, Ha13, Ha14, Ha15, Ha16, Ha17, Ha18, Ha19, Ha20, Ha21, Ha22, Ha23, Ha24⟩, HtBY, HtBX, ⟨HtYR0, HtYR1, HtYR2, HtYR3, HtYR4⟩, HtOR, ⟨HtFR0, HtFR1, HtFR2, HtFR3, HtFR4⟩,
      ⟨HtYS0, HtYS1, HtYS2, HtYS3, HtYS4⟩, HtOS, ⟨HtFS0, HtFS1, HtFS2, HtFS3, HtFS4⟩, HtOwn, HtStg⟩,
      ⟨HcB, ⟨HcYR0, HcYR1, HcYR2, HcYR3, HcYR4⟩, HcOR, ⟨HcFR0, HcFR1, HcFR2, HcFR3, HcFR4⟩⟩, #Hlev, Hout, ⟨%fs0, Hs⟩, ⟨%fr0, Hr⟩⟩,
    Ho, ⟨%d0, %g0, %hg0, Hx⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  -- the result array cut into its four slabs
  ihave Ho4 := (oL_split (F := F) c fullShare (m (oL c))).1 $$ Hout
  icases Ho4 with ⟨Hown, Hdir, Hstg, Hfwd⟩
  -- the unit to the y-partner's barrier
  iapply (wp_sigY m K c _ (dev1_eq c) (by decide) W) $$ [HO HtBY Hr Hdir]
  · isplitr; · iapply (inv_at m K (yN c, 0)); iexact Hrec
    isplitl [HO]; · iexact HO
    isplitl [HtBY]; · iexact HtBY
    isplitl [Hr Hdir]
    · isplitl [Hr]; · iexists fr0; iexact Hr
      iexists _; iexact Hdir
    · iapply (reached_at m K (yN c, 0)); iexact Hrec
  iintro HO
  -- the unit to the x-partner's barrier
  iapply (wp_sigX m K c _ (dev2_eq c) (by decide) W) $$ [HO HtBX Hfwd]
  · isplitr; · iapply (inv_at m K (xN c, 0)); iexact Hrec
    isplitl [HO]; · iexact HO
    isplitl [HtBX]; · iexact HtBX
    isplitl [Hfwd]; · iexists _; iexact Hfwd
    iapply (reached_at m K (xN c, 0)); iexact Hrec
  iintro HO
  -- the block converted into the staging scratch, slab by slab
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) (k0_off1 c) ![160, 512] (k0_off1_inb c))) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) ![160, 0] ![192, 512] inb_S512x512_S192x512_160_0)) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) (k0_off2 c) ![160, 512] (k0_off2_inb c))) (Mk := Finset.univ) (Finset.subset_univ _)) $$ Hs; iintro Hs
  -- what the staging scratch now holds: the block, every entry converted
  rw [stores_stgC m c fs0]
  ihave HsC : (sL c ↦{fullShare} stgC m c) $$ [Hs]
  · iexact Hs
  ihave Hs2 := (halves (F := F) (ℓ := sL c) Finset.univ (stgC m c)).1 $$ HsC
  icases Hs2 with ⟨HsL, HsR⟩
  -- the block copied into its place in the result
  iapply (wp_own m K c (p_oMOwn c) rfl (m (oL c)) (land_own m c (m (oL c)))) $$ [HsL Hown HtOwn]
  · isplitr; · iapply (inv_at m K (c, kOwn)); iexact Hrec
    isplitl [HsL]; · iexact HsL
    isplitl [Hown]; · iexact Hown
    isplitl [HtOwn]; · iexact HtOwn
    iapply (reached_at m K (c, kOwn)); iexact Hrec
  iintro HcOwn
  -- both partners are inside: their buffers come with their units
  iapply (wp_waitBar m K c (by decide) (OY0 c) W) $$ [HcB HO Ha0]
  · isplitr; · iapply (inv_at m K (c, 0)); iexact Hrec
    isplitl [HcB]; · iexact HcB
    isplitl [HO]; · iexact HO
    isplitr; · iapply (mayWait_bar (F := F) c); iexact Hlev
    iexact Ha0
  iintro ⟨HO, Ha0, HpY, HpX⟩
  unfold barPayY barPayX
  icases HpY with ⟨⟨%frN, HrN⟩, ⟨%foD, HdirN⟩⟩
  icases HpX with ⟨%foF, HfwdN⟩
  ihave HrN5 := (rL_split (F := F) (yN c) fullShare frN).1 $$ HrN
  icases HrN5 with ⟨HrN0, HrN1, HrN2, HrN3, HrN4⟩
  ihave Hs7 := (sL_split (F := F) c qR (stgC m c)).1 $$ HsR
  icases Hs7 with ⟨Hs0, Hs1, Hs2, Hs3, Hs4, HsO, HsRest⟩
  ihave HfN5 := (oFwd_split (F := F) (xN c) fullShare foF).1 $$ HfwdN
  icases HfN5 with ⟨HfN0, HfN1, HfN2, HfN3, HfN4⟩
  -- first-hop transfer 0
  unfold OY0
  iapply (wp_ysend m K c _ (dev3_eq c) 0 (p_vSJ c 0) rfl rfl rfl frN (OY1 c) _ (land_y m c 0 frN)) $$ [Hs0 HrN0 HO HtYS0 HtYR0]
  · isplitr; · iapply (inv_at m K (c, kYS 0)); iexact Hrec
    isplitr; · iapply (inv_at m K (yN c, kYR 0)); iexact Hrec
    isplitl [Hs0]; · iexact Hs0
    isplitl [HrN0]; · iexact HrN0
    isplitl [HO]; · iexact HO
    isplitl [HtYS0]; · iexact HtYS0
    isplitr; · iapply (reached_at m K (c, kYS 0)); iexact Hrec
    isplitl [HtYR0]; · iexact HtYR0
    iapply (reached_at m K (yN c, kYR 0)); iexact Hrec
  iintro ⟨HcYS0, HO⟩
  -- first-hop transfer 1
  unfold OY1
  iapply (wp_ysend m K c _ (dev4_eq c) 1 (p_vSJ c 1) rfl rfl rfl frN (OY2 c) _ (land_y m c 1 frN)) $$ [Hs1 HrN1 HO HtYS1 HtYR1]
  · isplitr; · iapply (inv_at m K (c, kYS 1)); iexact Hrec
    isplitr; · iapply (inv_at m K (yN c, kYR 1)); iexact Hrec
    isplitl [Hs1]; · iexact Hs1
    isplitl [HrN1]; · iexact HrN1
    isplitl [HO]; · iexact HO
    isplitl [HtYS1]; · iexact HtYS1
    isplitr; · iapply (reached_at m K (c, kYS 1)); iexact Hrec
    isplitl [HtYR1]; · iexact HtYR1
    iapply (reached_at m K (yN c, kYR 1)); iexact Hrec
  iintro ⟨HcYS1, HO⟩
  -- first-hop transfer 2
  unfold OY2
  iapply (wp_ysend m K c _ (dev5_eq c) 2 (p_vSJ c 2) rfl rfl rfl frN (OY3 c) _ (land_y m c 2 frN)) $$ [Hs2 HrN2 HO HtYS2 HtYR2]
  · isplitr; · iapply (inv_at m K (c, kYS 2)); iexact Hrec
    isplitr; · iapply (inv_at m K (yN c, kYR 2)); iexact Hrec
    isplitl [Hs2]; · iexact Hs2
    isplitl [HrN2]; · iexact HrN2
    isplitl [HO]; · iexact HO
    isplitl [HtYS2]; · iexact HtYS2
    isplitr; · iapply (reached_at m K (c, kYS 2)); iexact Hrec
    isplitl [HtYR2]; · iexact HtYR2
    iapply (reached_at m K (yN c, kYR 2)); iexact Hrec
  iintro ⟨HcYS2, HO⟩
  -- first-hop transfer 3
  unfold OY3
  iapply (wp_ysend m K c _ (dev6_eq c) 3 (p_vSJ c 3) rfl rfl rfl frN (OY4 c) _ (land_y m c 3 frN)) $$ [Hs3 HrN3 HO HtYS3 HtYR3]
  · isplitr; · iapply (inv_at m K (c, kYS 3)); iexact Hrec
    isplitr; · iapply (inv_at m K (yN c, kYR 3)); iexact Hrec
    isplitl [Hs3]; · iexact Hs3
    isplitl [HrN3]; · iexact HrN3
    isplitl [HO]; · iexact HO
    isplitl [HtYS3]; · iexact HtYS3
    isplitr; · iapply (reached_at m K (c, kYS 3)); iexact Hrec
    isplitl [HtYR3]; · iexact HtYR3
    iapply (reached_at m K (yN c, kYR 3)); iexact Hrec
  iintro ⟨HcYS3, HO⟩
  -- first-hop transfer 4
  unfold OY4
  iapply (wp_ysend m K c _ (dev7_eq c) 4 (p_vSJ c 4) rfl rfl rfl frN (OO c) _ (land_y m c 4 frN)) $$ [Hs4 HrN4 HO HtYS4 HtYR4]
  · isplitr; · iapply (inv_at m K (c, kYS 4)); iexact Hrec
    isplitr; · iapply (inv_at m K (yN c, kYR 4)); iexact Hrec
    isplitl [Hs4]; · iexact Hs4
    isplitl [HrN4]; · iexact HrN4
    isplitl [HO]; · iexact HO
    isplitl [HtYS4]; · iexact HtYS4
    isplitr; · iapply (reached_at m K (c, kYS 4)); iexact Hrec
    isplitl [HtYR4]; · iexact HtYR4
    iapply (reached_at m K (yN c, kYR 4)); iexact Hrec
  iintro ⟨HcYS4, HO⟩
  -- the direct slab
  unfold OO
  iapply (wp_ovsend m K c _ (dev8_eq c) rfl (p_oMDir_send c) rfl rfl foD (OF0 c) _ (land_o m c foD)) $$ [HsO HdirN HO HtOS HtOR]
  · isplitr; · iapply (inv_at m K (c, kOS)); iexact Hrec
    isplitr; · iapply (inv_at m K (yN c, kOR)); iexact Hrec
    isplitl [HsO]; · iexact HsO
    isplitl [HdirN]; · iexact HdirN
    isplitl [HO]; · iexact HO
    isplitl [HtOS]; · iexact HtOS
    isplitr; · iapply (reached_at m K (c, kOS)); iexact Hrec
    isplitl [HtOR]; · iexact HtOR
    iapply (reached_at m K (yN c, kOR)); iexact Hrec
  iintro ⟨HcOS, HO⟩
  -- first-hop piece 0 has landed: its halves, and its forwarding to the x-partner
  iapply (wp_waitX m K c (kYR 0) (kYR_ne 0) (wpE_waitDma2_eq 𝒱₀ (c : Thread nD τ) none Set.univ) rfl rfl (OF0 c) _) $$ [HcYR0 HO Ha6]
  · isplitr; · iapply (inv_at m K (c, (kYR 0))); iexact Hrec
    isplitl [HcYR0]; · iexact HcYR0
    isplitl [HO]; · iexact HO
    isplitr; · iapply (mayWait_yr (F := F) c 0); iexact Hlev
    iexact Ha6
  iintro ⟨HO, Ha6, Hp⟩
  ihave Hr0 := (Entails.of_eq (pay_YR m c 0 false)) $$ Hp
  ihave Hr0h := (halves (F := F) (ℓ := rL c) (rJ 0).set (recvC m c)).1 $$ Hr0
  icases Hr0h with ⟨HrL0, HrR0⟩
  unfold OF0
  iapply (wp_fsend m K c _ (dev9_eq c) 0 rfl (p_oMFJ_send c 0) rfl rfl foF (OF1 c) _ (land_f m c 0 foF)) $$ [HrR0 HfN0 HO HtFS0 HtFR0]
  · isplitr; · iapply (inv_at m K (c, kFS 0)); iexact Hrec
    isplitr; · iapply (inv_at m K (xN c, kFR 0)); iexact Hrec
    isplitl [HrR0]; · iexact HrR0
    isplitl [HfN0]; · iexact HfN0
    isplitl [HO]; · iexact HO
    isplitl [HtFS0]; · iexact HtFS0
    isplitr; · iapply (reached_at m K (c, kFS 0)); iexact Hrec
    isplitl [HtFR0]; · iexact HtFR0
    iapply (reached_at m K (xN c, kFR 0)); iexact Hrec
  iintro ⟨HcFS0, HO⟩
  -- first-hop piece 1 has landed: its halves, and its forwarding to the x-partner
  iapply (wp_waitX m K c (kYR 1) (kYR_ne 1) (wpE_waitDma2_eq 𝒱₀ (c : Thread nD τ) none Set.univ) rfl rfl (OF1 c) _) $$ [HcYR1 HO Ha7]
  · isplitr; · iapply (inv_at m K (c, (kYR 1))); iexact Hrec
    isplitl [HcYR1]; · iexact HcYR1
    isplitl [HO]; · iexact HO
    isplitr; · iapply (mayWait_yr (F := F) c 1); iexact Hlev
    iexact Ha7
  iintro ⟨HO, Ha7, Hp⟩
  ihave Hr1 := (Entails.of_eq (pay_YR m c 1 false)) $$ Hp
  ihave Hr1h := (halves (F := F) (ℓ := rL c) (rJ 1).set (recvC m c)).1 $$ Hr1
  icases Hr1h with ⟨HrL1, HrR1⟩
  unfold OF1
  iapply (wp_fsend m K c _ (dev10_eq c) 1 rfl (p_oMFJ_send c 1) rfl rfl foF (OF2 c) _ (land_f m c 1 foF)) $$ [HrR1 HfN1 HO HtFS1 HtFR1]
  · isplitr; · iapply (inv_at m K (c, kFS 1)); iexact Hrec
    isplitr; · iapply (inv_at m K (xN c, kFR 1)); iexact Hrec
    isplitl [HrR1]; · iexact HrR1
    isplitl [HfN1]; · iexact HfN1
    isplitl [HO]; · iexact HO
    isplitl [HtFS1]; · iexact HtFS1
    isplitr; · iapply (reached_at m K (c, kFS 1)); iexact Hrec
    isplitl [HtFR1]; · iexact HtFR1
    iapply (reached_at m K (xN c, kFR 1)); iexact Hrec
  iintro ⟨HcFS1, HO⟩
  -- first-hop piece 2 has landed: its halves, and its forwarding to the x-partner
  iapply (wp_waitX m K c (kYR 2) (kYR_ne 2) (wpE_waitDma2_eq 𝒱₀ (c : Thread nD τ) none Set.univ) rfl rfl (OF2 c) _) $$ [HcYR2 HO Ha8]
  · isplitr; · iapply (inv_at m K (c, (kYR 2))); iexact Hrec
    isplitl [HcYR2]; · iexact HcYR2
    isplitl [HO]; · iexact HO
    isplitr; · iapply (mayWait_yr (F := F) c 2); iexact Hlev
    iexact Ha8
  iintro ⟨HO, Ha8, Hp⟩
  ihave Hr2 := (Entails.of_eq (pay_YR m c 2 false)) $$ Hp
  ihave Hr2h := (halves (F := F) (ℓ := rL c) (rJ 2).set (recvC m c)).1 $$ Hr2
  icases Hr2h with ⟨HrL2, HrR2⟩
  unfold OF2
  iapply (wp_fsend m K c _ (dev11_eq c) 2 rfl (p_oMFJ_send c 2) rfl rfl foF (OF3 c) _ (land_f m c 2 foF)) $$ [HrR2 HfN2 HO HtFS2 HtFR2]
  · isplitr; · iapply (inv_at m K (c, kFS 2)); iexact Hrec
    isplitr; · iapply (inv_at m K (xN c, kFR 2)); iexact Hrec
    isplitl [HrR2]; · iexact HrR2
    isplitl [HfN2]; · iexact HfN2
    isplitl [HO]; · iexact HO
    isplitl [HtFS2]; · iexact HtFS2
    isplitr; · iapply (reached_at m K (c, kFS 2)); iexact Hrec
    isplitl [HtFR2]; · iexact HtFR2
    iapply (reached_at m K (xN c, kFR 2)); iexact Hrec
  iintro ⟨HcFS2, HO⟩
  -- first-hop piece 3 has landed: its halves, and its forwarding to the x-partner
  iapply (wp_waitX m K c (kYR 3) (kYR_ne 3) (wpE_waitDma2_eq 𝒱₀ (c : Thread nD τ) none Set.univ) rfl rfl (OF3 c) _) $$ [HcYR3 HO Ha9]
  · isplitr; · iapply (inv_at m K (c, (kYR 3))); iexact Hrec
    isplitl [HcYR3]; · iexact HcYR3
    isplitl [HO]; · iexact HO
    isplitr; · iapply (mayWait_yr (F := F) c 3); iexact Hlev
    iexact Ha9
  iintro ⟨HO, Ha9, Hp⟩
  ihave Hr3 := (Entails.of_eq (pay_YR m c 3 false)) $$ Hp
  ihave Hr3h := (halves (F := F) (ℓ := rL c) (rJ 3).set (recvC m c)).1 $$ Hr3
  icases Hr3h with ⟨HrL3, HrR3⟩
  unfold OF3
  iapply (wp_fsend m K c _ (dev12_eq c) 3 rfl (p_oMFJ_send c 3) rfl rfl foF (OF4 c) _ (land_f m c 3 foF)) $$ [HrR3 HfN3 HO HtFS3 HtFR3]
  · isplitr; · iapply (inv_at m K (c, kFS 3)); iexact Hrec
    isplitr; · iapply (inv_at m K (xN c, kFR 3)); iexact Hrec
    isplitl [HrR3]; · iexact HrR3
    isplitl [HfN3]; · iexact HfN3
    isplitl [HO]; · iexact HO
    isplitl [HtFS3]; · iexact HtFS3
    isplitr; · iapply (reached_at m K (c, kFS 3)); iexact Hrec
    isplitl [HtFR3]; · iexact HtFR3
    iapply (reached_at m K (xN c, kFR 3)); iexact Hrec
  iintro ⟨HcFS3, HO⟩
  -- first-hop piece 4 has landed: its halves, and its forwarding to the x-partner
  iapply (wp_waitX m K c (kYR 4) (kYR_ne 4) (wpE_waitDma2_eq 𝒱₀ (c : Thread nD τ) none Set.univ) rfl rfl (OF4 c) _) $$ [HcYR4 HO Ha10]
  · isplitr; · iapply (inv_at m K (c, (kYR 4))); iexact Hrec
    isplitl [HcYR4]; · iexact HcYR4
    isplitl [HO]; · iexact HO
    isplitr; · iapply (mayWait_yr (F := F) c 4); iexact Hlev
    iexact Ha10
  iintro ⟨HO, Ha10, Hp⟩
  ihave Hr4 := (Entails.of_eq (pay_YR m c 4 false)) $$ Hp
  ihave Hr4h := (halves (F := F) (ℓ := rL c) (rJ 4).set (recvC m c)).1 $$ Hr4
  icases Hr4h with ⟨HrL4, HrR4⟩
  unfold OF4
  iapply (wp_fsend m K c _ (dev13_eq c) 4 rfl (p_oMFJ_send c 4) rfl rfl foF OF5 _ (land_f m c 4 foF)) $$ [HrR4 HfN4 HO HtFS4 HtFR4]
  · isplitr; · iapply (inv_at m K (c, kFS 4)); iexact Hrec
    isplitr; · iapply (inv_at m K (xN c, kFR 4)); iexact Hrec
    isplitl [HrR4]; · iexact HrR4
    isplitl [HfN4]; · iexact HfN4
    isplitl [HO]; · iexact HO
    isplitl [HtFS4]; · iexact HtFS4
    isplitr; · iapply (reached_at m K (c, kFS 4)); iexact Hrec
    isplitl [HtFR4]; · iexact HtFR4
    iapply (reached_at m K (xN c, kFR 4)); iexact Hrec
  iintro ⟨HcFS4, HO⟩
  -- the receive scratch, whole at its left half, copied into its slab of the result
  unfold OF5
  ihave Hrl := (rL_split (F := F) c qL (recvC m c)).2 $$ [HrL0 HrL1 HrL2 HrL3 HrL4]
  · isplitl [HrL0]; · iexact HrL0
    isplitl [HrL1]; · iexact HrL1
    isplitl [HrL2]; · iexact HrL2
    isplitl [HrL3]; · iexact HrL3
    iexact HrL4
  iapply (wp_stgcopy m K c (p_oMStg c) rfl (m (oL c)) (land_stg m c (m (oL c)))) $$ [Hrl Hstg HtStg]
  · isplitr; · iapply (inv_at m K (c, kStg)); iexact Hrec
    isplitl [Hrl]; · iexact Hrl
    isplitl [Hstg]; · iexact Hstg
    isplitl [HtStg]; · iexact HtStg
    iapply (reached_at m K (c, kStg)); iexact Hrec
  iintro HcStg
  -- the direct slab has landed
  iapply (wp_waitX m K c kOR (by decide) (wpE_waitDma2_eq 𝒱₀ (c : Thread nD τ) none Set.univ) rfl rfl 0 _) $$ [HcOR HO Ha12]
  · isplitr; · iapply (inv_at m K (c, kOR)); iexact Hrec
    isplitl [HcOR]; · iexact HcOR
    isplitl [HO]; · iexact HO
    isplitr; · rw [MayWait_zero]; iempintro
    iexact Ha12
  iintro ⟨HO, Ha12, Hp⟩
  ihave Hdir' := (Entails.of_eq (pay_OR m c false)) $$ Hp
  -- forwarded piece 0 has landed
  iapply (wp_waitX m K c (kFR 0) (kFR_ne 0) (wpE_waitDma2_eq 𝒱₀ (c : Thread nD τ) none Set.univ) rfl rfl 0 _) $$ [HcFR0 HO Ha18]
  · isplitr; · iapply (inv_at m K (c, (kFR 0))); iexact Hrec
    isplitl [HcFR0]; · iexact HcFR0
    isplitl [HO]; · iexact HO
    isplitr; · rw [MayWait_zero]; iempintro
    iexact Ha18
  iintro ⟨HO, Ha18, Hp⟩
  ihave HfJ0 := (Entails.of_eq (pay_FR m c 0 false)) $$ Hp
  -- forwarded piece 1 has landed
  iapply (wp_waitX m K c (kFR 1) (kFR_ne 1) (wpE_waitDma2_eq 𝒱₀ (c : Thread nD τ) none Set.univ) rfl rfl 0 _) $$ [HcFR1 HO Ha19]
  · isplitr; · iapply (inv_at m K (c, (kFR 1))); iexact Hrec
    isplitl [HcFR1]; · iexact HcFR1
    isplitl [HO]; · iexact HO
    isplitr; · rw [MayWait_zero]; iempintro
    iexact Ha19
  iintro ⟨HO, Ha19, Hp⟩
  ihave HfJ1 := (Entails.of_eq (pay_FR m c 1 false)) $$ Hp
  -- forwarded piece 2 has landed
  iapply (wp_waitX m K c (kFR 2) (kFR_ne 2) (wpE_waitDma2_eq 𝒱₀ (c : Thread nD τ) none Set.univ) rfl rfl 0 _) $$ [HcFR2 HO Ha20]
  · isplitr; · iapply (inv_at m K (c, (kFR 2))); iexact Hrec
    isplitl [HcFR2]; · iexact HcFR2
    isplitl [HO]; · iexact HO
    isplitr; · rw [MayWait_zero]; iempintro
    iexact Ha20
  iintro ⟨HO, Ha20, Hp⟩
  ihave HfJ2 := (Entails.of_eq (pay_FR m c 2 false)) $$ Hp
  -- forwarded piece 3 has landed
  iapply (wp_waitX m K c (kFR 3) (kFR_ne 3) (wpE_waitDma2_eq 𝒱₀ (c : Thread nD τ) none Set.univ) rfl rfl 0 _) $$ [HcFR3 HO Ha21]
  · isplitr; · iapply (inv_at m K (c, (kFR 3))); iexact Hrec
    isplitl [HcFR3]; · iexact HcFR3
    isplitl [HO]; · iexact HO
    isplitr; · rw [MayWait_zero]; iempintro
    iexact Ha21
  iintro ⟨HO, Ha21, Hp⟩
  ihave HfJ3 := (Entails.of_eq (pay_FR m c 3 false)) $$ Hp
  -- forwarded piece 4 has landed
  iapply (wp_waitX m K c (kFR 4) (kFR_ne 4) (wpE_waitDma2_eq 𝒱₀ (c : Thread nD τ) none Set.univ) rfl rfl 0 _) $$ [HcFR4 HO Ha22]
  · isplitr; · iapply (inv_at m K (c, (kFR 4))); iexact Hrec
    isplitl [HcFR4]; · iexact HcFR4
    isplitl [HO]; · iexact HO
    isplitr; · rw [MayWait_zero]; iempintro
    iexact Ha22
  iintro ⟨HO, Ha22, Hp⟩
  ihave HfJ4 := (Entails.of_eq (pay_FR m c 4 false)) $$ Hp
  -- first-hop transfer 0 has read its source
  iapply (wp_waitX m K c (kYS 0) (kYS_ne 0) (wpE_waitDma2_eq 𝒱₀ (c : Thread nD τ) none Set.univ) rfl rfl 0 _) $$ [HcYS0 HO Ha1]
  · isplitr; · iapply (inv_at m K (c, (kYS 0))); iexact Hrec
    isplitl [HcYS0]; · iexact HcYS0
    isplitl [HO]; · iexact HO
    isplitr; · rw [MayWait_zero]; iempintro
    iexact Ha1
  iintro ⟨HO, Ha1, Hp⟩
  ihave Hs0 := (Entails.of_eq (pay_YS m c 0 false)) $$ Hp
  -- first-hop transfer 1 has read its source
  iapply (wp_waitX m K c (kYS 1) (kYS_ne 1) (wpE_waitDma2_eq 𝒱₀ (c : Thread nD τ) none Set.univ) rfl rfl 0 _) $$ [HcYS1 HO Ha2]
  · isplitr; · iapply (inv_at m K (c, (kYS 1))); iexact Hrec
    isplitl [HcYS1]; · iexact HcYS1
    isplitl [HO]; · iexact HO
    isplitr; · rw [MayWait_zero]; iempintro
    iexact Ha2
  iintro ⟨HO, Ha2, Hp⟩
  ihave Hs1 := (Entails.of_eq (pay_YS m c 1 false)) $$ Hp
  -- first-hop transfer 2 has read its source
  iapply (wp_waitX m K c (kYS 2) (kYS_ne 2) (wpE_waitDma2_eq 𝒱₀ (c : Thread nD τ) none Set.univ) rfl rfl 0 _) $$ [HcYS2 HO Ha3]
  · isplitr; · iapply (inv_at m K (c, (kYS 2))); iexact Hrec
    isplitl [HcYS2]; · iexact HcYS2
    isplitl [HO]; · iexact HO
    isplitr; · rw [MayWait_zero]; iempintro
    iexact Ha3
  iintro ⟨HO, Ha3, Hp⟩
  ihave Hs2 := (Entails.of_eq (pay_YS m c 2 false)) $$ Hp
  -- first-hop transfer 3 has read its source
  iapply (wp_waitX m K c (kYS 3) (kYS_ne 3) (wpE_waitDma2_eq 𝒱₀ (c : Thread nD τ) none Set.univ) rfl rfl 0 _) $$ [HcYS3 HO Ha4]
  · isplitr; · iapply (inv_at m K (c, (kYS 3))); iexact Hrec
    isplitl [HcYS3]; · iexact HcYS3
    isplitl [HO]; · iexact HO
    isplitr; · rw [MayWait_zero]; iempintro
    iexact Ha4
  iintro ⟨HO, Ha4, Hp⟩
  ihave Hs3 := (Entails.of_eq (pay_YS m c 3 false)) $$ Hp
  -- first-hop transfer 4 has read its source
  iapply (wp_waitX m K c (kYS 4) (kYS_ne 4) (wpE_waitDma2_eq 𝒱₀ (c : Thread nD τ) none Set.univ) rfl rfl 0 _) $$ [HcYS4 HO Ha5]
  · isplitr; · iapply (inv_at m K (c, (kYS 4))); iexact Hrec
    isplitl [HcYS4]; · iexact HcYS4
    isplitl [HO]; · iexact HO
    isplitr; · rw [MayWait_zero]; iempintro
    iexact Ha5
  iintro ⟨HO, Ha5, Hp⟩
  ihave Hs4 := (Entails.of_eq (pay_YS m c 4 false)) $$ Hp
  -- the direct slab's source
  iapply (wp_waitX m K c kOS (by decide) (wpE_waitDma2_eq 𝒱₀ (c : Thread nD τ) none Set.univ) rfl rfl 0 _) $$ [HcOS HO Ha11]
  · isplitr; · iapply (inv_at m K (c, kOS)); iexact Hrec
    isplitl [HcOS]; · iexact HcOS
    isplitl [HO]; · iexact HO
    isplitr; · rw [MayWait_zero]; iempintro
    iexact Ha11
  iintro ⟨HO, Ha11, Hp⟩
  ihave HsO := (Entails.of_eq (pay_OS m c false)) $$ Hp
  -- second-hop transfer 0 has read its source
  iapply (wp_waitX m K c (kFS 0) (kFS_ne 0) (wpE_waitDma2_eq 𝒱₀ (c : Thread nD τ) none Set.univ) rfl rfl 0 _) $$ [HcFS0 HO Ha13]
  · isplitr; · iapply (inv_at m K (c, (kFS 0))); iexact Hrec
    isplitl [HcFS0]; · iexact HcFS0
    isplitl [HO]; · iexact HO
    isplitr; · rw [MayWait_zero]; iempintro
    iexact Ha13
  iintro ⟨HO, Ha13, Hp⟩
  ihave HrR0 := (Entails.of_eq (pay_FS m c 0 false)) $$ Hp
  -- second-hop transfer 1 has read its source
  iapply (wp_waitX m K c (kFS 1) (kFS_ne 1) (wpE_waitDma2_eq 𝒱₀ (c : Thread nD τ) none Set.univ) rfl rfl 0 _) $$ [HcFS1 HO Ha14]
  · isplitr; · iapply (inv_at m K (c, (kFS 1))); iexact Hrec
    isplitl [HcFS1]; · iexact HcFS1
    isplitl [HO]; · iexact HO
    isplitr; · rw [MayWait_zero]; iempintro
    iexact Ha14
  iintro ⟨HO, Ha14, Hp⟩
  ihave HrR1 := (Entails.of_eq (pay_FS m c 1 false)) $$ Hp
  -- second-hop transfer 2 has read its source
  iapply (wp_waitX m K c (kFS 2) (kFS_ne 2) (wpE_waitDma2_eq 𝒱₀ (c : Thread nD τ) none Set.univ) rfl rfl 0 _) $$ [HcFS2 HO Ha15]
  · isplitr; · iapply (inv_at m K (c, (kFS 2))); iexact Hrec
    isplitl [HcFS2]; · iexact HcFS2
    isplitl [HO]; · iexact HO
    isplitr; · rw [MayWait_zero]; iempintro
    iexact Ha15
  iintro ⟨HO, Ha15, Hp⟩
  ihave HrR2 := (Entails.of_eq (pay_FS m c 2 false)) $$ Hp
  -- second-hop transfer 3 has read its source
  iapply (wp_waitX m K c (kFS 3) (kFS_ne 3) (wpE_waitDma2_eq 𝒱₀ (c : Thread nD τ) none Set.univ) rfl rfl 0 _) $$ [HcFS3 HO Ha16]
  · isplitr; · iapply (inv_at m K (c, (kFS 3))); iexact Hrec
    isplitl [HcFS3]; · iexact HcFS3
    isplitl [HO]; · iexact HO
    isplitr; · rw [MayWait_zero]; iempintro
    iexact Ha16
  iintro ⟨HO, Ha16, Hp⟩
  ihave HrR3 := (Entails.of_eq (pay_FS m c 3 false)) $$ Hp
  -- second-hop transfer 4 has read its source
  iapply (wp_waitX m K c (kFS 4) (kFS_ne 4) (wpE_waitDma2_eq 𝒱₀ (c : Thread nD τ) none Set.univ) rfl rfl 0 _) $$ [HcFS4 HO Ha17]
  · isplitr; · iapply (inv_at m K (c, (kFS 4))); iexact Hrec
    isplitl [HcFS4]; · iexact HcFS4
    isplitl [HO]; · iexact HO
    isplitr; · rw [MayWait_zero]; iempintro
    iexact Ha17
  iintro ⟨HO, Ha17, Hp⟩
  ihave HrR4 := (Entails.of_eq (pay_FS m c 4 false)) $$ Hp
  -- the two local copies
  iapply (wp_waitX m K c kOwn (by decide) (wpE_waitDma2_eq 𝒱₀ (c : Thread nD τ) none Set.univ) rfl rfl 0 _) $$ [HcOwn HO Ha23]
  · isplitr; · iapply (inv_at m K (c, kOwn)); iexact Hrec
    isplitl [HcOwn]; · iexact HcOwn
    isplitl [HO]; · iexact HO
    isplitr; · rw [MayWait_zero]; iempintro
    iexact Ha23
  iintro ⟨HO, Ha23, Hp⟩
  ihave Hp' := (Entails.of_eq (pay_Own m c false)) $$ Hp
  icases Hp' with ⟨Hown', HsL⟩
  iapply (wp_waitX m K c kStg (by decide) (wpE_waitDma2_eq 𝒱₀ (c : Thread nD τ) none Set.univ) rfl rfl 0 _) $$ [HcStg HO Ha24]
  · isplitr; · iapply (inv_at m K (c, kStg)); iexact Hrec
    isplitl [HcStg]; · iexact HcStg
    isplitl [HO]; · iexact HO
    isplitr; · rw [MayWait_zero]; iempintro
    iexact Ha24
  iintro ⟨HO, Ha24, Hp⟩
  ihave Hp' := (Entails.of_eq (pay_Stg m c false)) $$ Hp
  icases Hp' with ⟨Hstg', Hrl⟩
  -- the three buffers whole again
  ihave HsR := (sL_split (F := F) c qR (stgC m c)).2 $$ [Hs0 Hs1 Hs2 Hs3 Hs4 HsO HsRest]
  · isplitl [Hs0]; · iexact Hs0
    isplitl [Hs1]; · iexact Hs1
    isplitl [Hs2]; · iexact Hs2
    isplitl [Hs3]; · iexact Hs3
    isplitl [Hs4]; · iexact Hs4
    isplitl [HsO]; · iexact HsO
    iexact HsRest
  ihave Hsfull := (halves (F := F) (ℓ := sL c) Finset.univ (stgC m c)).2 $$ [HsL HsR]
  · isplitl [HsL]; · iexact HsL
    iexact HsR
  ihave HrR := (rL_split (F := F) c qR (recvC m c)).2 $$ [HrR0 HrR1 HrR2 HrR3 HrR4]
  · isplitl [HrR0]; · iexact HrR0
    isplitl [HrR1]; · iexact HrR1
    isplitl [HrR2]; · iexact HrR2
    isplitl [HrR3]; · iexact HrR3
    iexact HrR4
  ihave Hrfull := (halves (F := F) (ℓ := rL c) Finset.univ (recvC m c)).2 $$ [Hrl HrR]
  · isplitl [Hrl]; · iexact Hrl
    iexact HrR
  ihave Hfwd' := (oFwd_split (F := F) c fullShare (outC m c)).2 $$ [HfJ0 HfJ1 HfJ2 HfJ3 HfJ4]
  · isplitl [HfJ0]; · iexact HfJ0
    isplitl [HfJ1]; · iexact HfJ1
    isplitl [HfJ2]; · iexact HfJ2
    isplitl [HfJ3]; · iexact HfJ3
    iexact HfJ4
  ihave Hout := (oL_split (F := F) c fullShare (outC m c)).2 $$ [Hown' Hdir' Hstg' Hfwd']
  · isplitl [Hown']; · iexact Hown'
    isplitl [Hdir']; · iexact Hdir'
    isplitl [Hstg']; · iexact Hstg'
    iexact Hfwd'
  -- every transfer cell's one round is consumed: the cells close, their counters at zero
  imod (close_cell m K c 1 (by decide)) $$ [Ha1] with Hz1
  · isplitr; · iapply (inv_at m K (c, 1)); iexact Hrec
    iexact Ha1
  imod (close_cell m K c 2 (by decide)) $$ [Ha2] with Hz2
  · isplitr; · iapply (inv_at m K (c, 2)); iexact Hrec
    iexact Ha2
  imod (close_cell m K c 3 (by decide)) $$ [Ha3] with Hz3
  · isplitr; · iapply (inv_at m K (c, 3)); iexact Hrec
    iexact Ha3
  imod (close_cell m K c 4 (by decide)) $$ [Ha4] with Hz4
  · isplitr; · iapply (inv_at m K (c, 4)); iexact Hrec
    iexact Ha4
  imod (close_cell m K c 5 (by decide)) $$ [Ha5] with Hz5
  · isplitr; · iapply (inv_at m K (c, 5)); iexact Hrec
    iexact Ha5
  imod (close_cell m K c 6 (by decide)) $$ [Ha6] with Hz6
  · isplitr; · iapply (inv_at m K (c, 6)); iexact Hrec
    iexact Ha6
  imod (close_cell m K c 7 (by decide)) $$ [Ha7] with Hz7
  · isplitr; · iapply (inv_at m K (c, 7)); iexact Hrec
    iexact Ha7
  imod (close_cell m K c 8 (by decide)) $$ [Ha8] with Hz8
  · isplitr; · iapply (inv_at m K (c, 8)); iexact Hrec
    iexact Ha8
  imod (close_cell m K c 9 (by decide)) $$ [Ha9] with Hz9
  · isplitr; · iapply (inv_at m K (c, 9)); iexact Hrec
    iexact Ha9
  imod (close_cell m K c 10 (by decide)) $$ [Ha10] with Hz10
  · isplitr; · iapply (inv_at m K (c, 10)); iexact Hrec
    iexact Ha10
  imod (close_cell m K c 11 (by decide)) $$ [Ha11] with Hz11
  · isplitr; · iapply (inv_at m K (c, 11)); iexact Hrec
    iexact Ha11
  imod (close_cell m K c 12 (by decide)) $$ [Ha12] with Hz12
  · isplitr; · iapply (inv_at m K (c, 12)); iexact Hrec
    iexact Ha12
  imod (close_cell m K c 13 (by decide)) $$ [Ha13] with Hz13
  · isplitr; · iapply (inv_at m K (c, 13)); iexact Hrec
    iexact Ha13
  imod (close_cell m K c 14 (by decide)) $$ [Ha14] with Hz14
  · isplitr; · iapply (inv_at m K (c, 14)); iexact Hrec
    iexact Ha14
  imod (close_cell m K c 15 (by decide)) $$ [Ha15] with Hz15
  · isplitr; · iapply (inv_at m K (c, 15)); iexact Hrec
    iexact Ha15
  imod (close_cell m K c 16 (by decide)) $$ [Ha16] with Hz16
  · isplitr; · iapply (inv_at m K (c, 16)); iexact Hrec
    iexact Ha16
  imod (close_cell m K c 17 (by decide)) $$ [Ha17] with Hz17
  · isplitr; · iapply (inv_at m K (c, 17)); iexact Hrec
    iexact Ha17
  imod (close_cell m K c 18 (by decide)) $$ [Ha18] with Hz18
  · isplitr; · iapply (inv_at m K (c, 18)); iexact Hrec
    iexact Ha18
  imod (close_cell m K c 19 (by decide)) $$ [Ha19] with Hz19
  · isplitr; · iapply (inv_at m K (c, 19)); iexact Hrec
    iexact Ha19
  imod (close_cell m K c 20 (by decide)) $$ [Ha20] with Hz20
  · isplitr; · iapply (inv_at m K (c, 20)); iexact Hrec
    iexact Ha20
  imod (close_cell m K c 21 (by decide)) $$ [Ha21] with Hz21
  · isplitr; · iapply (inv_at m K (c, 21)); iexact Hrec
    iexact Ha21
  imod (close_cell m K c 22 (by decide)) $$ [Ha22] with Hz22
  · isplitr; · iapply (inv_at m K (c, 22)); iexact Hrec
    iexact Ha22
  imod (close_cell m K c 23 (by decide)) $$ [Ha23] with Hz23
  · isplitr; · iapply (inv_at m K (c, 23)); iexact Hrec
    iexact Ha23
  imod (close_cell m K c 24 (by decide)) $$ [Ha24] with Hz24
  · isplitr; · iapply (inv_at m K (c, 24)); iexact Hrec
    iexact Ha24
  rw [wp_ret]; imodintro
  iapply Hk
  unfold bodyPost Φ₁ Dat.owesAt Pipeline.owesWithin
  rw [show (dats m 0 c).owed t₀.succ = 0 from rfl, bigSep_fin24]
  isplitl [Hout Hsfull Hrfull Hz1 Hz2 Hz3 Hz4 Hz5 Hz6 Hz7 Hz8 Hz9 Hz10 Hz11 Hz12 Hz13 Hz14 Hz15 Hz16 Hz17 Hz18 Hz19 Hz20 Hz21 Hz22 Hz23 Hz24]
  · isplitl [Hout]; · iexact Hout
    isplitl [Hsfull Hrfull]
    · isplitl [Hsfull]; · iexists _; iexact Hsfull
      iexists _; iexact Hrfull
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    iexact Hz24
  isplitl [HO]
  · iexists (insert (csem kStg, ()) (insert (csem kOwn, ()) (insert (csem (kFS 4), ()) (insert (csem (kFS 3), ()) (insert (csem (kFS 2), ()) (insert (csem (kFS 1), ()) (insert (csem (kFS 0), ()) (insert (csem kOS, ()) (insert (csem (kYS 4), ()) (insert (csem (kYS 3), ()) (insert (csem (kYS 2), ()) (insert (csem (kYS 1), ()) (insert (csem (kYS 0), ()) (insert (csem (kFR 4), ()) (insert (csem (kFR 3), ()) (insert (csem (kFR 2), ()) (insert (csem (kFR 1), ()) (insert (csem (kFR 0), ()) (insert (csem kOR, ()) (insert (csem (kYR 4), ()) (insert (csem (kYR 3), ()) (insert (csem (kYR 2), ()) (insert (csem (kYR 1), ()) (insert (csem (kYR 0), ()) (insert (csem 0, ()) W)))))))))))))))))))))))))
    isplitr; · ipureintro; exact fun _ _ => Or.inl trivial
    iexact HO
  iexists _; isplitr; · (ipureintro; rfl)
  iexact Hx

/-! ## The library's body obligation -/

def bodyPre' (c : Dev nD) : sProp 𝕄 :=
  iprop(Φ₀ m c ∗ (dats m 0 c).owesAt () t₀.castSucc ∗ (∃ d, stg c cc0_stg0_0 ((dats m 0 c).before (0 : Fin 1) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The body obligation on device c: the pipeline's invariant before the one grid point, what the device still owes, and the
    staged block, to the invariant after it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m c)
  unfold bodyPre' Φ₀ start
  iintro ⟨⟨⟨⟨%K, Hg⟩, Hcr, Hlev, Hout⟩, Hs, Hr⟩, Ho, Hx⟩
  iapply (sound_body m K c fun _ => bodyPost m c)
  unfold bodyPre
  isplitr []
  · isplitl [Hg Hcr Hlev Hout Hs Hr]
    · isplitl [Hg]; · iexact Hg
      isplitl [Hcr]; · iexact Hcr
      isplitl [Hlev]; · iexact Hlev
      isplitl [Hout]; · iexact Hout
      isplitl [Hs]; · iexact Hs
      iexact Hr
    isplitl [Ho]; · iexact Ho
    iexact Hx
  · iintro H; iexact H

/-- info: 'Cert.KernelIdeal.AG.body_obligation' depends on axioms: [propext, Classical.choice, Quot.sound] -/
#guard_msgs in #print axioms body_obligation

end Cert.KernelIdeal.AG

end
-- ==== Proof.KB.Mesh.lean ====
/-
  The mesh arithmetic of the all-gather: the 2 × 2 × 2 mesh numbers device (x, y, z) as 4x + 2y + z. A device's
  partner across axis y holds the other block of the gathered array; its partner across axis x holds the same block and
  forwards the complementary slab of the other one. Which slab a device forwards is decided by the parity of x + z:
  rows [352 s, 352 s + 160) of the 512-row block, s that parity; rows [160, 352) travel directly.
-/
import proofs.«900668_g7700000000000669_dist_ag_v7x_xyz2x2x2_y_m512_n512_bf16_1_alg».proof.Proof.Gen.Kernel

namespace Cert.Kernel.AG

open Cert.Kernel Cert.Kernel.Gen Idealize.ShloMosaic

/-- The partner across mesh axis y (same x and z, the other y). -/
def yN (c : Dev nD) : Dev nD := ⟨k0_dev1 c, k0_dev1_lt c⟩
/-- The partner across mesh axis x (same y and z, the other x). -/
def xN (c : Dev nD) : Dev nD := ⟨k0_dev2 c, k0_dev2_lt c⟩

theorem yN_yN (c : Dev nD) : yN (yN c) = c := by revert c; decide +kernel
theorem xN_xN (c : Dev nD) : xN (xN c) = c := by revert c; decide +kernel
theorem yN_ne_xN (c : Dev nD) : yN c ≠ xN c := by revert c; decide +kernel
theorem yN_ne_self (c : Dev nD) : yN c ≠ c := by revert c; decide +kernel
theorem xN_ne_self (c : Dev nD) : xN c ≠ c := by revert c; decide +kernel
theorem yN_xN (c : Dev nD) : yN (xN c) = xN (yN c) := by revert c; decide +kernel

def yEquiv : Dev nD ≃ Dev nD := ⟨yN, yN, yN_yN, yN_yN⟩
def xEquiv : Dev nD ≃ Dev nD := ⟨xN, xN, xN_xN, xN_xN⟩

/-- Every device id the body computes is one of the two partners. -/
theorem dev1_eq (c : Dev nD) : (⟨k0_dev1 c, k0_dev1_lt c⟩ : Dev nD) = yN c := rfl
theorem dev2_eq (c : Dev nD) : (⟨k0_dev2 c, k0_dev2_lt c⟩ : Dev nD) = xN c := rfl
theorem dev3_eq (c : Dev nD) : (⟨k0_dev3 c, k0_dev3_lt c⟩ : Dev nD) = yN c := Fin.ext ((k0_dev3_eq c).trans (k0_dev1_eq c).symm)
theorem dev4_eq (c : Dev nD) : (⟨k0_dev4 c, k0_dev4_lt c⟩ : Dev nD) = yN c := Fin.ext ((k0_dev4_eq c).trans (k0_dev1_eq c).symm)
theorem dev5_eq (c : Dev nD) : (⟨k0_dev5 c, k0_dev5_lt c⟩ : Dev nD) = yN c := Fin.ext ((k0_dev5_eq c).trans (k0_dev1_eq c).symm)
theorem dev6_eq (c : Dev nD) : (⟨k0_dev6 c, k0_dev6_lt c⟩ : Dev nD) = yN c := Fin.ext ((k0_dev6_eq c).trans (k0_dev1_eq c).symm)
theorem dev7_eq (c : Dev nD) : (⟨k0_dev7 c, k0_dev7_lt c⟩ : Dev nD) = yN c := Fin.ext ((k0_dev7_eq c).trans (k0_dev1_eq c).symm)
theorem dev8_eq (c : Dev nD) : (⟨k0_dev8 c, k0_dev8_lt c⟩ : Dev nD) = yN c := Fin.ext ((k0_dev8_eq c).trans (k0_dev1_eq c).symm)
theorem dev9_eq (c : Dev nD) : (⟨k0_dev9 c, k0_dev9_lt c⟩ : Dev nD) = xN c := Fin.ext ((k0_dev9_eq c).trans (k0_dev2_eq c).symm)
theorem dev10_eq (c : Dev nD) : (⟨k0_dev10 c, k0_dev10_lt c⟩ : Dev nD) = xN c := Fin.ext ((k0_dev10_eq c).trans (k0_dev2_eq c).symm)
theorem dev11_eq (c : Dev nD) : (⟨k0_dev11 c, k0_dev11_lt c⟩ : Dev nD) = xN c := Fin.ext ((k0_dev11_eq c).trans (k0_dev2_eq c).symm)
theorem dev12_eq (c : Dev nD) : (⟨k0_dev12 c, k0_dev12_lt c⟩ : Dev nD) = xN c := Fin.ext ((k0_dev12_eq c).trans (k0_dev2_eq c).symm)
theorem dev13_eq (c : Dev nD) : (⟨k0_dev13 c, k0_dev13_lt c⟩ : Dev nD) = xN c := Fin.ext ((k0_dev13_eq c).trans (k0_dev2_eq c).symm)

/-- The device's coordinate on mesh axis y: which block of the gathered array it holds. -/
def yC (c : Dev nD) : ℕ := (c.val / 2) % 2
/-- The parity of x + z: which outer slab of the partner's block the device receives directly. -/
def sP (c : Dev nD) : ℕ := (c.val / 4 + c.val % 2) % 2

theorem yC_lt (c : Dev nD) : yC c < 2 := Nat.mod_lt _ (by decide)
theorem sP_lt (c : Dev nD) : sP c < 2 := Nat.mod_lt _ (by decide)
theorem yC_yN (c : Dev nD) : yC (yN c) = 1 - yC c := by revert c; decide +kernel
theorem sP_yN (c : Dev nD) : sP (yN c) = sP c := by revert c; decide +kernel
theorem yC_xN (c : Dev nD) : yC (xN c) = yC c := by revert c; decide +kernel
theorem sP_xN (c : Dev nD) : sP (xN c) = 1 - sP c := by revert c; decide +kernel

/-- The row offsets the body computes, in closed form over the two coordinates. -/
theorem off1_eq (c : Dev nD) : k0_off1 c = ![352 * sP c, 0] := by revert c; decide +kernel
theorem off2_eq (c : Dev nD) : k0_off2 c = ![352 * (1 - sP c), 0] := by revert c; decide +kernel
theorem off3_eq (c : Dev nD) : k0_off3 c = ![512 * yC c, 0] := k0_off3_eq c
theorem off4_eq (c : Dev nD) (r : Fin 5) : k0_off4 c (BitVec.ofNat 32 (32 * r.val)) = ![352 * sP c + 32 * r.val, 0] := by
  revert c r; decide +kernel
theorem off5_eq (c : Dev nD) : k0_off5 c = ![512 * yC c + 160, 0] := k0_off5_eq c
theorem off6_eq (c : Dev nD) (r : Fin 5) :
    k0_off6 c (BitVec.ofNat 32 (32 * r.val)) = ![512 * (1 - yC c) + 352 * sP c + 32 * r.val, 0] := by
  revert c r; decide +kernel
theorem off7_eq (c : Dev nD) : k0_off7 c = ![512 * (1 - yC c) + 352 * sP c, 0] := by revert c; decide +kernel
theorem off8_eq (c : Dev nD) : k0_off8 c = ![512 * (1 - yC c) + 160, 0] := by revert c; decide +kernel
theorem off9_eq (c : Dev nD) (r : Fin 5) :
    k0_off9 c (BitVec.ofNat 32 (32 * r.val)) = ![512 * (1 - yC c) + 352 * (1 - sP c) + 32 * r.val, 0] := by
  revert c r; decide +kernel

end Cert.Kernel.AG
-- ==== Proof.KB.Sched.lean ====
/-
  The protocol of the all-gather, as a schedule of semaphore rounds.

  Every device c owns one barrier cell and twenty-four transfer cells. Its barrier cell is paid one unit by each of
  its two partners at their entry; the partner across y hands over, with its unit, its receive scratch and the slab of
  its result array that c's direct transfer fills, the partner across x the slab of its result array that c's
  forwarded pieces fill. Each transfer pays two cells: the sender's send cell gives the source back, the receiver's
  receive cell hands the destination over, holding what the source held. All contents are named from the launch memory:
  the staging scratch holds the device's block of x entry by entry converted to bf16, the receive scratch rows
  [352 s, 352 s + 160) of the y-partner's staging scratch, and the result array both blocks in gathered order.
-/
import proofs.«900668_g7700000000000669_dist_ag_v7x_xyz2x2x2_y_m512_n512_bf16_1_alg».proof.Proof.KB.Mesh
import proofs.«900668_g7700000000000669_dist_ag_v7x_xyz2x2x2_y_m512_n512_bf16_1_alg».proof.Proof.Gen.Kernel.Skeleton
import proofs.«900668_g7700000000000669_dist_ag_v7x_xyz2x2x2_y_m512_n512_bf16_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

/-! ## The resource algebra: the pipeline's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs -/

abbrev xM : Memref sig .tc .vmem S512x512 .f32 := Memref.whole cc0_stg0_0
abbrev oM : Memref sig .tc .hbm S1024x512 .bf16 := Memref.whole main_v1
abbrev vS : Memref sig .tc .vmem S512x512 .bf16 := Memref.whole cc0_scratch0
abbrev vR : Memref sig .tc .vmem S160x512 .bf16 := Memref.whole cc0_scratch1

abbrev xL (c : Dev nD) : Loc nD τ sig := (c : Thread nD τ).loc cc0_stg0_0
abbrev oL (c : Dev nD) : Loc nD τ sig := (c : Thread nD τ).loc main_v1
abbrev sL (c : Dev nD) : Loc nD τ sig := (c : Thread nD τ).loc cc0_scratch0
abbrev rL (c : Dev nD) : Loc nD τ sig := (c : Thread nD τ).loc cc0_scratch1

/-! ## Row slabs: rows [r, r + n), every column -/

abbrev oSlab (r n : ℕ) (h : r + n ≤ 1024) : Rect S1024x512 := Rect.unit (s := S1024x512) ![r, 0] ![n, 512] (Rect.inb₂ h (show (0 : ℕ) + 512 ≤ 512 from Nat.le_refl _))
abbrev sSlab (r n : ℕ) (h : r + n ≤ 512) : Rect S512x512 := Rect.unit (s := S512x512) ![r, 0] ![n, 512] (Rect.inb₂ h (show (0 : ℕ) + 512 ≤ 512 from Nat.le_refl _))
abbrev rSlab (r n : ℕ) (h : r + n ≤ 160) : Rect S160x512 := Rect.unit (s := S160x512) ![r, 0] ![n, 512] (Rect.inb₂ h (show (0 : ℕ) + 512 ≤ 512 from Nat.le_refl _))

/-- Row offsets of the pieces, in closed form over the device's two coordinates. -/
abbrev fwd (c : Dev nD) : ℕ := 352 * sP c
abbrev rfw (c : Dev nD) : ℕ := 352 * (1 - sP c)
abbrev mine (c : Dev nD) : ℕ := 512 * yC c
abbrev other (c : Dev nD) : ℕ := 512 * (1 - yC c)

theorem fwd_le (c : Dev nD) : fwd c ≤ 352 := by have := sP_lt c; unfold fwd; omega
theorem rfw_le (c : Dev nD) : rfw c ≤ 352 := by unfold rfw; omega
theorem mine_le (c : Dev nD) : mine c ≤ 512 := by have := yC_lt c; unfold mine; omega
theorem other_le (c : Dev nD) : other c ≤ 512 := by unfold other; omega

/-! ## Contents, named from the launch memory -/

/-- The device's block of x as the pipeline stages it. -/
def xstg (c : Dev nD) : (cc0_stg0_0 : Ref sig .tc).ty.Contents (Elt F) :=
  (win0_0.blk (0 : Fin 1)).view.read (Elt F) (m ((c : Thread nD τ).loc main_arg0))

/-- The staging scratch after the three stores: the block, every entry converted to bf16. -/
def stgC (c : Dev nD) : Buf (Elt F) (sL c) :=
  (truncf .bf16 (xstg m c : FVec F S512x512 .f32) bitsLt_bf16_f32 : FVec F S512x512 .bf16)

/-- The receive scratch once the y-partner's five transfers have landed: its rows [fwd, fwd + 160). -/
def recvC (c : Dev nD) : Buf (Elt F) (rL c) :=
  fun i => stgC m (yN c) (ix2 (⟨fwd c + ((i : S160x512.Idx) 0).val, by have := fwd_le c; have := idx2_lt0 (i : S160x512.Idx); omega⟩ : Fin 512) ((i : S160x512.Idx) 1))

/-- The result array at the end: the device's own block in its place; of the other block, the slab the x-partner
    forwarded holds what that partner's y-partner staged, the rest what the device's own y-partner staged. (All devices with one
    y coordinate hold the same block of x, so under the claim's layout hypothesis the two partners' staging scratches agree.) -/
def outC (c : Dev nD) : Buf (Elt F) (oL c) :=
  fun i =>
    let r : Fin 512 := ⟨((i : S1024x512.Idx) 0).val % 512, Nat.mod_lt _ (by decide)⟩
    if ((i : S1024x512.Idx) 0).val / 512 = yC c then stgC m c (ix2 r ((i : S1024x512.Idx) 1))
    else if rfw c ≤ r.val ∧ r.val < rfw c + 160 then stgC m (yN (xN c)) (ix2 r ((i : S1024x512.Idx) 1))
    else stgC m (yN c) (ix2 r ((i : S1024x512.Idx) 1))

/-! ## The cells -/

/-- The runtime's barrier semaphore of collective id 0. -/
abbrev barS : Sem sig := (SemArray.scalar (sig.barrier 0 rfl) : Sems sig S_).sem

/-- The protocol's semaphores on a device, by number: 0 the barrier; k ≥ 1 the DMA semaphore k — 1..5 the first hop's
    send side, 6..10 its receive side, 11 and 12 the direct slab's, 13..17 the second hop's send side, 18..22 its
    receive side, 23 and 24 the two local copies'. (DMA semaphore 0 is the pipeline's own.) -/
def csem : Fin 25 → SemLoc sig
  | ⟨0, _⟩ => .reg barS
  | ⟨k + 1, h⟩ => .dma (⟨k + 1, h⟩ : Fin 25)

/-- The number of a protocol semaphore. -/
def semIx : SemLoc sig → Option (Fin 25)
  | .reg _ => some 0
  | .dma q => if (q : Fin 25).val = 0 then none else some q

theorem semIx_csem (k : Fin 25) : semIx (csem k) = some k := by revert k; decide
theorem csem_injective : Function.Injective csem := fun a b h => by
  have := congrArg semIx h; rw [semIx_csem, semIx_csem] at this; exact Option.some.inj this

abbrev kcell (ck : Dev nD × Fin 25) : GSem nD τ sig := ((ck.1 : Thread nD τ), csem ck.2)
abbrev barCell (c : Dev nD) : GSem nD τ sig := kcell (c, 0)

/-- Cell numbers by role. -/
abbrev kYS (j : Fin 5) : Fin 25 := ⟨j.val + 1, by omega⟩
abbrev kYR (j : Fin 5) : Fin 25 := ⟨j.val + 6, by omega⟩
abbrev kOS : Fin 25 := 11
abbrev kOR : Fin 25 := 12
abbrev kFS (j : Fin 5) : Fin 25 := ⟨j.val + 13, by omega⟩
abbrev kFR (j : Fin 5) : Fin 25 := ⟨j.val + 18, by omega⟩
abbrev kOwn : Fin 25 := 23
abbrev kStg : Fin 25 := 24

/-! ## Amounts: a transfer credits the tile count of what it moves -/

abbrev N32 : ℕ := tileCredit S32x512 .bf16
abbrev N160 : ℕ := tileCredit S160x512 .bf16
abbrev N192 : ℕ := tileCredit S192x512 .bf16
abbrev N512 : ℕ := tileCredit S512x512 .bf16

def amt (k : Fin 25) : ℕ :=
  if k.val = 0 then 1 else if k.val = 11 ∨ k.val = 12 then N192 else if k.val = 23 then N512 else if k.val = 24 then N160 else N32

theorem amt_pos (k : Fin 25) : 0 < amt k := by
  unfold amt; split_ifs <;> first | exact Nat.one_pos | exact tileCredit_pos _ _ (by decide)

/-! ## The pieces of buffer that change hands

  Sources are held at half shares: the staging scratch is read by the copy into the device's own block (left half, whole
  buffer) while its slabs are read by the transfers to the y-partner (right half); the receive scratch's slabs are each
  read by a forwarding transfer (right half) and, all together, by the local copy into the result (left half). -/

abbrev qL : PosShare TreeShare := fullShare.left
abbrev qR : PosShare TreeShare := fullShare.right

/-- Rows of the receive scratch that transfer j fills. -/
abbrev rJ (j : Fin 5) : Rect S160x512 := rSlab (32 * j.val) 32 (by omega)
/-- Rows of the staging scratch that transfer j to the y-partner reads. -/
abbrev sJ (c : Dev nD) (j : Fin 5) : Rect S512x512 := sSlab (fwd c + 32 * j.val) 32 (by have := fwd_le c; omega)
/-- Rows of the staging scratch that travel directly. -/
abbrev sO : Rect S512x512 := sSlab 160 192 (by omega)
/-- The slabs of a device's result array: its own block; the direct slab of the other block; the slab it receives
    through its receive scratch; the slab its x-partner forwards, and that slab's five pieces. -/
abbrev oOwn (c : Dev nD) : Rect S1024x512 := oSlab (mine c) 512 (by have := mine_le c; omega)
abbrev oDir (c : Dev nD) : Rect S1024x512 := oSlab (other c + 160) 192 (by have := other_le c; omega)
abbrev oStg (c : Dev nD) : Rect S1024x512 := oSlab (other c + fwd c) 160 (by have := other_le c; have := fwd_le c; omega)
abbrev oFwd (c : Dev nD) : Rect S1024x512 := oSlab (other c + rfw c) 160 (by have := other_le c; have := rfw_le c; omega)
abbrev oFJ (c : Dev nD) (j : Fin 5) : Rect S1024x512 := oSlab (other c + rfw c + 32 * j.val) 32 (by have := other_le c; have := rfw_le c; omega)

/-! ## Payloads -/

/-- With the y-partner's unit: its receive scratch, whatever it holds, and the direct slab of its result array. -/
def barPayY (c : Dev nD) : sProp 𝕄 :=
  iprop((∃ f, rL (yN c) ↦{fullShare} f) ∗ (∃ f, oL (yN c) ↦[(oDir (yN c)).set]{fullShare} f))
/-- With the x-partner's unit: the slab of its result array that this device's forwarded pieces fill. -/
def barPayX (c : Dev nD) : sProp 𝕄 := iprop(∃ f, oL (xN c) ↦[(oFwd (xN c)).set]{fullShare} f)

def pay (c : Dev nD) (k : Fin 25) (d : Bool) : sProp 𝕄 :=
  if k.val = 0 then (if d then barPayX c else barPayY c)
  else if h : 1 ≤ k.val ∧ k.val ≤ 5 then sL c ↦[(sJ c ⟨k.val - 1, by omega⟩).set]{qR} stgC m c
  else if h : 6 ≤ k.val ∧ k.val ≤ 10 then rL c ↦[(rJ ⟨k.val - 6, by omega⟩).set]{fullShare} recvC m c
  else if k.val = 11 then sL c ↦[sO.set]{qR} stgC m c
  else if k.val = 12 then oL c ↦[(oDir c).set]{fullShare} outC m c
  else if h : 13 ≤ k.val ∧ k.val ≤ 17 then rL c ↦[(rJ ⟨k.val - 13, by omega⟩).set]{qR} recvC m c
  else if h : 18 ≤ k.val ∧ k.val ≤ 22 then oL c ↦[(oFJ c ⟨k.val - 18, by omega⟩).set]{fullShare} outC m c
  else if k.val = 23 then iprop((oL c ↦[(oOwn c).set]{fullShare} outC m c) ∗ (sL c ↦{qL} stgC m c))
  else iprop((oL c ↦[(oStg c).set]{fullShare} outC m c) ∗ (rL c ↦{qL} recvC m c))

/-! ## The schedule: one round -/

def agRd : Rounds.Schedule (GSem nD τ sig) Bool 𝕄 where
  duties g r := if r = 0 ∧ g.1.2 = .tc then (semIx g.2).elim ∅ (fun k => if k.val = 0 then Finset.univ else {false}) else ∅
  amount g _ _ := (semIx g.2).elim 1 amt
  payload g _ d := (semIx g.2).elim iprop(emp) (fun k => pay m g.1.1 k d)
  amount_pos g _ _ _ := by
    cases semIx g.2 with
    | none => exact Nat.one_pos
    | some k => exact amt_pos k

instance agRd_payload_storable (g : GSem nD τ sig) (r : ℕ) (d : Bool) :
    BI.Storable (upEmb : UEmb _ 𝕄) ((agRd (F := F) m).payload g r d) := by
  show BI.Storable upEmb ((semIx g.2).elim iprop(emp) (fun k => pay m g.1.1 k d))
  cases semIx g.2 with
  | none => exact (inferInstance : BI.Storable upEmb (iprop(emp) : sProp 𝕄))
  | some k =>
    show BI.Storable upEmb (pay m g.1.1 k d)
    unfold pay barPayX barPayY
    (repeat' split) <;> infer_instance

section Tables
variable (c : Dev nD)

theorem duties_cell (k : Fin 25) :
    (agRd (F := F) m).duties (kcell (c, k)) 0 = if k.val = 0 then Finset.univ else {false} := by
  show (if (0 : ℕ) = 0 ∧ ((c : Thread nD τ)).2 = .tc then (semIx (csem k)).elim ∅ (fun k => if k.val = 0 then Finset.univ else {false}) else ∅) = _
  rw [if_pos ⟨rfl, rfl⟩, semIx_csem]; rfl
theorem duties_bar : (agRd (F := F) m).duties (barCell c) 0 = Finset.univ := by rw [duties_cell]; rfl
theorem duties_xfer (k : Fin 25) (hk : k.val ≠ 0) : (agRd (F := F) m).duties (kcell (c, k)) 0 = {false} := by
  rw [duties_cell, if_neg hk]
theorem duties_later (g : GSem nD τ sig) : ∀ r, 1 ≤ r → (agRd (F := F) m).duties g r = ∅ :=
  fun r hr => by dsimp only [agRd]; rw [if_neg fun h => by omega]
theorem amount_cell (k : Fin 25) (d : Bool) : (agRd (F := F) m).amount (kcell (c, k)) 0 d = amt k := by
  show (semIx (csem k)).elim 1 amt = _; rw [semIx_csem]; rfl
theorem payload_cell (k : Fin 25) (d : Bool) : (agRd (F := F) m).payload (kcell (c, k)) 0 d = pay m c k d := by
  show (semIx (csem k)).elim iprop(emp) (fun k => pay m c k d) = _; rw [semIx_csem]; rfl

theorem expect_bar : (agRd (F := F) m).expect (barCell c) 0 = 2 := by
  unfold Schedule.expect Schedule.amountOf
  rw [duties_bar, Finset.sum_congr rfl fun d _ => amount_cell m c 0 d, Finset.sum_const, Finset.card_univ, Fintype.card_bool, smul_eq_mul]; rfl
theorem expect_xfer (k : Fin 25) (hk : k.val ≠ 0) : (agRd (F := F) m).expect (kcell (c, k)) 0 = amt k := by
  unfold Schedule.expect Schedule.amountOf; rw [duties_xfer m c k hk, Finset.sum_singleton, amount_cell]

theorem pay_bar_false : pay m c 0 false = barPayY c := rfl
theorem pay_bar_true : pay m c 0 true = barPayX c := rfl
theorem pay_YS (j : Fin 5) (d : Bool) : pay m c (kYS j) d = (sL c ↦[(sJ c j).set]{qR} stgC m c : sProp 𝕄) := by fin_cases j <;> rfl
theorem pay_YR (j : Fin 5) (d : Bool) : pay m c (kYR j) d = (rL c ↦[(rJ j).set]{fullShare} recvC m c : sProp 𝕄) := by fin_cases j <;> rfl
theorem pay_OS (d : Bool) : pay m c kOS d = (sL c ↦[sO.set]{qR} stgC m c : sProp 𝕄) := rfl
theorem pay_OR (d : Bool) : pay m c kOR d = (oL c ↦[(oDir c).set]{fullShare} outC m c : sProp 𝕄) := rfl
theorem pay_FS (j : Fin 5) (d : Bool) : pay m c (kFS j) d = (rL c ↦[(rJ j).set]{qR} recvC m c : sProp 𝕄) := by fin_cases j <;> rfl
theorem pay_FR (j : Fin 5) (d : Bool) : pay m c (kFR j) d = (oL c ↦[(oFJ c j).set]{fullShare} outC m c : sProp 𝕄) := by fin_cases j <;> rfl
theorem pay_Own (d : Bool) : pay m c kOwn d = (iprop((oL c ↦[(oOwn c).set]{fullShare} outC m c) ∗ (sL c ↦{qL} stgC m c)) : sProp 𝕄) := rfl
theorem pay_Stg (d : Bool) : pay m c kStg d = (iprop((oL c ↦[(oStg c).set]{fullShare} outC m c) ∗ (rL c ↦{qL} recvC m c)) : sProp 𝕄) := rfl

/-- The rest of the barrier cell's round, no duty taken: both partners' payloads. -/
theorem rest_bar : bigSep ((agRd (F := F) m).duties (barCell c) 0 \ ∅) (fun d => (agRd (F := F) m).payload (barCell c) 0 d)
    = iprop(barPayY c ∗ barPayX c) := by
  rw [Finset.sdiff_empty, duties_bar, bigSep_univ_eq_bigSepL [false, true] (by decide) (by decide), bigSepL_cons_cons, bigSepL_singleton,
    payload_cell, payload_cell]
  rfl
/-- The rest of a transfer cell's round: its one payload. -/
theorem rest_xfer (k : Fin 25) (hk : k.val ≠ 0) :
    bigSep ((agRd (F := F) m).duties (kcell (c, k)) 0 \ ∅) (fun d => (agRd (F := F) m).payload (kcell (c, k)) 0 d) = pay m c k false := by
  rw [Finset.sdiff_empty, duties_xfer m c k hk, bigSep_singleton, payload_cell]

end Tables

/-! ## What a device owes, payment by payment

  In program order a device pays: its unit to the y-partner's barrier, its unit to the x-partner's barrier, the five
  first-hop transfers, the direct slab, the five forwarded pieces. What it still owes is a sum whose last summand is
  the next payment. -/

section Owed
variable (c : Dev nD)

abbrev tFR (j : Fin 5) : CellTallies nD τ sig Unit := tallyAt (kcell (xN c, kFR j)) () N32
abbrev tYR (j : Fin 5) : CellTallies nD τ sig Unit := tallyAt (kcell (yN c, kYR j)) () N32

def OF5 : CellTallies nD τ sig Unit := 0
def OF4 : CellTallies nD τ sig Unit := OF5 + tFR c 4
def OF3 : CellTallies nD τ sig Unit := OF4 c + tFR c 3
def OF2 : CellTallies nD τ sig Unit := OF3 c + tFR c 2
def OF1 : CellTallies nD τ sig Unit := OF2 c + tFR c 1
def OF0 : CellTallies nD τ sig Unit := OF1 c + tFR c 0
def OO : CellTallies nD τ sig Unit := OF0 c + tallyAt (kcell (yN c, kOR)) () N192
def OY4 : CellTallies nD τ sig Unit := OO c + tYR c 4
def OY3 : CellTallies nD τ sig Unit := OY4 c + tYR c 3
def OY2 : CellTallies nD τ sig Unit := OY3 c + tYR c 2
def OY1 : CellTallies nD τ sig Unit := OY2 c + tYR c 1
def OY0 : CellTallies nD τ sig Unit := OY1 c + tYR c 0
def OX : CellTallies nD τ sig Unit := OY0 c + tallyAt (barCell (xN c)) () 1
/-- Everything, at launch. -/
def O₀ : CellTallies nD τ sig Unit := OX c + tallyAt (barCell (yN c)) () 1

/-- What is owed while waiting for first-hop piece j: the forwarded pieces j, …, 4. -/
def OFfrom : Fin 5 → CellTallies nD τ sig Unit
  | 0 => OF0 c | 1 => OF1 c | 2 => OF2 c | 3 => OF3 c | 4 => OF4 c

end Owed

/-! ## Levels: a device waits only on a cell below everything it still owes

  Staging, send and local-copy cells at 0 (waited owing anything or nothing); a barrier cell at 1 (waited owing transfers);
  first-hop receive cells and the direct slab's at 2 (waited owing forwarded pieces only); second-hop receive cells at 3. -/

def L (g : GSem nD τ sig) : Finset Unit := if g.1.2 = .tc then {()} else ∅
def lvK (k : Fin 25) : ℕ :=
  if k.val = 0 then 1 else if (6 ≤ k.val ∧ k.val ≤ 10) ∨ k.val = 12 then 2 else if 18 ≤ k.val ∧ k.val ≤ 22 then 3 else 0
def lv (g : GSem nD τ sig) (_ : Unit) : ℕ := (semIx g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 25) (u : Unit) : lv (kcell (c, k)) u = lvK k := by
  show (semIx (csem k)).elim 0 lvK = _; rw [semIx_csem]; rfl

end Cert.Kernel.AG

end
-- ==== Proof.KB.Data.lean ====
/-
  What each device starts its kernel body from and ends it with: the ghost state of the protocol (every cell's invariant
  and first round, the device's positions on its own cells, the tokens of the duties it pays), the credit its partners owe
  its cells, and its buffers — the result array and the two scratches whole.
-/
import proofs.«900668_g7700000000000669_dist_ag_v7x_xyz2x2x2_y_m512_n512_bf16_1_alg».proof.Proof.KB.Sched

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's own (scoped) semaphores as the launch indexes them: the DMA semaphores 1, …, 24. -/
abbrev osem (i : Fin 24) : SemLoc sig := .dma (⟨i.val + 1, by omega⟩ : Fin 25)
theorem osem_eq (i : Fin 24) : osem i = csem ⟨i.val + 1, by omega⟩ := by revert i; decide

/-- Every cell's invariant, at the names the launch allocated them, and that every cell's round 0 is reached. -/
def records (K : Dev nD × Fin 25 → ℕ) : sProp 𝕄 :=
  iprop((bigSep Finset.univ fun ck : Dev nD × Fin 25 => cellInv ER (agRd m) (K ck) (kcell ck))
    ∗ bigSep Finset.univ fun ck : Dev nD × Fin 25 => reached ER (kcell ck) 0)

instance records_persistent (K : Dev nD × Fin 25 → ℕ) : BI.Persistent (records m K) := by unfold records; infer_instance

theorem inv_at' (K : Dev nD × Fin 25 → ℕ) (ck : Dev nD × Fin 25) :
    (bigSep Finset.univ fun ck : Dev nD × Fin 25 => (cellInv ER (agRd m) (K ck) (kcell ck) : sProp 𝕄)) ⊢ cellInv ER (agRd m) (K ck) (kcell ck) :=
  bigSep_elim (Finset.mem_univ ck)
theorem reached_at' (ck : Dev nD × Fin 25) :
    (bigSep Finset.univ fun ck : Dev nD × Fin 25 => (reached ER (kcell ck) 0 : sProp 𝕄)) ⊢ reached ER (kcell ck) 0 :=
  bigSep_elim (Finset.mem_univ ck)
theorem inv_at (K : Dev nD × Fin 25 → ℕ) (ck : Dev nD × Fin 25) : records m K ⊢ cellInv ER (agRd m) (K ck) (kcell ck) := by
  unfold records; iintro ⟨HI, -⟩; iapply (inv_at' m K ck); iexact HI
theorem reached_at (K : Dev nD × Fin 25 → ℕ) (ck : Dev nD × Fin 25) : records m K ⊢ reached ER (kcell ck) 0 := by
  unfold records; iintro ⟨-, HR⟩; iapply (reached_at' (F := F) ck); iexact HR

/-- The device's positions: round 0 of each of its own cells, nothing taken. -/
def posAll (c : Dev nD) : sProp 𝕄 := bigSep Finset.univ fun k : Fin 25 => atPos ER (kcell (c, k)) 0 ∅ 0

/-- The tokens of the duties the device pays: a unit on each partner's barrier cell, the receive side of each transfer it
    sends, and the send side (its own cell) of each transfer and local copy it issues. -/
def payToks (c : Dev nD) : sProp 𝕄 :=
  iprop(dutyTok ER (barCell (yN c)) 0 false ∗ dutyTok ER (barCell (xN c)) 0 true
    ∗ (bigSep Finset.univ fun j : Fin 5 => dutyTok ER (kcell (yN c, kYR j)) 0 false)
    ∗ dutyTok ER (kcell (yN c, kOR)) 0 false
    ∗ (bigSep Finset.univ fun j : Fin 5 => dutyTok ER (kcell (xN c, kFR j)) 0 false)
    ∗ (bigSep Finset.univ fun j : Fin 5 => dutyTok ER (kcell (c, kYS j)) 0 false)
    ∗ dutyTok ER (kcell (c, kOS)) 0 false
    ∗ (bigSep Finset.univ fun j : Fin 5 => dutyTok ER (kcell (c, kFS j)) 0 false)
    ∗ dutyTok ER (kcell (c, kOwn)) 0 false ∗ dutyTok ER (kcell (c, kStg)) 0 false)

def ghost (K : Dev nD × Fin 25 → ℕ) (c : Dev nD) : sProp 𝕄 := iprop(records m K ∗ posAll c ∗ payToks c)

/-- The credit dealt at launch for the units the partners owe the device's cells. -/
def creds (c : Dev nD) : sProp 𝕄 :=
  iprop(cred (tallyAt (barCell c) () 2)
    ∗ (bigSep Finset.univ fun j : Fin 5 => cred (tallyAt (kcell (c, kYR j)) () N32))
    ∗ cred (tallyAt (kcell (c, kOR)) () N192)
    ∗ (bigSep Finset.univ fun j : Fin 5 => cred (tallyAt (kcell (c, kFR j)) () N32)))

/-- What the device's body starts from besides its scratches: ghost state, credit, the level facts, its result array. -/
def start (c : Dev nD) : sProp 𝕄 :=
  iprop((∃ K, ghost m K c) ∗ creds c ∗ levAts L lv ∗ (oL c ↦{fullShare} m (oL c)))

def Φ₀ (c : Dev nD) : sProp 𝕄 := iprop(start m c ∗ (∃ f, sL c ↦{fullShare} f) ∗ (∃ f, rL c ↦{fullShare} f))
/-- After the point: the result array holding both blocks, the scratches whole again, the own semaphores at zero. -/
def Φ₁ (c : Dev nD) : sProp 𝕄 :=
  iprop((oL c ↦{fullShare} outC m c) ∗ ((∃ f, sL c ↦{fullShare} f) ∗ (∃ f, rL c ↦{fullShare} f))
    ∗ bigSep Finset.univ fun i : Fin 24 => semVal (((c : Thread nD τ), osem i) : GSem nD τ sig) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem share_eq (c : Dev nD) (w : Fin cfg0.W) : (dats m 0 c).share w = fullShare := by unfold Dat.share; split <;> rfl

end Cert.Kernel.AG

end
-- ==== Proof.KB.Levels.lean ====
/-
  The deadlock argument's arithmetic: at each of its waits a device owes only cells of a level above the cell it
  waits on. Everything a device owes is a receive-side cell of a partner: the partners' barrier cells (level 1), the
  y-partner's first-hop and direct-slab receive cells (level 2), the x-partner's second-hop receive cells (level 3).
  It waits on its barrier owing levels 2 and 3, on a first-hop receive cell owing level 3 only, and on a level-0 cell
  (staging, send side, local copies) owing anything.
-/
import proofs.«900668_g7700000000000669_dist_ag_v7x_xyz2x2x2_y_m512_n512_bf16_1_alg».proof.Proof.KB.Sched

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## Where tallies are positive -/

/-- Every cell at which the tallies are positive is a protocol cell of level at least `b`. -/
def Above (b : ℕ) (O : CellTallies nD τ sig Unit) : Prop :=
  ∀ (g : GSem nD τ sig) (u : Unit), 0 < O g u → ∃ (d : Dev nD) (k : Fin 25), g = kcell (d, k) ∧ b ≤ lvK k

theorem above_zero (b : ℕ) : Above b (0 : CellTallies nD τ sig Unit) := fun g u h => by
  rw [Pi.zero_apply, Finsupp.zero_apply] at h; exact absurd h (Nat.lt_irrefl 0)

theorem above_add {b : ℕ} {O : CellTallies nD τ sig Unit} (hO : Above b O) (d : Dev nD) (k : Fin 25) (n : ℕ) (hk : b ≤ lvK k) :
    Above b (O + tallyAt (kcell (d, k)) () n) := fun g u h => by
  rcases Pipeline.add_pos_cases h with h | h
  · exact hO g u h
  · exact ⟨d, k, (Pipeline.tallyAt_pos h).1, hk⟩

theorem above_mono {a b : ℕ} (hab : a ≤ b) {O : CellTallies nD τ sig Unit} (hO : Above b O) : Above a O := fun g u h => by
  obtain ⟨d, k, hg, hk⟩ := hO g u h; exact ⟨d, k, hg, Nat.le_trans hab hk⟩

section Owed
variable (c : Dev nD)

/-- The forwarded pieces are owed to second-hop receive cells, level 3. -/
theorem above_OF5 : Above 3 OF5 := above_zero 3
theorem above_OF4 : Above 3 (OF4 c) := above_add above_OF5 _ _ _ (by decide)
theorem above_OF3 : Above 3 (OF3 c) := above_add (above_OF4 c) _ _ _ (by decide)
theorem above_OF2 : Above 3 (OF2 c) := above_add (above_OF3 c) _ _ _ (by decide)
theorem above_OF1 : Above 3 (OF1 c) := above_add (above_OF2 c) _ _ _ (by decide)
theorem above_OF0 : Above 3 (OF0 c) := above_add (above_OF1 c) _ _ _ (by decide)
theorem above_OFfrom (j : Fin 5) : Above 3 (OFfrom c j) := by
  fin_cases j
  · exact above_OF0 c
  · exact above_OF1 c
  · exact above_OF2 c
  · exact above_OF3 c
  · exact above_OF4 c

/-- The direct slab and the first-hop pieces are owed to level-2 cells. -/
theorem above_OO : Above 2 (OO c) := above_add (above_mono (by decide) (above_OF0 c)) _ _ _ (by decide)
theorem above_OY4 : Above 2 (OY4 c) := above_add (above_OO c) _ _ _ (by decide)
theorem above_OY3 : Above 2 (OY3 c) := above_add (above_OY4 c) _ _ _ (by decide)
theorem above_OY2 : Above 2 (OY2 c) := above_add (above_OY3 c) _ _ _ (by decide)
theorem above_OY1 : Above 2 (OY1 c) := above_add (above_OY2 c) _ _ _ (by decide)
theorem above_OY0 : Above 2 (OY0 c) := above_add (above_OY1 c) _ _ _ (by decide)

/-- The two barrier units are owed to level-1 cells. -/
theorem above_OX : Above 1 (OX c) := above_add (above_mono (by decide) (above_OY0 c)) _ _ _ (by decide)
theorem above_O₀ : Above 1 (O₀ c) := above_add (above_OX c) _ _ _ (by decide)

end Owed

/-! ## The waits -/

theorem csem_zero : csem 0 = SemLoc.reg barS := rfl
theorem lvK_kYR (j : Fin 5) : lvK (kYR j) = 2 := by revert j; decide

/-- From a bound on what is owed: the index is named at every owed cell, and the cell's level is above the cut. -/
theorem above_named {b : ℕ} {O : CellTallies nD τ sig Unit} (hO : Above b O) (g : GSem nD τ sig) (u : Unit) (h : 0 < O g u) : u ∈ L g := by
  obtain ⟨d, k, rfl, -⟩ := hO g u h; rw [L_tc]; exact Finset.mem_singleton_self _
theorem above_lv {b : ℕ} {O : CellTallies nD τ sig Unit} (hO : Above (b + 1) O) (g : GSem nD τ sig) (u : Unit) (h : 0 < O g u) : b < lv g u := by
  obtain ⟨d, k, rfl, hk⟩ := hO g u h; rw [lv_kcell]; exact hk

/-- At its barrier wait a device owes transfers only: receive cells of levels 2 and 3, above its barrier cell. -/
theorem mayWait_bar (c : Dev nD) : (levAts L lv : sProp 𝕄) ⊢ MayWait (c : Thread nD τ) (.reg barS) () (OY0 c) :=
  MayOwe.of_cut (L := L) (lev := lv) 1 (fun p hp => by rw [Finset.mem_singleton.mp hp, L_tc]; exact Finset.mem_singleton_self _)
    (above_named (above_OY0 c))
    (fun p hp => by
      rw [Finset.mem_singleton.mp hp]
      show lv (kcell (c, 0)) () ≤ 1
      rw [lv_kcell]; decide)
    (above_lv (above_OY0 c))

/-- Waiting for first-hop piece j a device owes forwarded pieces only: second-hop receive cells, level 3. -/
theorem mayWait_yr (c : Dev nD) (j : Fin 5) : (levAts L lv : sProp 𝕄) ⊢ MayWait (c : Thread nD τ) (csem (kYR j)) () (OFfrom c j) :=
  MayOwe.of_cut (L := L) (lev := lv) 2 (fun p hp => by rw [Finset.mem_singleton.mp hp, L_tc]; exact Finset.mem_singleton_self _)
    (above_named (above_OFfrom c j))
    (fun p hp => by
      rw [Finset.mem_singleton.mp hp]
      show lv (kcell (c, kYR j)) () ≤ 2
      rw [lv_kcell, lvK_kYR])
    (above_lv (above_OFfrom c j))

/-- A level-0 cell (staging, send side, local copies) may be waited on owing everything or nothing. -/
theorem mayWait_stage (c : Dev nD) (q : DmaSem sig) (hq : lv (((c : Thread nD τ), SemLoc.dma q) : GSem nD τ sig) () = 0)
    (O : CellTallies nD τ sig Unit) (hO : O = O₀ c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (above_named (above_O₀ c))
      (fun p hp => by rw [Finset.mem_singleton.mp hp]; exact Nat.le_of_eq hq)
      (above_lv (above_O₀ c))
  · rw [MayWait_zero]; iintro -; iempintro

/-- info: 'Cert.Kernel.AG.mayWait_bar' depends on axioms: [propext, Classical.choice, Quot.sound] -/
#guard_msgs in #print axioms mayWait_bar
/-- info: 'Cert.Kernel.AG.mayWait_yr' depends on axioms: [propext, Classical.choice, Quot.sound] -/
#guard_msgs in #print axioms mayWait_yr
/-- info: 'Cert.Kernel.AG.mayWait_stage' depends on axioms: [propext, Classical.choice, Quot.sound] -/
#guard_msgs in #print axioms mayWait_stage

end Cert.Kernel.AG

end
-- ==== Proof.KB.Launch.lean ====
/-
  The launch: from each device's body, proved at its proof data, to the run of the whole mesh. The launch element funds
  every cell's round state, the positions and the duty tokens; one global step allocates all cells' invariants (the
  barrier cell is shared by three devices, so no device can do it alone) and deals each device the tokens of the
  duties it pays; the launch credit is what the partners owe the device's receive-side cells. The result array is no
  window of the pipeline: it enters the body whole at the launch contents and leaves it whole at the gathered contents,
  which the final state is read against.
-/
import proofs.«900668_g7700000000000669_dist_ag_v7x_xyz2x2x2_y_m512_n512_bf16_1_alg».proof.Proof.KB.Data
import proofs.«900668_g7700000000000669_dist_ag_v7x_xyz2x2x2_y_m512_n512_bf16_1_alg».proof.Proof.KB.Levels

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## The cells and the tokens of the launch element -/

theorem ownSemFacts : Pipeline.OwnSemFacts cfg0.spec osem := by decide

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- The duty tokens as minted, by the cell's device: duty `false` of each of its cells, and duty `true` of its barrier cell. -/
def tokOf (cj : Dev nD × (Fin 25 ⊕ Unit)) : GSem nD τ sig × ℕ × Bool := match cj.2 with
  | .inl k => (kcell (cj.1, k), 0, false)
  | .inr _ => (barCell cj.1, 0, true)
theorem tokOf_injective : Function.Injective tokOf := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have h2 : k = k' := csem_injective (congrArg (fun x : GSem nD τ sig × ℕ × Bool => x.1.2) h)
    subst h2; rfl
  · exact absurd (show false = true from congrArg (fun x : GSem nD τ sig × ℕ × Bool => x.2.2) h) Bool.false_ne_true
  · exact absurd (show true = false from congrArg (fun x : GSem nD τ sig × ℕ × Bool => x.2.2) h) (Ne.symm Bool.false_ne_true)
  · rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 25 => dutyTok ER (kcell (c, k)) 0 false) ∗ dutyTok ER (barCell c) 0 true)

/-- What the launch element deals device `c`. -/
def G (c : Dev nD) : sProp 𝕄 :=
  iprop((bigSep Finset.univ fun k : Fin 25 => roundState ER (agRd m) (kcell (c, k)) 0)
    ∗ (bigSep Finset.univ fun k : Fin 25 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (agRd m) ringCells ringToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Enumerations -/

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- A device's twenty-five cells by role. -/
theorem split25 (Φ : Fin 25 → sProp 𝕄) :
    bigSep Finset.univ Φ ⊢ iprop(Φ 0 ∗ (bigSep Finset.univ fun j : Fin 5 => Φ (kYS j)) ∗ (bigSep Finset.univ fun j : Fin 5 => Φ (kYR j)) ∗ Φ kOS ∗ Φ kOR
      ∗ (bigSep Finset.univ fun j : Fin 5 => Φ (kFS j)) ∗ (bigSep Finset.univ fun j : Fin 5 => Φ (kFR j)) ∗ Φ kOwn ∗ Φ kStg) := by
  have e1 : (bigSep Finset.univ fun j : Fin 5 => Φ (kYS j)) = iprop(Φ 1 ∗ Φ 2 ∗ Φ 3 ∗ Φ 4 ∗ Φ 5) := bigSep_fin5 _
  have e2 : (bigSep Finset.univ fun j : Fin 5 => Φ (kYR j)) = iprop(Φ 6 ∗ Φ 7 ∗ Φ 8 ∗ Φ 9 ∗ Φ 10) := bigSep_fin5 _
  have e3 : (bigSep Finset.univ fun j : Fin 5 => Φ (kFS j)) = iprop(Φ 13 ∗ Φ 14 ∗ Φ 15 ∗ Φ 16 ∗ Φ 17) := bigSep_fin5 _
  have e4 : (bigSep Finset.univ fun j : Fin 5 => Φ (kFR j)) = iprop(Φ 18 ∗ Φ 19 ∗ Φ 20 ∗ Φ 21 ∗ Φ 22) := bigSep_fin5 _
  rw [e1, e2, e3, e4, bigSep_fin25]
  iintro ⟨H0, H1, H2, H3, H4, H5, H6, H7, H8, H9, H10, H11, H12, H13, H14, H15, H16, H17, H18, H19, H20, H21, H22, H23, H24⟩
  isplitl [H0]; · iexact H0
  isplitl [H1 H2 H3 H4 H5]
  · isplitl [H1]; · iexact H1
    isplitl [H2]; · iexact H2
    isplitl [H3]; · iexact H3
    isplitl [H4]; · iexact H4
    iexact H5
  isplitl [H6 H7 H8 H9 H10]
  · isplitl [H6]; · iexact H6
    isplitl [H7]; · iexact H7
    isplitl [H8]; · iexact H8
    isplitl [H9]; · iexact H9
    iexact H10
  isplitl [H11]; · iexact H11
  isplitl [H12]; · iexact H12
  isplitl [H13 H14 H15 H16 H17]
  · isplitl [H13]; · iexact H13
    isplitl [H14]; · iexact H14
    isplitl [H15]; · iexact H15
    isplitl [H16]; · iexact H16
    iexact H17
  isplitl [H18 H19 H20 H21 H22]
  · isplitl [H18]; · iexact H18
    isplitl [H19]; · iexact H19
    isplitl [H20]; · iexact H20
    isplitl [H21]; · iexact H21
    iexact H22
  isplitl [H23]; · iexact H23
  iexact H24

/-- Cell 0 first, then the twenty-four others. -/
theorem bigSep_fin25_succ (Φ : Fin 25 → sProp 𝕄) : bigSep Finset.univ Φ = iprop(Φ 0 ∗ bigSep Finset.univ fun i : Fin 24 => Φ i.succ) := by
  rw [Fin.univ_succ, Finset.cons_eq_insert, bigSep_insert (by simp), bigSep_map]; rfl

/-! ## The global step: every cell's invariant, and the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  have e : (Pipeline.ownSems0 (Ix := Unit) (Name := ℕ) (U := UU) (Lvl := ℕ) (Val := Elt F) (τ := τ) osem c : sProp 𝕄)
      = bigSep Finset.univ fun i : Fin 24 => semVal (kcell (c, i.succ)) 0 := rfl
  rw [unscopedSems0_eq, bigSep_fin25_succ, e]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (agRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (agRd m) (kcell (c, k)) 0)
      ⊢ (|={Set.univ}=> bigSep Finset.univ fun k : Fin 25 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's own tokens, by role. -/
def myToks (c : Dev nD) : sProp 𝕄 :=
  iprop(dutyTok ER (barCell c) 0 false ∗ dutyTok ER (barCell c) 0 true
    ∗ (bigSep Finset.univ fun j : Fin 5 => dutyTok ER (kcell (c, kYR j)) 0 false)
    ∗ dutyTok ER (kcell (c, kOR)) 0 false
    ∗ (bigSep Finset.univ fun j : Fin 5 => dutyTok ER (kcell (c, kFR j)) 0 false)
    ∗ (bigSep Finset.univ fun j : Fin 5 => dutyTok ER (kcell (c, kYS j)) 0 false)
    ∗ dutyTok ER (kcell (c, kOS)) 0 false
    ∗ (bigSep Finset.univ fun j : Fin 5 => dutyTok ER (kcell (c, kFS j)) 0 false)
    ∗ dutyTok ER (kcell (c, kOwn)) 0 false ∗ dutyTok ER (kcell (c, kStg)) 0 false)

theorem toks_split (c : Dev nD) : (toks c : sProp 𝕄) ⊢ myToks c := by
  unfold toks myToks
  iintro ⟨H, HT⟩
  ihave H' := (split25 (F := F) fun k : Fin 25 => dutyTok ER (kcell (c, k)) 0 false) $$ H
  icases H' with ⟨H0, HYS, HYR, HOS, HOR, HFS, HFR, HOwn, HStg⟩
  isplitl [H0]; · iexact H0
  isplitl [HT]; · iexact HT
  isplitl [HYR]; · iexact HYR
  isplitl [HOR]; · iexact HOR
  isplitl [HFR]; · iexact HFR
  isplitl [HYS]; · iexact HYS
  isplitl [HOS]; · iexact HOS
  isplitl [HFS]; · iexact HFS
  isplitl [HOwn]; · iexact HOwn
  iexact HStg

/-- The tokens dealt to their payers: those of a device's barrier duty `false`, of its first-hop receive cells and of its
    direct-slab receive cell to its y-partner; those of its barrier duty `true` and of its second-hop receive cells to its
    x-partner; the rest stay. -/
theorem toks_around : (bigSep Finset.univ fun c : Dev nD => (myToks c : sProp 𝕄)) ⊢ bigSep Finset.univ fun c : Dev nD => payToks c := by
  unfold myToks payToks
  simp only [bigSep_sep']
  iintro ⟨H1, H2, H3, H4, H5, H6, H7, H8, H9, H10⟩
  isplitl [H1]
  · iapply (Entails.of_eq (bigSep_univ_equiv yEquiv (fun c : Dev nD => (dutyTok ER (barCell c) 0 false : sProp 𝕄)))); iexact H1
  isplitl [H2]
  · iapply (Entails.of_eq (bigSep_univ_equiv xEquiv (fun c : Dev nD => (dutyTok ER (barCell c) 0 true : sProp 𝕄)))); iexact H2
  isplitl [H3]
  · iapply (Entails.of_eq (bigSep_univ_equiv yEquiv (fun c : Dev nD => (bigSep Finset.univ fun j : Fin 5 => dutyTok ER (kcell (c, kYR j)) 0 false : sProp 𝕄)))); iexact H3
  isplitl [H4]
  · iapply (Entails.of_eq (bigSep_univ_equiv yEquiv (fun c : Dev nD => (dutyTok ER (kcell (c, kOR)) 0 false : sProp 𝕄)))); iexact H4
  isplitl [H5]
  · iapply (Entails.of_eq (bigSep_univ_equiv xEquiv (fun c : Dev nD => (bigSep Finset.univ fun j : Fin 5 => dutyTok ER (kcell (c, kFR j)) 0 false : sProp 𝕄)))); iexact H5
  isplitl [H6]; · iexact H6
  isplitl [H7]; · iexact H7
  isplitl [H8]; · iexact H8
  isplitl [H9]; · iexact H9
  iexact H10

theorem toks_deal : (bigSep Finset.univ fun c : Dev nD => (toks c : sProp 𝕄)) ⊢ bigSep Finset.univ fun c : Dev nD => payToks c :=
  (bigSep_mono fun c _ => toks_split (F := F) c).trans (toks_around (F := F))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 25 → ℕ) (c : Dev nD) : iprop(records m K ∗ (posAll c ∗ payToks c)) ⊢ G' m c := by
  unfold G' ghost
  iintro H; iexists K; iexact H

theorem regroup :
    (bigSep Finset.univ fun c : Dev nD => iprop((bigSep Finset.univ fun k : Fin 25 => iprop(∃ κ : ℕ, cellInv ER (agRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (agRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (agRd m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (posAll c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- One summand of what the devices owe, addressed through an involution of the mesh, is one credit token of the
    addressed device. -/
theorem cred_peel (A : Dev nD → CellTallies nD τ sig Unit) (k : Fin 25) (f : Dev nD → Dev nD) (hf : ∀ c, f (f c) = c) (n : ℕ) (c : Dev nD) :
    (Pipeline.launchCred (fun d => A d + tallyAt (kcell (f d, k)) () n) c : sProp 𝕄)
      ⊢ iprop(Pipeline.launchCred A c ∗ cred (tallyAt (kcell (c, k)) () n)) := by
  rw [Pipeline.launchCred_add]
  exact sep_mono_right (Pipeline.launchCred_tallyAt (csem k) f f hf hf () n c)

/-- The launch credit of a device: two units on its barrier cell, and the tile counts of the pieces its partners send on
    its first-hop, direct-slab and second-hop receive cells. -/
theorem creds_intro (c : Dev nD) : (Pipeline.launchCred O₀ c : sProp 𝕄) ⊢ creds c := by
  have q1 : (Pipeline.launchCred O₀ c : sProp 𝕄) ⊢ iprop(Pipeline.launchCred OX c ∗ cred (tallyAt (barCell c) () 1)) := cred_peel OX 0 yN yN_yN 1 c
  have q2 : (Pipeline.launchCred OX c : sProp 𝕄) ⊢ iprop(Pipeline.launchCred OY0 c ∗ cred (tallyAt (barCell c) () 1)) := cred_peel OY0 0 xN xN_xN 1 c
  have y0 : (Pipeline.launchCred OY0 c : sProp 𝕄) ⊢ iprop(Pipeline.launchCred OY1 c ∗ cred (tallyAt (kcell (c, kYR 0)) () N32)) := cred_peel OY1 (kYR 0) yN yN_yN N32 c
  have y1 : (Pipeline.launchCred OY1 c : sProp 𝕄) ⊢ iprop(Pipeline.launchCred OY2 c ∗ cred (tallyAt (kcell (c, kYR 1)) () N32)) := cred_peel OY2 (kYR 1) yN yN_yN N32 c
  have y2 : (Pipeline.launchCred OY2 c : sProp 𝕄) ⊢ iprop(Pipeline.launchCred OY3 c ∗ cred (tallyAt (kcell (c, kYR 2)) () N32)) := cred_peel OY3 (kYR 2) yN yN_yN N32 c
  have y3 : (Pipeline.launchCred OY3 c : sProp 𝕄) ⊢ iprop(Pipeline.launchCred OY4 c ∗ cred (tallyAt (kcell (c, kYR 3)) () N32)) := cred_peel OY4 (kYR 3) yN yN_yN N32 c
  have y4 : (Pipeline.launchCred OY4 c : sProp 𝕄) ⊢ iprop(Pipeline.launchCred OO c ∗ cred (tallyAt (kcell (c, kYR 4)) () N32)) := cred_peel OO (kYR 4) yN yN_yN N32 c
  have o1 : (Pipeline.launchCred OO c : sProp 𝕄) ⊢ iprop(Pipeline.launchCred OF0 c ∗ cred (tallyAt (kcell (c, kOR)) () N192)) := cred_peel OF0 kOR yN yN_yN N192 c
  have f0 : (Pipeline.launchCred OF0 c : sProp 𝕄) ⊢ iprop(Pipeline.launchCred OF1 c ∗ cred (tallyAt (kcell (c, kFR 0)) () N32)) := cred_peel OF1 (kFR 0) xN xN_xN N32 c
  have f1 : (Pipeline.launchCred OF1 c : sProp 𝕄) ⊢ iprop(Pipeline.launchCred OF2 c ∗ cred (tallyAt (kcell (c, kFR 1)) () N32)) := cred_peel OF2 (kFR 1) xN xN_xN N32 c
  have f2 : (Pipeline.launchCred OF2 c : sProp 𝕄) ⊢ iprop(Pipeline.launchCred OF3 c ∗ cred (tallyAt (kcell (c, kFR 2)) () N32)) := cred_peel OF3 (kFR 2) xN xN_xN N32 c
  have f3 : (Pipeline.launchCred OF3 c : sProp 𝕄) ⊢ iprop(Pipeline.launchCred OF4 c ∗ cred (tallyAt (kcell (c, kFR 3)) () N32)) := cred_peel OF4 (kFR 3) xN xN_xN N32 c
  have f4 : (Pipeline.launchCred OF4 c : sProp 𝕄) ⊢ iprop(Pipeline.launchCred (fun _ => OF5) c ∗ cred (tallyAt (kcell (c, kFR 4)) () N32)) := cred_peel (fun _ => OF5) (kFR 4) xN xN_xN N32 c
  have hb : iprop(cred (tallyAt (barCell c) () 1) ∗ cred (tallyAt (barCell c) () 1)) ⊢ (cred (tallyAt (barCell c) () 2) : sProp 𝕄) :=
    (cred_add _ _).2.trans (Entails.of_eq (by rw [tallyAt_add]))
  iintro H
  ihave H1 := q1 $$ H; icases H1 with ⟨H1, B1⟩
  ihave H2 := q2 $$ H1; icases H2 with ⟨H2, B2⟩
  ihave H3 := y0 $$ H2; icases H3 with ⟨H3, Y0⟩
  ihave H4 := y1 $$ H3; icases H4 with ⟨H4, Y1⟩
  ihave H5 := y2 $$ H4; icases H5 with ⟨H5, Y2⟩
  ihave H6 := y3 $$ H5; icases H6 with ⟨H6, Y3⟩
  ihave H7 := y4 $$ H6; icases H7 with ⟨H7, Y4⟩
  ihave H8 := o1 $$ H7; icases H8 with ⟨H8, O1⟩
  ihave H9 := f0 $$ H8; icases H9 with ⟨H9, F0⟩
  ihave H10 := f1 $$ H9; icases H10 with ⟨H10, F1⟩
  ihave H11 := f2 $$ H10; icases H11 with ⟨H11, F2⟩
  ihave H12 := f3 $$ H11; icases H12 with ⟨H12, F3⟩
  ihave H13 := f4 $$ H12; icases H13 with ⟨-, F4⟩
  unfold creds
  rw [bigSep_fin5, bigSep_fin5]
  isplitl [B1 B2]
  · iapply hb; isplitl [B1] <;> iassumption
  isplitl [Y0 Y1 Y2 Y3 Y4]
  · isplitl [Y0]; · iexact Y0
    isplitl [Y1]; · iexact Y1
    isplitl [Y2]; · iexact Y2
    isplitl [Y3]; · iexact Y3
    iexact Y4
  isplitl [O1]; · iexact O1
  isplitl [F0]; · iexact F0
  isplitl [F1]; · iexact F1
  isplitl [F2]; · iexact F2
  isplitl [F3]; · iexact F3
  iexact F4

/-! ## The theorem's side conditions -/

/-- What a device's body starts from: the result array, no window of the pipeline, arrives whole at the launch contents. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ho, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Ho
  · iempintro

/-- The two scratches enter the body whole, at whatever they hold. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- At the end: the result array at the gathered contents, the own semaphores at zero, the scratches whole. -/
theorem phi1_exit (c : Dev nD) :
    (dats m 0 c).Φ (Fin.last cfg0.N) ⊢ iprop((oL c ↦{fullShare} outC m c) ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨Ho, Hs, Hz⟩
  isplitl [Ho]; · iexact Ho
  isplitl [Hz]; · iexact Hz
  iexact Hs

/-- The pipeline's staging cell sits at level 0: it may be waited on owing everything (before the point) or nothing (after). -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

set_option maxRecDepth 8000 in
/-- At the compiled mesh of eight devices, for any float values, from any memory with zero counters: if every device's
    body meets its obligation, every weakly fair execution of @main terminates, and every final state has each device's
    result array at the gathered contents and its block of `x` unchanged. -/
theorem run_main (ρ : Dev nD → PrngReg) (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem (oL c) = outC m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => oL c ↦{fullShare} outC m c) (Z := fun _ => iprop(emp))
    (hX := start_intro m ρ) (hin := phi0_intro m) (hout := phi1_exit m)
    (QY := fun c s => s.mem (oL c) = outC m c)
    (hY := fun c s' => by
      iintro ⟨Ho, -, HSI⟩
      icombine HSI Ho gives %ho
      imodintro
      isplitr; · ipureintro; exact Buf.eq_of_forall_mem_univ ho
      iexact HSI)
    (hQ := fun s h c => ⟨(h c).2.2, ((h c).1 0).trans ((dats (F := F) m 0 c).arrAt_in 0 rfl _)⟩)

/-- info: 'Cert.Kernel.AG.run_main' depends on axioms: [propext, Classical.choice, Quot.sound] -/
#guard_msgs in #print axioms run_main

end Cert.Kernel.AG

end
-- ==== Proof.KB.Views.lean ====
/-
  The slices the transfers go through, over the row slabs of Sched.lean: the source and destination memrefs of every copy
  of the protocol, each the whole buffer restricted to a slab.
-/
import proofs.«900668_g7700000000000669_dist_ag_v7x_xyz2x2x2_y_m512_n512_bf16_1_alg».proof.Proof.KB.Sched

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-- Rows of the staging scratch that first-hop transfer j reads; rows of the receive scratch it fills (on the y-partner)
    and that second-hop transfer j reads. -/
abbrev vSJ (c : Dev nD) (j : Fin 5) : Memref sig .tc .vmem S32x512 .bf16 := vS.slice (sJ c j) (fun _ => rfl)
abbrev vRJ (j : Fin 5) : Memref sig .tc .vmem S32x512 .bf16 := vR.slice (rJ j) (fun _ => rfl)
/-- The rows of the staging scratch that travel directly, and where they land in the y-partner's result array. -/
abbrev vSO : Memref sig .tc .vmem S192x512 .bf16 := vS.slice sO (fun _ => rfl)
abbrev oMDir (c : Dev nD) : Memref sig .tc .hbm S192x512 .bf16 := oM.slice (oDir c) (fun _ => rfl)
/-- Where second-hop transfer j lands in the result array; where the two local copies land. -/
abbrev oMFJ (c : Dev nD) (j : Fin 5) : Memref sig .tc .hbm S32x512 .bf16 := oM.slice (oFJ c j) (fun _ => rfl)
abbrev oMOwn (c : Dev nD) : Memref sig .tc .hbm S512x512 .bf16 := oM.slice (oOwn c) (fun _ => rfl)
abbrev oMStg (c : Dev nD) : Memref sig .tc .hbm S160x512 .bf16 := oM.slice (oStg c) (fun _ => rfl)

/-- A slice of a whole buffer goes through its slab's elements. -/
theorem vSJ_set (c : Dev nD) (j : Fin 5) : (vSJ c j).view.set = (sJ c j).set := View.set_slice_whole _ _
theorem vRJ_set (j : Fin 5) : (vRJ j).view.set = (rJ j).set := View.set_slice_whole _ _
theorem vSO_set : vSO.view.set = sO.set := View.set_slice_whole _ _
theorem oMDir_set (c : Dev nD) : (oMDir c).view.set = (oDir c).set := View.set_slice_whole _ _
theorem oMFJ_set (c : Dev nD) (j : Fin 5) : (oMFJ c j).view.set = (oFJ c j).set := View.set_slice_whole _ _
theorem oMOwn_set (c : Dev nD) : (oMOwn c).view.set = (oOwn c).set := View.set_slice_whole _ _
theorem oMStg_set (c : Dev nD) : (oMStg c).view.set = (oStg c).set := View.set_slice_whole _ _

/-- What each transfer credits: the tile count of its rows. -/
theorem vRJ_credit (j : Fin 5) : (vRJ j).view.dmaCredit = N32 := rfl
theorem vSJ_credit (c : Dev nD) (j : Fin 5) : (vSJ c j).view.dmaCredit = N32 := rfl
theorem oMFJ_credit (c : Dev nD) (j : Fin 5) : (oMFJ c j).view.dmaCredit = N32 := rfl
theorem oMDir_credit (c : Dev nD) : (oMDir c).view.dmaCredit = N192 := rfl
theorem vSO_credit : vSO.view.dmaCredit = N192 := rfl
theorem oMOwn_credit (c : Dev nD) : (oMOwn c).view.dmaCredit = N512 := rfl
theorem oMStg_credit (c : Dev nD) : (oMStg c).view.dmaCredit = N160 := rfl

/-- The program's slices are these: its row-offset chains in closed form over the device's two coordinates. -/
theorem p_vSJ (c : Dev nD) (j : Fin 5) :
    vS.slice (Rect.unit (s := S512x512) (k0_off4 c (BitVec.ofNat 32 (32 * j.val))) S32x512.size (k0_off4_inb c j)) (fun _ => rfl) = vSJ c j :=
  Memref.slice_unit_congr vS (off4_eq c j) _ _ _ _
theorem p_oMOwn (c : Dev nD) :
    oM.slice (Rect.unit (s := S1024x512) (k0_off3 c) S512x512.size (k0_off3_inb c)) (fun _ => rfl) = oMOwn c :=
  Memref.slice_unit_congr oM (off3_eq c) _ _ _ _
theorem p_oMStg (c : Dev nD) :
    oM.slice (Rect.unit (s := S1024x512) (k0_off7 c) S160x512.size (k0_off7_inb c)) (fun _ => rfl) = oMStg c :=
  Memref.slice_unit_congr oM (off7_eq c) _ _ _ _
/-- The direct slab as its receiver waits for it. -/
theorem p_oMDir_wait (c : Dev nD) :
    oM.slice (Rect.unit (s := S1024x512) (k0_off8 c) S192x512.size (k0_off8_inb c)) (fun _ => rfl) = oMDir c :=
  Memref.slice_unit_congr oM (off8_eq c) _ _ _ _
/-- The direct slab as its sender addresses it: on the y-partner. -/
theorem p_oMDir_send (c : Dev nD) :
    oM.slice (Rect.unit (s := S1024x512) (k0_off5 c) S192x512.size (k0_off5_inb c)) (fun _ => rfl) = oMDir (yN c) :=
  Memref.slice_unit_congr oM ((off5_eq c).trans (by revert c; decide +kernel)) _ _ _ _
/-- A forwarded piece as its receiver waits for it, and as its sender addresses it: on the x-partner. -/
theorem p_oMFJ_wait (c : Dev nD) (j : Fin 5) :
    oM.slice (Rect.unit (s := S1024x512) (k0_off9 c (BitVec.ofNat 32 (32 * j.val))) S32x512.size (k0_off9_inb c j)) (fun _ => rfl) = oMFJ c j :=
  Memref.slice_unit_congr oM (off9_eq c j) _ _ _ _
theorem p_oMFJ_send (c : Dev nD) (j : Fin 5) :
    oM.slice (Rect.unit (s := S1024x512) (k0_off6 c (BitVec.ofNat 32 (32 * j.val))) S32x512.size (k0_off6_inb c j)) (fun _ => rfl) = oMFJ (xN c) j :=
  Memref.slice_unit_congr oM ((off6_eq c j).trans (by revert c j; decide +kernel)) _ _ _ _

end Cert.Kernel.AG

end
-- ==== Proof.KB.Rules.lean ====
/-
  The library's rules at this protocol's cells: each statement of the kernel body that touches a semaphore, stated once
  over the schedule's tables, with what it consumes and what it gives.
-/
import proofs.«900668_g7700000000000669_dist_ag_v7x_xyz2x2x2_y_m512_n512_bf16_1_alg».proof.Proof.KB.Data
import proofs.«900668_g7700000000000669_dist_ag_v7x_xyz2x2x2_y_m512_n512_bf16_1_alg».proof.Proof.KB.Views

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

variable (K : Dev nD × Fin 25 → ℕ)

local notation "WP" => wp frame (wpE (defs₀ (F := F)) 𝒱₀ _ none) Set.univ

theorem amt_bar : amt 0 = 1 := rfl
theorem amt_YS (j : Fin 5) : amt (kYS j) = N32 := by fin_cases j <;> rfl
theorem amt_YR (j : Fin 5) : amt (kYR j) = N32 := by fin_cases j <;> rfl
theorem amt_FS (j : Fin 5) : amt (kFS j) = N32 := by fin_cases j <;> rfl
theorem amt_FR (j : Fin 5) : amt (kFR j) = N32 := by fin_cases j <;> rfl
theorem amt_OS : amt kOS = N192 := rfl
theorem amt_OR : amt kOR = N192 := rfl
theorem amt_Own : amt kOwn = N512 := rfl
theorem amt_Stg : amt kStg = N160 := rfl
theorem kYS_ne (j : Fin 5) : (kYS j).val ≠ 0 := by simp
theorem kYR_ne (j : Fin 5) : (kYR j).val ≠ 0 := by simp
theorem kFS_ne (j : Fin 5) : (kFS j).val ≠ 0 := by simp
theorem kFR_ne (j : Fin 5) : (kFR j).val ≠ 0 := by simp

/-- The unit to the y-partner's barrier cell: with it go the device's receive scratch and the direct slab of its result. -/
theorem wp_sigY (c n : Dev nD) (hn : n = yN c) {α : Type} {Q : α → sProp 𝕄} {k : PUnit → Prog (TpuEff nD τ sig (Elt F) Λ₀ .tc) α}
    {k' : ℕ} (hk' : k' = 1) (W : Waits sig Unit) :
    iprop(cellInv ER (agRd m) (K (yN c, 0)) (barCell (yN c)) ∗ owes (c : Thread nD τ) (O₀ c) W
        ∗ dutyTok ER (barCell (yN c)) 0 false ∗ ((∃ f, rL c ↦{fullShare} f) ∗ (∃ f, oL c ↦[(oDir c).set]{fullShare} f))
        ∗ reached ER (barCell (yN c)) 0)
      ⊢ iprop((owes (c : Thread nD τ) (OX c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  have hp : (agRd m).payload (barCell (yN c)) 0 false = iprop((∃ f, rL c ↦{fullShare} f) ∗ (∃ f, oL c ↦[(oDir c).set]{fullShare} f)) := by
    rw [payload_cell, pay_bar_false]; unfold barPayY; rw [yN_yN]
  rw [← hp]
  exact Rounds.wp_signal 𝒱₀ ER (agRd m) (c : Thread nD τ) none (dst := (yN c : Thread nD τ)) (κ := K (yN c, 0)) (d := false)
    (by show false ∈ (agRd m).duties (barCell (yN c)) 0; rw [duties_bar]; exact Finset.mem_univ _) (amount_cell m (yN c) 0 false) () (OX c) rfl

/-- The unit to the x-partner's barrier cell: with it goes the slab of the result that partner's forwarded pieces fill. -/
theorem wp_sigX (c n : Dev nD) (hn : n = xN c) {α : Type} {Q : α → sProp 𝕄} {k : PUnit → Prog (TpuEff nD τ sig (Elt F) Λ₀ .tc) α}
    {k' : ℕ} (hk' : k' = 1) (W : Waits sig Unit) :
    iprop(cellInv ER (agRd m) (K (xN c, 0)) (barCell (xN c)) ∗ owes (c : Thread nD τ) (OX c) W
        ∗ dutyTok ER (barCell (xN c)) 0 true ∗ (∃ f, oL c ↦[(oFwd c).set]{fullShare} f)
        ∗ reached ER (barCell (xN c)) 0)
      ⊢ iprop((owes (c : Thread nD τ) (OY0 c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  have hp : (agRd m).payload (barCell (xN c)) 0 true = iprop(∃ f, oL c ↦[(oFwd c).set]{fullShare} f) := by
    rw [payload_cell, pay_bar_true]; unfold barPayX; rw [xN_xN]
  rw [← hp]
  exact Rounds.wp_signal 𝒱₀ ER (agRd m) (c : Thread nD τ) none (dst := (xN c : Thread nD τ)) (κ := K (xN c, 0)) (d := true)
    (by show true ∈ (agRd m).duties (barCell (xN c)) 0; rw [duties_bar]; exact Finset.mem_univ _) (amount_cell m (xN c) 0 true) () (OY0 c) rfl

/-- The wait for both partners' units: their payloads come with it. -/
theorem wp_waitBar (c : Dev nD) {α : Type} {Q : α → sProp 𝕄} {k : PUnit → Prog (TpuEff nD τ sig (Elt F) Λ₀ .tc) α}
    {k' : ℕ} (hk' : k' = 2) (O : CellTallies nD τ sig Unit) (W : Waits sig Unit) :
    iprop(cellInv ER (agRd m) (K (c, 0)) (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (csem 0, ()) W) ∗ atPos ER (barCell c) 1 ∅ 0 ∗ barPayY (F := F) c ∗ barPayX (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  rw [show (MayWait (c : Thread nD τ) (SemLoc.reg barS) () O : sProp 𝕄) = MayWait (c : Thread nD τ) (csem 0) () O from rfl]
  iintro H Hk
  iapply (Rounds.wp_wait_rest_token 𝒱₀ ER (agRd m) (c : Thread nD τ) none (κ := K (c, 0)) (sm := csem 0) (k' := 2)
      (wpE_semWait_eq 𝒱₀ (c : Thread nD τ) none Set.univ) (Set.mem_univ _) () (O := O) (W := W) (R := 0) (m := 0) (T := ∅)
      (by show 0 + 2 = (agRd m).expect (barCell c) 0; rw [expect_bar])) $$ H
  iintro ⟨HO, Hat, -, Hpay⟩
  ihave Hp := (Entails.of_eq (rest_bar m c)) $$ Hpay
  icases Hp with ⟨HY, HX⟩
  iapply Hk
  isplitl [HO]; · iexact HO
  isplitl [Hat]; · iexact Hat
  isplitl [HY]; · iexact HY
  iexact HX

/-! ## Transfers -/

section Xfer
variable (c : Dev nD)

/-- First-hop transfer j: rows of the staging scratch into slab j of the y-partner's receive scratch. -/
theorem wp_ysend (n : Dev nD) (hn : n = yN c) (j : Fin 5)
    {src : Memref sig .tc .vmem S32x512 .bf16} (hs : src = vSJ c j)
    {dst : Memref sig .tc .vmem S32x512 .bf16} (hd : dst = vRJ j)
    {sS sem : SemLoc sig} (hsS : sS = csem (kYS j)) (hsem : sem = csem (kYR j))
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (rL (yN c))) (O : CellTallies nD τ sig Unit) (W : Waits sig Unit)
    (hland : ∀ i ∈ (rJ j).set, (vRJ j).view.write (Elt F) fd ((vSJ c j).view.read (Elt F) (stgC m c)) Finset.univ i = recvC m (yN c) i) :
    iprop(cellInv ER (agRd m) (K (c, kYS j)) (kcell (c, kYS j)) ∗ cellInv ER (agRd m) (K (yN c, kYR j)) (kcell (yN c, kYR j))
        ∗ (sL c ↦[(sJ c j).set]{qR} stgC m c) ∗ (rL (yN c) ↦[(rJ j).set]{fullShare} fd)
        ∗ owes (c : Thread nD τ) (O + tYR c j) W
        ∗ dutyTok ER (kcell (c, kYS j)) 0 false ∗ reached ER (kcell (c, kYS j)) 0
        ∗ dutyTok ER (kcell (yN c, kYR j)) 0 false ∗ reached ER (kcell (yN c, kYR j)) 0)
      ⊢ iprop(((cred (tallyAt (kcell (c, kYS j)) () N32) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : ((vSJ c j).view.loc (c : Thread nD τ) ↦[(vSJ c j).view.set]{qR} stgC m c : sProp 𝕄) ⊢ (agRd m).payload (kcell (c, kYS j)) 0 false := by
    rw [payload_cell, pay_YS, vSJ_set]
  have h2 : ((vRJ j).view.loc (yN c : Thread nD τ) ↦[(vRJ j).view.set]{fullShare}
        ((vRJ j).view.write (Elt F) fd ((vSJ c j).view.read (Elt F) (stgC m c)) Finset.univ) : sProp 𝕄)
      ⊢ (agRd m).payload (kcell (yN c, kYR j)) 0 false := by
    rw [payload_cell, pay_YR, vRJ_set]; exact Entails.of_eq (pointsTo_congr hland)
  rw [← vSJ_set c j, ← vRJ_set j]
  exact Rounds.wp_send_pointsTo 𝒱₀ ER (agRd m) (c : Thread nD τ) none (κ₁ := K (c, kYS j)) (κ₂ := K (yN c, kYR j))
    (c' := (yN c : Thread nD τ)) (src := vSJ c j) (dst := vRJ j) (sS := csem (kYS j)) (sem := csem (kYR j))
    (r₁ := 0) (r₂ := 0) (d₁ := false) (d₂ := false) (fd := fd) (q := qR) (fs := stgC m c)
    (by show false ∈ (agRd m).duties (kcell (c, kYS j)) 0; rw [duties_xfer m c _ (kYS_ne j)]; exact Finset.mem_singleton_self _)
    (by show false ∈ (agRd m).duties (kcell (yN c, kYR j)) 0; rw [duties_xfer m _ _ (kYR_ne j)]; exact Finset.mem_singleton_self _)
    () () N32 (show (vRJ j).view.amount (csem (kYR j)) = N32 from rfl) ((amount_cell m c (kYS j) false).trans (amt_YS j)) ((amount_cell m (yN c) (kYR j) false).trans (amt_YR j))
    O rfl (W := W) h1 h2

/-- The direct slab: rows [160, 352) of the staging scratch into the y-partner's result array. -/
theorem wp_ovsend (n : Dev nD) (hn : n = yN c)
    {src : Memref sig .tc .vmem S192x512 .bf16} (hs : src = vSO)
    {dst : Memref sig .tc .hbm S192x512 .bf16} (hd : dst = oMDir (yN c))
    {sS sem : SemLoc sig} (hsS : sS = csem kOS) (hsem : sem = csem kOR)
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (oL (yN c))) (O : CellTallies nD τ sig Unit) (W : Waits sig Unit)
    (hland : ∀ i ∈ (oDir (yN c)).set, (oMDir (yN c)).view.write (Elt F) fd (vSO.view.read (Elt F) (stgC m c)) Finset.univ i = outC m (yN c) i) :
    iprop(cellInv ER (agRd m) (K (c, kOS)) (kcell (c, kOS)) ∗ cellInv ER (agRd m) (K (yN c, kOR)) (kcell (yN c, kOR))
        ∗ (sL c ↦[sO.set]{qR} stgC m c) ∗ (oL (yN c) ↦[(oDir (yN c)).set]{fullShare} fd)
        ∗ owes (c : Thread nD τ) (O + tallyAt (kcell (yN c, kOR)) () N192) W
        ∗ dutyTok ER (kcell (c, kOS)) 0 false ∗ reached ER (kcell (c, kOS)) 0
        ∗ dutyTok ER (kcell (yN c, kOR)) 0 false ∗ reached ER (kcell (yN c, kOR)) 0)
      ⊢ iprop(((cred (tallyAt (kcell (c, kOS)) () N192) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : (vSO.view.loc (c : Thread nD τ) ↦[vSO.view.set]{qR} stgC m c : sProp 𝕄) ⊢ (agRd m).payload (kcell (c, kOS)) 0 false := by
    rw [payload_cell, pay_OS, vSO_set]
  have h2 : ((oMDir (yN c)).view.loc (yN c : Thread nD τ) ↦[(oMDir (yN c)).view.set]{fullShare}
        ((oMDir (yN c)).view.write (Elt F) fd (vSO.view.read (Elt F) (stgC m c)) Finset.univ) : sProp 𝕄)
      ⊢ (agRd m).payload (kcell (yN c, kOR)) 0 false := by
    rw [payload_cell, pay_OR, oMDir_set]; exact Entails.of_eq (pointsTo_congr hland)
  rw [← vSO_set, ← oMDir_set (yN c)]
  exact Rounds.wp_send_pointsTo 𝒱₀ ER (agRd m) (c : Thread nD τ) none (κ₁ := K (c, kOS)) (κ₂ := K (yN c, kOR))
    (c' := (yN c : Thread nD τ)) (src := vSO) (dst := oMDir (yN c)) (sS := csem kOS) (sem := csem kOR)
    (r₁ := 0) (r₂ := 0) (d₁ := false) (d₂ := false) (fd := fd) (q := qR) (fs := stgC m c)
    (by show false ∈ (agRd m).duties (kcell (c, kOS)) 0; rw [duties_xfer m c _ (by decide)]; exact Finset.mem_singleton_self _)
    (by show false ∈ (agRd m).duties (kcell (yN c, kOR)) 0; rw [duties_xfer m _ _ (by decide)]; exact Finset.mem_singleton_self _)
    () () N192 (show (oMDir (yN c)).view.amount (csem kOR) = N192 from rfl) ((amount_cell m c kOS false).trans amt_OS) ((amount_cell m (yN c) kOR false).trans amt_OR)
    O rfl (W := W) h1 h2

/-- Second-hop transfer j: slab j of the receive scratch into the x-partner's result array. -/
theorem wp_fsend (n : Dev nD) (hn : n = xN c) (j : Fin 5)
    {src : Memref sig .tc .vmem S32x512 .bf16} (hs : src = vRJ j)
    {dst : Memref sig .tc .hbm S32x512 .bf16} (hd : dst = oMFJ (xN c) j)
    {sS sem : SemLoc sig} (hsS : sS = csem (kFS j)) (hsem : sem = csem (kFR j))
    {hsc : dst.view.ref.isScScratch = false} {hsrc : src.view.WordExact} {hdst : dst.view.WordExact}
    {htyp : DmaTarget.Typed .vmem sem (.remote (Dev.tc n : Thread nD τ) dst sS hsc)}
    {α : Type} {Q : α → sProp 𝕄} {k : PUnit → Prog (TpuEff nD τ sig (Elt F) Λ₀ .tc) α}
    (fd : Buf (Elt F) (oL (xN c))) (O : CellTallies nD τ sig Unit) (W : Waits sig Unit)
    (hland : ∀ i ∈ (oFJ (xN c) j).set, (oMFJ (xN c) j).view.write (Elt F) fd ((vRJ j).view.read (Elt F) (recvC m c)) Finset.univ i = outC m (xN c) i) :
    iprop(cellInv ER (agRd m) (K (c, kFS j)) (kcell (c, kFS j)) ∗ cellInv ER (agRd m) (K (xN c, kFR j)) (kcell (xN c, kFR j))
        ∗ (rL c ↦[(rJ j).set]{qR} recvC m c) ∗ (oL (xN c) ↦[(oFJ (xN c) j).set]{fullShare} fd)
        ∗ owes (c : Thread nD τ) (O + tFR c j) W
        ∗ dutyTok ER (kcell (c, kFS j)) 0 false ∗ reached ER (kcell (c, kFS j)) 0
        ∗ dutyTok ER (kcell (xN c, kFR j)) 0 false ∗ reached ER (kcell (xN c, kFR j)) 0)
      ⊢ iprop(((cred (tallyAt (kcell (c, kFS j)) () N32) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst htyp) k) Q) := by
  subst hn hs hd hsS hsem
  have h1 : ((vRJ j).view.loc (c : Thread nD τ) ↦[(vRJ j).view.set]{qR} recvC m c : sProp 𝕄) ⊢ (agRd m).payload (kcell (c, kFS j)) 0 false := by
    rw [payload_cell, pay_FS, vRJ_set]
  have h2 : ((oMFJ (xN c) j).view.loc (xN c : Thread nD τ) ↦[(oMFJ (xN c) j).view.set]{fullShare}
        ((oMFJ (xN c) j).view.write (Elt F) fd ((vRJ j).view.read (Elt F) (recvC m c)) Finset.univ) : sProp 𝕄)
      ⊢ (agRd m).payload (kcell (xN c, kFR j)) 0 false := by
    rw [payload_cell, pay_FR, oMFJ_set]; exact Entails.of_eq (pointsTo_congr hland)
  rw [← vRJ_set j, ← oMFJ_set (xN c) j]
  exact Rounds.wp_send_pointsTo 𝒱₀ ER (agRd m) (c : Thread nD τ) none (κ₁ := K (c, kFS j)) (κ₂ := K (xN c, kFR j))
    (c' := (xN c : Thread nD τ)) (src := vRJ j) (dst := oMFJ (xN c) j) (sS := csem (kFS j)) (sem := csem (kFR j))
    (r₁ := 0) (r₂ := 0) (d₁ := false) (d₂ := false) (fd := fd) (q := qR) (fs := recvC m c)
    (by show false ∈ (agRd m).duties (kcell (c, kFS j)) 0; rw [duties_xfer m c _ (kFS_ne j)]; exact Finset.mem_singleton_self _)
    (by show false ∈ (agRd m).duties (kcell (xN c, kFR j)) 0; rw [duties_xfer m _ _ (kFR_ne j)]; exact Finset.mem_singleton_self _)
    () () N32 (show (oMFJ (xN c) j).view.amount (csem (kFR j)) = N32 from rfl) ((amount_cell m c (kFS j) false).trans (amt_FS j)) ((amount_cell m (xN c) (kFR j) false).trans (amt_FR j))
    O rfl (W := W) h1 h2

end Xfer

/-! ## Local copies -/

section Local
variable (c : Dev nD)

/-- A whole scratch as its memref's view names it. -/
theorem vS_whole (q : PosShare TreeShare) (f : Buf (Elt F) (sL c)) :
    (sL c ↦{q} f : sProp 𝕄) = (vS.view.loc (c : Thread nD τ) ↦[(vS : Memref sig .tc .vmem S512x512 .bf16).view.set]{q} f) := by
  show _ = pointsTo _ (View.whole cc0_scratch0).set q f; rw [View.set_whole]
theorem vR_whole (q : PosShare TreeShare) (f : Buf (Elt F) (rL c)) :
    (rL c ↦{q} f : sProp 𝕄) = (vR.view.loc (c : Thread nD τ) ↦[(vR : Memref sig .tc .vmem S160x512 .bf16).view.set]{q} f) := by
  show _ = pointsTo _ (View.whole cc0_scratch1).set q f; rw [View.set_whole]

/-- The copy of the whole staging scratch into the device's own block of its result. -/
theorem wp_own {dst : Memref sig .tc .hbm S512x512 .bf16} (hd : dst = oMOwn c) {sem : SemLoc sig} (hsem : sem = csem kOwn)
    {hsrc : (vS : Memref sig .tc .vmem S512x512 .bf16).view.WordExact} {hdst : dst.view.WordExact}
    {htyp : DmaTarget.Typed (nD := nD) (τ := τ) .vmem sem (DmaTarget.here (p := Proc.tc) dst)}
    {α : Type} {Q : α → sProp 𝕄} {k : PUnit → Prog (TpuEff nD τ sig (Elt F) Λ₀ .tc) α}
    (fd : Buf (Elt F) (oL c))
    (hland : ∀ i ∈ (oOwn c).set, (oMOwn c).view.write (Elt F) fd (vS.view.read (Elt F) (stgC m c)) Finset.univ i = outC m c i) :
    iprop(cellInv ER (agRd m) (K (c, kOwn)) (kcell (c, kOwn)) ∗ (sL c ↦{qL} stgC m c) ∗ (oL c ↦[(oOwn c).set]{fullShare} fd)
        ∗ dutyTok ER (kcell (c, kOwn)) 0 false ∗ reached ER (kcell (c, kOwn)) 0)
      ⊢ iprop((cred (tallyAt (kcell (c, kOwn)) () N512) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma vS (.here dst) sem hsrc hdst htyp) k) Q) := by
  subst hd hsem
  have hp : (iprop(((oMOwn c).view.loc (c : Thread nD τ) ↦[(oMOwn c).view.set]{fullShare}
          ((oMOwn c).view.write (Elt F) fd (vS.view.read (Elt F) (stgC m c)) Finset.univ))
        ∗ (vS.view.loc (c : Thread nD τ) ↦[(vS : Memref sig .tc .vmem S512x512 .bf16).view.set]{qL} stgC m c)) : sProp 𝕄)
      ⊢ (agRd m).payload (kcell (c, kOwn)) 0 false := by
    rw [payload_cell, pay_Own, oMOwn_set, ← vS_whole]
    exact sep_mono_left (Entails.of_eq (pointsTo_congr hland))
  rw [vS_whole, ← oMOwn_set c]
  exact Rounds.wp_copy_pointsTo 𝒱₀ ER (agRd m) (c : Thread nD τ) none (κ := K (c, kOwn)) (src := vS) (dst := oMOwn c) (sem := csem kOwn)
    (r := 0) (d := false) (fd := fd) (q := qL) (fs := stgC m c)
    (by show false ∈ (agRd m).duties (kcell (c, kOwn)) 0; rw [duties_xfer m c _ (by decide)]; exact Finset.mem_singleton_self _)
    () N512 (show (oMOwn c).view.amount (csem kOwn) = N512 from rfl) ((amount_cell m c kOwn false).trans amt_Own) hp

/-- The copy of the whole receive scratch into the slab of the result it belongs to. -/
theorem wp_stgcopy {dst : Memref sig .tc .hbm S160x512 .bf16} (hd : dst = oMStg c) {sem : SemLoc sig} (hsem : sem = csem kStg)
    {hsrc : (vR : Memref sig .tc .vmem S160x512 .bf16).view.WordExact} {hdst : dst.view.WordExact}
    {htyp : DmaTarget.Typed (nD := nD) (τ := τ) .vmem sem (DmaTarget.here (p := Proc.tc) dst)}
    {α : Type} {Q : α → sProp 𝕄} {k : PUnit → Prog (TpuEff nD τ sig (Elt F) Λ₀ .tc) α}
    (fd : Buf (Elt F) (oL c))
    (hland : ∀ i ∈ (oStg c).set, (oMStg c).view.write (Elt F) fd (vR.view.read (Elt F) (recvC m c)) Finset.univ i = outC m c i) :
    iprop(cellInv ER (agRd m) (K (c, kStg)) (kcell (c, kStg)) ∗ (rL c ↦{qL} recvC m c) ∗ (oL c ↦[(oStg c).set]{fullShare} fd)
        ∗ dutyTok ER (kcell (c, kStg)) 0 false ∗ reached ER (kcell (c, kStg)) 0)
      ⊢ iprop((cred (tallyAt (kcell (c, kStg)) () N160) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma vR (.here dst) sem hsrc hdst htyp) k) Q) := by
  subst hd hsem
  have hp : (iprop(((oMStg c).view.loc (c : Thread nD τ) ↦[(oMStg c).view.set]{fullShare}
          ((oMStg c).view.write (Elt F) fd (vR.view.read (Elt F) (recvC m c)) Finset.univ))
        ∗ (vR.view.loc (c : Thread nD τ) ↦[(vR : Memref sig .tc .vmem S160x512 .bf16).view.set]{qL} recvC m c)) : sProp 𝕄)
      ⊢ (agRd m).payload (kcell (c, kStg)) 0 false := by
    rw [payload_cell, pay_Stg, oMStg_set, ← vR_whole]
    exact sep_mono_left (Entails.of_eq (pointsTo_congr hland))
  rw [vR_whole, ← oMStg_set c]
  exact Rounds.wp_copy_pointsTo 𝒱₀ ER (agRd m) (c : Thread nD τ) none (κ := K (c, kStg)) (src := vR) (dst := oMStg c) (sem := csem kStg)
    (r := 0) (d := false) (fd := fd) (q := qL) (fs := recvC m c)
    (by show false ∈ (agRd m).duties (kcell (c, kStg)) 0; rw [duties_xfer m c _ (by decide)]; exact Finset.mem_singleton_self _)
    () N160 (show (oMStg c).view.amount (csem kStg) = N160 from rfl) ((amount_cell m c kStg false).trans amt_Stg) hp

/-! ## The wait for a transfer cell's round: its payload comes with it -/

theorem wp_waitX (k : Fin 25) (hk : k.val ≠ 0) {α : Type} {Q : α → sProp 𝕄} {kont : PUnit → Prog (TpuEff nD τ sig (Elt F) Λ₀ .tc) α}
    {w : TpuEff nD τ sig (Elt F) Λ₀ .tc PUnit} {sm : SemLoc sig} {k' : ℕ}
    (hw : ∀ Kp : PUnit → sProp 𝕄, wpE (defs₀ (F := F)) 𝒱₀ (c : Thread nD τ) none Set.univ w Kp = waitSpec (c : Thread nD τ) Set.univ sm k' Kp)
    (hsm : sm = csem k) (hk' : k' = amt k) (O : CellTallies nD τ sig Unit) (W : Waits sig Unit) :
    iprop(cellInv ER (agRd m) (K (c, k)) (kcell (c, k)) ∗ cred (tallyAt (kcell (c, k)) () (amt k)) ∗ owes (c : Thread nD τ) O W
        ∗ MayWait (c : Thread nD τ) (csem k) () O ∗ atPos ER (kcell (c, k)) 0 ∅ 0)
      ⊢ iprop(((owes (c : Thread nD τ) O (insert (csem k, ()) W) ∗ atPos ER (kcell (c, k)) 1 ∅ 0 ∗ pay m c k false)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hsm hk'
  iintro H Hk
  iapply (Rounds.wp_wait_rest_token 𝒱₀ ER (agRd m) (c : Thread nD τ) none (κ := K (c, k)) (sm := csem k) (k' := amt k)
      hw (Set.mem_univ _) () (O := O) (W := W) (R := 0) (m := 0) (T := ∅)
      (by show 0 + amt k = (agRd m).expect (kcell (c, k)) 0; rw [expect_xfer m c k hk, Nat.zero_add])) $$ H
  iintro ⟨HO, Hat, -, Hpay⟩
  ihave Hp := (Entails.of_eq (rest_xfer m c k hk)) $$ Hpay
  iapply Hk
  isplitl [HO]; · iexact HO
  isplitl [Hat]; · iexact Hat
  iexact Hp

/-- A transfer cell closes once its one round is consumed: its counter, at zero, is the device's again. -/
theorem close_cell (k : Fin 25) (hk : k.val ≠ 0) :
    iprop(cellInv ER (agRd m) (K (c, k)) (kcell (c, k)) ∗ atPos ER (kcell (c, k)) 1 ∅ 0) ⊢ iprop(|={Set.univ}=> semVal (kcell (c, k)) 0 : sProp 𝕄) :=
  Rounds.cell_close ER (agRd m) (Set.mem_univ (K (c, k))) (fun h => h) (R := 1) (duties_later m (kcell (c, k)))

end Local

end Cert.Kernel.AG

end
-- ==== Proof.KB.Regions.lean ====
/-
  Cutting a device's buffers into the row slabs the protocol hands around, and putting them back.

  Every slab spans all 512 columns, so a slab is an interval of rows and all the set facts are arithmetic on the row
  coordinate. The staging scratch is cut into the five 32-row pieces sent to the y-partner, the 192 rows that travel
  directly and the 160 rows that stay; the receive scratch into its five 32-row pieces; the result array into the
  device's own block and the three slabs of the other block, the forwarded one again into its five pieces. A full
  share is cut into its two halves.
-/
import proofs.«900668_g7700000000000669_dist_ag_v7x_xyz2x2x2_y_m512_n512_bf16_1_alg».proof.Proof.KB.Views

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## Row slabs as intervals of rows -/

/-- An element lies in a row slab exactly when its row does. -/
theorem mem_rows {n0 r n : ℕ} {inb} (i : (⟨2, ![n0, 512]⟩ : Shape).Idx) :
    i ∈ (Rect.unit (s := ⟨2, ![n0, 512]⟩) ![r, 0] ![n, 512] inb).set ↔ r ≤ (i 0).val ∧ (i 0).val < r + n := by
  rw [Rect.mem_set_unit, Fin.forall_fin_two]
  have h1 := idx2_lt1 i
  show (r ≤ (i 0).val ∧ (i 0).val < r + n) ∧ (0 ≤ (i 1).val ∧ (i 1).val < 0 + 512) ↔ _
  omega

/-- Row slabs over separate intervals of rows share no element. -/
theorem rows_disjoint {n0 r n r' n' : ℕ} {inb inb'} (h : r + n ≤ r' ∨ r' + n' ≤ r) :
    Disjoint (Rect.unit (s := ⟨2, ![n0, 512]⟩) ![r, 0] ![n, 512] inb).set
      (Rect.unit (s := ⟨2, ![n0, 512]⟩) ![r', 0] ![n', 512] inb').set :=
  Rect.unit_disjoint 0 h

/-! ## Points-to along a disjoint union, as an equation -/

theorem pointsTo_union_eq {ℓ : Loc nD τ sig} {I J : Finset (Idx ℓ)} {q : PosShare TreeShare} {f : Buf (Elt F) ℓ}
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

/-- The row offsets are linear in the two coordinates, each 0 or 1. -/
theorem offsets (c : Dev nD) :
    sP c < 2 ∧ yC c < 2 ∧ fwd c = 352 * sP c ∧ rfw c = 352 * (1 - sP c) ∧ mine c = 512 * yC c ∧ other c = 512 * (1 - yC c) :=
  ⟨sP_lt c, yC_lt c, rfl, rfl, rfl, rfl⟩

/-- The five pieces' numbers. -/
theorem five : ((0 : Fin 5) : ℕ) = 0 ∧ ((1 : Fin 5) : ℕ) = 1 ∧ ((2 : Fin 5) : ℕ) = 2 ∧ ((3 : Fin 5) : ℕ) = 3 ∧ ((4 : Fin 5) : ℕ) = 4 :=
  ⟨rfl, rfl, rfl, rfl, rfl⟩

/-- Slabs over pairwise separate intervals of rows: each disjoint from the union of the later ones. -/
local macro "slabs_apart" : tactic =>
  `(tactic| ((try simp only [Finset.disjoint_union_right]); and_intros <;> exact rows_disjoint (by omega)))

/-! ## The result array -/

theorem o_mem (c : Dev nD) (i : S1024x512.Idx) :
    i ∈ (oOwn c).set ∪ ((oDir c).set ∪ ((oStg c).set ∪ (oFwd c).set)) := by
  have h0 := idx2_lt0 i
  obtain ⟨hs, hy, e1, e2, e3, e4⟩ := offsets c
  simp only [Finset.mem_union, mem_rows]
  omega

theorem o_cover (c : Dev nD) :
    (Finset.univ : Finset (Idx (oL c))) = (oOwn c).set ∪ ((oDir c).set ∪ ((oStg c).set ∪ (oFwd c).set)) :=
  (Finset.eq_univ_iff_forall.mpr (o_mem c)).symm

theorem oL_split (c : Dev nD) (q : PosShare TreeShare) (f : Buf (Elt F) (oL c)) :
    (oL c ↦{q} f : sProp 𝕄) ⊣⊢ iprop((oL c ↦[(oOwn c).set]{q} f) ∗ (oL c ↦[(oDir c).set]{q} f) ∗ (oL c ↦[(oStg c).set]{q} f) ∗ (oL c ↦[(oFwd c).set]{q} f)) := by
  obtain ⟨hs, hy, e1, e2, e3, e4⟩ := offsets c
  refine BiEntails.of_eq ?_
  rw [o_cover c, pointsTo_union_eq (by slabs_apart), pointsTo_union_eq (by slabs_apart), pointsTo_union_eq (by slabs_apart)]

/-- The forwarded slab is its five pieces. -/
theorem oFwd_eq (c : Dev nD) :
    (oFwd c).set = (oFJ c 0).set ∪ ((oFJ c 1).set ∪ ((oFJ c 2).set ∪ ((oFJ c 3).set ∪ (oFJ c 4).set))) := by
  obtain ⟨v0, v1, v2, v3, v4⟩ := five
  ext i
  simp only [Finset.mem_union, mem_rows]
  omega

theorem oFwd_split (c : Dev nD) (q : PosShare TreeShare) (f : Buf (Elt F) (oL c)) :
    (oL c ↦[(oFwd c).set]{q} f : sProp 𝕄) ⊣⊢ iprop((oL c ↦[(oFJ c 0).set]{q} f) ∗ (oL c ↦[(oFJ c 1).set]{q} f) ∗ (oL c ↦[(oFJ c 2).set]{q} f) ∗ (oL c ↦[(oFJ c 3).set]{q} f) ∗ (oL c ↦[(oFJ c 4).set]{q} f)) := by
  obtain ⟨v0, v1, v2, v3, v4⟩ := five
  refine BiEntails.of_eq ?_
  rw [show ((oFwd c).set : Finset (Idx (oL c))) = _ from oFwd_eq c,
    pointsTo_union_eq (by slabs_apart), pointsTo_union_eq (by slabs_apart), pointsTo_union_eq (by slabs_apart),
    pointsTo_union_eq (by slabs_apart)]

/-! ## The receive scratch -/

theorem r_mem (i : S160x512.Idx) :
    i ∈ (rJ 0).set ∪ ((rJ 1).set ∪ ((rJ 2).set ∪ ((rJ 3).set ∪ (rJ 4).set))) := by
  have h0 := idx2_lt0 i
  obtain ⟨v0, v1, v2, v3, v4⟩ := five
  simp only [Finset.mem_union, mem_rows]
  omega

theorem r_cover (c : Dev nD) :
    (Finset.univ : Finset (Idx (rL c))) = (rJ 0).set ∪ ((rJ 1).set ∪ ((rJ 2).set ∪ ((rJ 3).set ∪ (rJ 4).set))) :=
  (Finset.eq_univ_iff_forall.mpr r_mem).symm

theorem rL_split (c : Dev nD) (q : PosShare TreeShare) (f : Buf (Elt F) (rL c)) :
    (rL c ↦{q} f : sProp 𝕄) ⊣⊢ iprop((rL c ↦[(rJ 0).set]{q} f) ∗ (rL c ↦[(rJ 1).set]{q} f) ∗ (rL c ↦[(rJ 2).set]{q} f) ∗ (rL c ↦[(rJ 3).set]{q} f) ∗ (rL c ↦[(rJ 4).set]{q} f)) := by
  obtain ⟨v0, v1, v2, v3, v4⟩ := five
  refine BiEntails.of_eq ?_
  rw [r_cover c, pointsTo_union_eq (by slabs_apart), pointsTo_union_eq (by slabs_apart), pointsTo_union_eq (by slabs_apart),
    pointsTo_union_eq (by slabs_apart)]

/-! ## The staging scratch -/

/-- The 160 rows of the staging scratch that are neither in the five pieces nor in the direct slab:
    rows [rfw, rfw + 160). -/
def sRest (c : Dev nD) : Rect S512x512 := sSlab (rfw c) 160 (by have := rfw_le c; omega)

theorem s_mem (c : Dev nD) (i : S512x512.Idx) :
    i ∈ (sJ c 0).set ∪ ((sJ c 1).set ∪ ((sJ c 2).set ∪ ((sJ c 3).set ∪ ((sJ c 4).set ∪ (sO.set ∪ (sRest c).set))))) := by
  have h0 := idx2_lt0 i
  obtain ⟨hs, hy, e1, e2, e3, e4⟩ := offsets c
  obtain ⟨v0, v1, v2, v3, v4⟩ := five
  simp only [Finset.mem_union, mem_rows, sRest]
  omega

theorem s_cover (c : Dev nD) :
    (Finset.univ : Finset (Idx (sL c)))
      = (sJ c 0).set ∪ ((sJ c 1).set ∪ ((sJ c 2).set ∪ ((sJ c 3).set ∪ ((sJ c 4).set ∪ (sO.set ∪ (sRest c).set))))) :=
  (Finset.eq_univ_iff_forall.mpr (s_mem c)).symm

theorem sL_split (c : Dev nD) (q : PosShare TreeShare) (f : Buf (Elt F) (sL c)) :
    (sL c ↦{q} f : sProp 𝕄) ⊣⊢ iprop((sL c ↦[(sJ c 0).set]{q} f) ∗ (sL c ↦[(sJ c 1).set]{q} f) ∗ (sL c ↦[(sJ c 2).set]{q} f) ∗ (sL c ↦[(sJ c 3).set]{q} f) ∗ (sL c ↦[(sJ c 4).set]{q} f) ∗ (sL c ↦[sO.set]{q} f) ∗ (sL c ↦[(sRest c).set]{q} f)) := by
  obtain ⟨hs, hy, e1, e2, e3, e4⟩ := offsets c
  obtain ⟨v0, v1, v2, v3, v4⟩ := five
  refine BiEntails.of_eq ?_
  rw [s_cover c, pointsTo_union_eq (by unfold sRest; slabs_apart), pointsTo_union_eq (by unfold sRest; slabs_apart),
    pointsTo_union_eq (by unfold sRest; slabs_apart), pointsTo_union_eq (by unfold sRest; slabs_apart),
    pointsTo_union_eq (by unfold sRest; slabs_apart), pointsTo_union_eq (by unfold sRest; slabs_apart)]

/-! ## A full share in two halves -/

theorem halves {ℓ : Loc nD τ sig} (I : Finset (Idx ℓ)) (f : Buf (Elt F) ℓ) :
    (ℓ ↦[I]{fullShare} f : sProp 𝕄) ⊣⊢ iprop((ℓ ↦[I]{qL} f) ∗ (ℓ ↦[I]{qR} f)) :=
  pointsTo_share (q := fullShare) (q₁ := qL) (q₂ := qR) (PosShare.mem_left_op_right fullShare)

end Cert.Kernel.AG

end
-- ==== Proof.KB.Values.lean ====
/-
  What each copy of the protocol lands. Every buffer's contents are named as a function of the launch memory: the staging
  scratch holds the device's block of x converted entry by entry, the receive scratch 160 rows of the y-partner's staging
  scratch, the result array both blocks in gathered order. A transfer writes, through its destination slice, what it reads
  through its source slice; on the destination's elements this agrees with the named contents of the destination buffer.
  Each statement is an identity of rows: an element of the destination slice is row (offset of the slice) + a, column b,
  the copy puts there the source buffer's entry at row (offset of the source slice) + a, column b, and the named contents
  of the destination read the same entry of the same staging scratch.
-/
import proofs.«900668_g7700000000000669_dist_ag_v7x_xyz2x2x2_y_m512_n512_bf16_1_alg».proof.Proof.KB.Views
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-! ## The result array, read by rows

  Row 512 q + a of the gathered result (a < 512) belongs to block q. In the device's own block it holds the device's
  staged row a; in the other block it holds row a of the partner's staging scratch — the y-partner's, except on the 160
  rows the x-partner forwards, where it is the x-partner's y-partner's. -/

theorem outC_own (c : Dev nD) (i : S1024x512.Idx) (a : Fin 512) (h0 : (i 0).val = mine c + a.val) :
    outC m c i = stgC m c (ix2 a (i 1)) := by
  have hy := yC_lt c
  have ha := a.isLt
  have hd : (i 0).val / 512 = yC c := by rw [h0]; unfold mine; omega
  have hr : (⟨(i 0).val % 512, Nat.mod_lt _ (by decide)⟩ : Fin 512) = a := Fin.ext (by show (i 0).val % 512 = a.val; rw [h0]; unfold mine; omega)
  unfold outC
  dsimp only
  rw [if_pos hd, hr]

theorem outC_fwd (c : Dev nD) (i : S1024x512.Idx) (a : Fin 512) (h0 : (i 0).val = other c + a.val)
    (hlo : rfw c ≤ a.val) (hhi : a.val < rfw c + 160) :
    outC m c i = stgC m (yN (xN c)) (ix2 a (i 1)) := by
  have hy := yC_lt c
  have ha := a.isLt
  have hd : ¬ (i 0).val / 512 = yC c := by rw [h0]; unfold other; omega
  have hm : (i 0).val % 512 = a.val := by rw [h0]; unfold other; omega
  have hr : (⟨(i 0).val % 512, Nat.mod_lt _ (by decide)⟩ : Fin 512) = a := Fin.ext hm
  unfold outC
  dsimp only
  rw [if_neg hd, if_pos (by rw [hm]; exact ⟨hlo, hhi⟩), hr]

theorem outC_dir (c : Dev nD) (i : S1024x512.Idx) (a : Fin 512) (h0 : (i 0).val = other c + a.val)
    (hout : a.val < rfw c ∨ rfw c + 160 ≤ a.val) :
    outC m c i = stgC m (yN c) (ix2 a (i 1)) := by
  have hy := yC_lt c
  have ha := a.isLt
  have hd : ¬ (i 0).val / 512 = yC c := by rw [h0]; unfold other; omega
  have hm : (i 0).val % 512 = a.val := by rw [h0]; unfold other; omega
  have hr : (⟨(i 0).val % 512, Nat.mod_lt _ (by decide)⟩ : Fin 512) = a := Fin.ext hm
  unfold outC
  dsimp only
  rw [if_neg hd, if_neg (by rw [hm]; omega), hr]

/-- The staging contents at equal devices and equal coordinates. -/
theorem stgC_at {c c' : Dev nD} (h : c = c') (p q : S512x512.Idx) (h0 : (p 0).val = (q 0).val) (h1 : (p 1).val = (q 1).val) :
    stgC m c p = stgC m c' q := by
  subst h
  have : p = q := by
    funext a
    match a with
    | ⟨0, _⟩ => exact Fin.ext h0
    | ⟨1, _⟩ => exact Fin.ext h1
  rw [this]

/-- Which slab a device's x-partner forwards is the one the device itself receives through its receive scratch. -/
theorem rfw_xN (c : Dev nD) : rfw (xN c) = fwd c := by
  have := sP_lt c
  unfold rfw fwd; rw [sP_xN]; omega
theorem fwd_yN (c : Dev nD) : fwd (yN c) = fwd c := by unfold fwd; rw [sP_yN]
theorem rfw_yN (c : Dev nD) : rfw (yN c) = rfw c := by unfold rfw; rw [sP_yN]
theorem other_xN (c : Dev nD) : other (xN c) = other c := by unfold other; rw [yC_xN]

/-! ## The five landings -/

/-- The local copy of the staging scratch into the device's own block: row mine + a of the result takes staged row a. -/
theorem land_own (c : Dev nD) (fd : Buf (Elt F) (oL c)) : ∀ i ∈ (oOwn c).set,
    (oMOwn c).view.write (Elt F) fd (vS.view.read (Elt F) (stgC m c)) Finset.univ i = outC m c i := by
  intro i hi
  rw [← oMOwn_set] at hi
  obtain ⟨x, rfl⟩ := View.exists_emb_of_mem_set _ hi
  rw [View.write_emb_of_mem _ _ (Finset.mem_univ x)]
  have h0 : (((oMOwn c).view.emb x : S1024x512.Idx) 0).val = mine c + (x 0).val := by
    show ((oOwn c).emb x 0).val = _
    rw [Rect.emb_apply]; show mine c + 1 * (x 0).val = _; omega
  have h1 : (((oMOwn c).view.emb x : S1024x512.Idx) 1) = x 1 := by
    apply Fin.ext
    show ((oOwn c).emb x 1).val = _
    rw [Rect.emb_apply]; show 0 + 1 * (x 1).val = _; omega
  rw [outC_own m c _ (x 0) h0, h1]
  exact congrArg (stgC m c) (ValueIdx.eq_ix2 x)

/-- The local copy of the receive scratch into the result: row other + fwd + a takes received row a, which is row fwd + a
    of the y-partner's staging scratch; that row lies outside the slab the x-partner forwards. -/
theorem land_stg (c : Dev nD) (fd : Buf (Elt F) (oL c)) : ∀ i ∈ (oStg c).set,
    (oMStg c).view.write (Elt F) fd (vR.view.read (Elt F) (recvC m c)) Finset.univ i = outC m c i := by
  intro i hi
  rw [← oMStg_set] at hi
  obtain ⟨x, rfl⟩ := View.exists_emb_of_mem_set _ hi
  rw [View.write_emb_of_mem _ _ (Finset.mem_univ x)]
  have hx0 := idx2_lt0 x
  have hs := sP_lt c
  have hf := fwd_le c
  have h0 : (((oMStg c).view.emb x : S1024x512.Idx) 0).val = other c + (fwd c + (x 0).val) := by
    show ((oStg c).emb x 0).val = _
    rw [Rect.emb_apply]; show (other c + fwd c) + 1 * (x 0).val = _; omega
  have h1 : (((oMStg c).view.emb x : S1024x512.Idx) 1) = x 1 := by
    apply Fin.ext
    show ((oStg c).emb x 1).val = _
    rw [Rect.emb_apply]; show 0 + 1 * (x 1).val = _; omega
  rw [outC_dir m c _ ⟨fwd c + (x 0).val, by omega⟩ h0 (by show fwd c + (x 0).val < rfw c ∨ rfw c + 160 ≤ fwd c + (x 0).val; unfold fwd rfw; omega), h1]
  rfl

/-- First-hop transfer j: row 32 j + a of the y-partner's receive scratch takes row fwd + 32 j + a of the sender's staging
    scratch, and the partner's partner is the sender. -/
theorem land_y (c : Dev nD) (j : Fin 5) (fd : Buf (Elt F) (rL (yN c))) : ∀ i ∈ (rJ j).set,
    (vRJ j).view.write (Elt F) fd ((vSJ c j).view.read (Elt F) (stgC m c)) Finset.univ i = recvC m (yN c) i := by
  intro i hi
  rw [← vRJ_set] at hi
  obtain ⟨x, rfl⟩ := View.exists_emb_of_mem_set _ hi
  rw [View.write_emb_of_mem _ _ (Finset.mem_univ x)]
  have hx0 := idx2_lt0 x
  have hj := j.isLt
  have h0 : (((vRJ j).view.emb x : S160x512.Idx) 0).val = 32 * j.val + (x 0).val := by
    show ((rJ j).emb x 0).val = _
    rw [Rect.emb_apply]; show 32 * j.val + 1 * (x 0).val = _; omega
  have h1 : (((vRJ j).view.emb x : S160x512.Idx) 1).val = (x 1).val := by
    show ((rJ j).emb x 1).val = _
    rw [Rect.emb_apply]; show 0 + 1 * (x 1).val = _; omega
  have s0 : (((sJ c j).emb x : S512x512.Idx) 0).val = fwd c + 32 * j.val + (x 0).val := by
    rw [Rect.emb_apply]; show (fwd c + 32 * j.val) + 1 * (x 0).val = _; omega
  have s1 : (((sJ c j).emb x : S512x512.Idx) 1).val = (x 1).val := by
    rw [Rect.emb_apply]; show 0 + 1 * (x 1).val = _; omega
  show stgC m c ((sJ c j).emb x) = stgC m (yN (yN c)) (ix2 ⟨fwd (yN c) + (((vRJ j).view.emb x : S160x512.Idx) 0).val, _⟩ (((vRJ j).view.emb x : S160x512.Idx) 1))
  exact stgC_at m (yN_yN c).symm _ _ (by rw [s0]; show _ = fwd (yN c) + (((vRJ j).view.emb x : S160x512.Idx) 0).val; rw [h0, fwd_yN]; omega)
    (by rw [s1]; exact h1.symm)

/-- The direct slab: row other + 160 + a of the y-partner's result takes row 160 + a of the sender's staging scratch;
    rows [160, 352) lie outside both outer slabs. -/
theorem land_o (c : Dev nD) (fd : Buf (Elt F) (oL (yN c))) : ∀ i ∈ (oDir (yN c)).set,
    (oMDir (yN c)).view.write (Elt F) fd (vSO.view.read (Elt F) (stgC m c)) Finset.univ i = outC m (yN c) i := by
  intro i hi
  rw [← oMDir_set] at hi
  obtain ⟨x, rfl⟩ := View.exists_emb_of_mem_set _ hi
  rw [View.write_emb_of_mem _ _ (Finset.mem_univ x)]
  have hx0 := idx2_lt0 x
  have hs := sP_lt (yN c)
  have h0 : (((oMDir (yN c)).view.emb x : S1024x512.Idx) 0).val = other (yN c) + (160 + (x 0).val) := by
    show ((oDir (yN c)).emb x 0).val = _
    rw [Rect.emb_apply]; show (other (yN c) + 160) + 1 * (x 0).val = _; omega
  have h1 : (((oMDir (yN c)).view.emb x : S1024x512.Idx) 1) = x 1 := by
    apply Fin.ext
    show ((oDir (yN c)).emb x 1).val = _
    rw [Rect.emb_apply]; show 0 + 1 * (x 1).val = _; omega
  have s0 : (((sO).emb x : S512x512.Idx) 0).val = 160 + (x 0).val := by
    rw [Rect.emb_apply]; show 160 + 1 * (x 0).val = _; omega
  have s1 : (((sO).emb x : S512x512.Idx) 1).val = (x 1).val := by
    rw [Rect.emb_apply]; show 0 + 1 * (x 1).val = _; omega
  rw [outC_dir m (yN c) _ ⟨160 + (x 0).val, by omega⟩ h0 (by show 160 + (x 0).val < rfw (yN c) ∨ rfw (yN c) + 160 ≤ 160 + (x 0).val; unfold rfw; omega), h1]
  show stgC m c (sO.emb x) = _
  exact stgC_at m (yN_yN c).symm _ _ s0 s1

/-- Second-hop transfer j: row other + rfw + 32 j + a of the x-partner's result takes row 32 j + a of the sender's receive
    scratch, which is row fwd + 32 j + a of the sender's y-partner's staging scratch. The x-partner holds the same block
    as the sender, the slab it is forwarded is the one the sender received, and its x-partner is the sender. -/
theorem land_f (c : Dev nD) (j : Fin 5) (fd : Buf (Elt F) (oL (xN c))) : ∀ i ∈ (oFJ (xN c) j).set,
    (oMFJ (xN c) j).view.write (Elt F) fd ((vRJ j).view.read (Elt F) (recvC m c)) Finset.univ i = outC m (xN c) i := by
  intro i hi
  rw [← oMFJ_set] at hi
  obtain ⟨x, rfl⟩ := View.exists_emb_of_mem_set _ hi
  rw [View.write_emb_of_mem _ _ (Finset.mem_univ x)]
  have hx0 := idx2_lt0 x
  have hj := j.isLt
  have hr := rfw_le (xN c)
  have hf := fwd_le c
  have h0 : (((oMFJ (xN c) j).view.emb x : S1024x512.Idx) 0).val = other (xN c) + (rfw (xN c) + 32 * j.val + (x 0).val) := by
    show ((oFJ (xN c) j).emb x 0).val = _
    rw [Rect.emb_apply]; show (other (xN c) + rfw (xN c) + 32 * j.val) + 1 * (x 0).val = _; omega
  have h1 : (((oMFJ (xN c) j).view.emb x : S1024x512.Idx) 1) = x 1 := by
    apply Fin.ext
    show ((oFJ (xN c) j).emb x 1).val = _
    rw [Rect.emb_apply]; show 0 + 1 * (x 1).val = _; omega
  have s0 : (((rJ j).emb x : S160x512.Idx) 0).val = 32 * j.val + (x 0).val := by
    rw [Rect.emb_apply]; show 32 * j.val + 1 * (x 0).val = _; omega
  have s1 : (((rJ j).emb x : S160x512.Idx) 1).val = (x 1).val := by
    rw [Rect.emb_apply]; show 0 + 1 * (x 1).val = _; omega
  rw [outC_fwd m (xN c) _ ⟨rfw (xN c) + 32 * j.val + (x 0).val, by omega⟩ h0 (by show rfw (xN c) ≤ rfw (xN c) + 32 * j.val + (x 0).val; omega)
    (by show rfw (xN c) + 32 * j.val + (x 0).val < rfw (xN c) + 160; omega), h1]
  show stgC m (yN c) (ix2 ⟨fwd c + (((rJ j).emb x : S160x512.Idx) 0).val, _⟩ (((rJ j).emb x : S160x512.Idx) 1)) = _
  exact stgC_at m (by rw [xN_xN]) _ _ (by show fwd c + (((rJ j).emb x : S160x512.Idx) 0).val = rfw (xN c) + 32 * j.val + (x 0).val; rw [s0, rfw_xN]; omega) s1

end Cert.Kernel.AG

end
-- ==== Proof.KB.Stores.lean ====
/-
  The three vector stores that fill the staging scratch: each writes, through a slab of rows, the conversion to bf16 of the
  same rows of the staged block. The three slabs tile the 512 rows, so afterwards the scratch holds the block converted
  entry by entry, whatever it held before.
-/
import proofs.«900668_g7700000000000669_dist_ag_v7x_xyz2x2x2_y_m512_n512_bf16_1_alg».proof.Proof.KB.Views
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

namespace Stores

/-! ## An update of a block at an index -/

/-- Inside the updated block the array takes the update, at the index shifted by the block's start. -/
theorem updateSlice_of_mem {α : Type} {s u : Shape} (x : s.Idx → α) (upd : u.Idx → α) (start : Fin s.rank → ℕ)
    (h : s.Slices start u) (i : s.Idx) (y : u.Idx)
    (hy : ∀ a : Fin s.rank, (i a).val = start a + (y (a.cast h.1.symm)).val) :
    updateSlice x upd start h i = upd y := by
  unfold updateSlice
  rw [dif_pos fun a => ⟨by have := hy a; omega, by have := hy a; have := (y (a.cast h.1.symm)).isLt; omega⟩]
  congr 1
  funext b
  apply Fin.ext
  have := hy (b.cast h.1)
  show (i (b.cast h.1)).val - start (b.cast h.1) = (y b).val
  have e : (b.cast h.1).cast h.1.symm = b := rfl
  rw [e] at this
  omega

/-- Off the updated block on some axis the array keeps its value. -/
theorem updateSlice_of_not_mem {α : Type} {s u : Shape} (x : s.Idx → α) (upd : u.Idx → α) (start : Fin s.rank → ℕ)
    (h : s.Slices start u) (i : s.Idx) (a : Fin s.rank)
    (ha : (i a).val < start a ∨ start a + u.size (a.cast h.1.symm) ≤ (i a).val) :
    updateSlice x upd start h i = x i := by
  unfold updateSlice
  rw [dif_neg fun hin => by have := hin a; omega]

/-! ## One store through a slab of rows -/

/-- A store on every index through a slab of the staging scratch updates that block of the scratch. -/
theorem slab_write {n : ℕ} (off : Fin 2 → ℕ) (inb : ∀ a, off a + (![n, 512] : Fin 2 → ℕ) a ≤ S512x512.size a)
    (f : (cc0_scratch0 : Ref sig .tc).ty.Contents (Elt F)) (w : (Rect.unit (s := S512x512) off ![n, 512] inb).shape.Idx → Elt F .bf16) :
    (vS.access (Rect.unit (s := S512x512) off ![n, 512] inb)).write (Elt F) f w Finset.univ
      = updateSlice (s := S512x512) f w off ⟨rfl, inb⟩ :=
  View.write_whole_slice_unit (cc0_scratch0 : Ref sig .tc) off ![n, 512] inb f w

/-- The staged block loaded through a slab, at the slab's index under a buffer index, is the block there. -/
theorem slab_load {n : ℕ} (off : Fin 2 → ℕ) (inb : ∀ a, off a + (![n, 512] : Fin 2 → ℕ) a ≤ S512x512.size a)
    (X : (cc0_stg0_0 : Ref sig .tc).ty.Contents (Elt F)) (i : S512x512.Idx) (y : (⟨2, ![n, 512]⟩ : Shape).Idx)
    (hy : ∀ a : Fin 2, (i a).val = off a + (y a).val) :
    xM.view.readAt (Elt F) (Rect.unit (s := S512x512) off ![n, 512] inb).toLoadRect X y = X i := by
  show X ((Rect.unit (s := S512x512) off ![n, 512] inb).toLoadRect.idx y) = X i
  refine congrArg X (funext fun a => Fin.ext ?_)
  rw [LoadRect.idx_apply]
  show off a + 1 * (y a).val = (i a).val
  have := hy a
  omega

/-- The three payloads: a cast to the same shape is the identity, so each is the conversion of what was loaded. -/
theorem pay1_eq (v : Vec F S160x512 .f32) : k0_pay1 v = truncf .bf16 (v : FVec F S160x512 .f32) bitsLt_bf16_f32 := by
  show shapeCast S160x512 (truncf .bf16 (shapeCast S160x512 v shapeCasts_S160x512_S160x512) bitsLt_bf16_f32) shapeCasts_S160x512_S160x512 = _
  rw [shapeCast_self, shapeCast_self]
theorem pay2_eq (v : Vec F S192x512 .f32) : k0_pay2 v = truncf .bf16 (v : FVec F S192x512 .f32) bitsLt_bf16_f32 := by
  show shapeCast S192x512 (truncf .bf16 (shapeCast S192x512 v shapeCasts_S192x512_S192x512) bitsLt_bf16_f32) shapeCasts_S192x512_S192x512 = _
  rw [shapeCast_self, shapeCast_self]
theorem pay3_eq (v : Vec F S160x512 .f32) : k0_pay3 v = truncf .bf16 (v : FVec F S160x512 .f32) bitsLt_bf16_f32 := by
  show shapeCast S160x512 (truncf .bf16 (shapeCast S160x512 v shapeCasts_S160x512_S160x512) bitsLt_bf16_f32) shapeCasts_S160x512_S160x512 = _
  rw [shapeCast_self, shapeCast_self]

/-- The conversion of the block loaded through a slab, at the slab's index under a buffer index, is the converted block there. -/
theorem slab_conv {n : ℕ} (off : Fin 2 → ℕ) (inb : ∀ a, off a + (![n, 512] : Fin 2 → ℕ) a ≤ S512x512.size a)
    (c : Dev nD) (i : S512x512.Idx) (y : (⟨2, ![n, 512]⟩ : Shape).Idx) (hy : ∀ a : Fin 2, (i a).val = off a + (y a).val) :
    (truncf .bf16 (xM.view.readAt (Elt F) (Rect.unit (s := S512x512) off ![n, 512] inb).toLoadRect (xstg m c) : FVec F ⟨2, ![n, 512]⟩ .f32)
      bitsLt_bf16_f32 : FVec F ⟨2, ![n, 512]⟩ .bf16) y = stgC m c i :=
  congrArg (FloatOps.truncf .bf16 bitsLt_bf16_f32) (slab_load off inb (xstg m c) i y hy)

/-- A row inside the slab: after the store of the converted rows the scratch holds the converted block there. -/
theorem slab_store_of_mem {n : ℕ} (off : Fin 2 → ℕ) (inb : ∀ a, off a + (![n, 512] : Fin 2 → ℕ) a ≤ S512x512.size a)
    (c : Dev nD) (g : (cc0_scratch0 : Ref sig .tc).ty.Contents (Elt F)) (i : S512x512.Idx)
    (h0 : off 0 ≤ (i 0).val) (hn : (i 0).val < off 0 + n) (h1 : off 1 = 0) :
    updateSlice (s := S512x512) g
      (truncf .bf16 (xM.view.readAt (Elt F) (Rect.unit (s := S512x512) off ![n, 512] inb).toLoadRect (xstg m c) : FVec F ⟨2, ![n, 512]⟩ .f32)
        bitsLt_bf16_f32 : FVec F ⟨2, ![n, 512]⟩ .bf16) off ⟨rfl, inb⟩ i = stgC m c i := by
  have hy : ∀ a : Fin 2, (i a).val
      = off a + ((ix2 (⟨(i 0).val - off 0, by omega⟩ : Fin n) (i 1) : (⟨2, ![n, 512]⟩ : Shape).Idx) a).val := fun a =>
    match a with
    | ⟨0, _⟩ => by show (i 0).val = off 0 + ((i 0).val - off 0); omega
    | ⟨1, _⟩ => by show (i 1).val = off 1 + (i 1).val; omega
  exact (updateSlice_of_mem _ _ _ _ i _ hy).trans (slab_conv m off inb c i _ hy)

/-- A row outside the slab: the store leaves the scratch as it was there. -/
theorem slab_store_of_not_mem {n : ℕ} (off : Fin 2 → ℕ) (inb : ∀ a, off a + (![n, 512] : Fin 2 → ℕ) a ≤ S512x512.size a)
    (g : (cc0_scratch0 : Ref sig .tc).ty.Contents (Elt F)) (w : (⟨2, ![n, 512]⟩ : Shape).Idx → Elt F .bf16) (i : S512x512.Idx)
    (h : (i 0).val < off 0 ∨ off 0 + n ≤ (i 0).val) :
    updateSlice (s := S512x512) g w off ⟨rfl, inb⟩ i = g i :=
  updateSlice_of_not_mem _ _ _ _ i 0 h

end Stores

/-! ## The three stores -/

/-- The three slabs — rows [352 s, 352 s + 160), [160, 352) and [352 (1 - s), 352 (1 - s) + 160), s the device's parity — tile
    the 512 rows: whatever the scratch held, after the three stores it holds the device's block converted to bf16. -/
theorem stores_stgC (c : Dev nD) (f0 : Buf (Elt F) (sL c)) :
    (vS.access (Rect.unit (s := S512x512) (k0_off2 c) ![160, 512] (k0_off2_inb c))).write (Elt F)
      ((vS.access (Rect.unit (s := S512x512) ![160, 0] ![192, 512] inb_S512x512_S192x512_160_0)).write (Elt F)
        ((vS.access (Rect.unit (s := S512x512) (k0_off1 c) ![160, 512] (k0_off1_inb c))).write (Elt F) f0
          (k0_pay1 (xM.view.readAt (Elt F) (Rect.unit (s := S512x512) (k0_off1 c) ![160, 512] (k0_off1_inb c)).toLoadRect (xstg m c))) Finset.univ)
        (k0_pay2 (xM.view.readAt (Elt F) (Rect.unit (s := S512x512) ![160, 0] ![192, 512] inb_S512x512_S192x512_160_0).toLoadRect (xstg m c))) Finset.univ)
      (k0_pay3 (xM.view.readAt (Elt F) (Rect.unit (s := S512x512) (k0_off2 c) ![160, 512] (k0_off2_inb c)).toLoadRect (xstg m c))) Finset.univ
    = stgC m c := by
  rw [Stores.slab_write, Stores.slab_write, Stores.slab_write, Stores.pay1_eq, Stores.pay2_eq, Stores.pay3_eq]
  refine funext fun (i : S512x512.Idx) => ?_
  have h10 : k0_off1 c 0 = 352 * sP c := congrFun (off1_eq c) 0
  have h11 : k0_off1 c 1 = 0 := congrFun (off1_eq c) 1
  have h20 : k0_off2 c 0 = 352 * (1 - sP c) := congrFun (off2_eq c) 0
  have h21 : k0_off2 c 1 = 0 := congrFun (off2_eq c) 1
  have hs := sP_lt c
  have hi0 := idx2_lt0 i
  by_cases hA : k0_off2 c 0 ≤ (i 0).val ∧ (i 0).val < k0_off2 c 0 + 160
  · exact Stores.slab_store_of_mem m _ (k0_off2_inb c) c _ i hA.1 hA.2 h21
  · refine (Stores.slab_store_of_not_mem _ (k0_off2_inb c) _ _ i (by omega)).trans ?_
    by_cases hB : 160 ≤ (i 0).val ∧ (i 0).val < 160 + 192
    · exact Stores.slab_store_of_mem m _ inb_S512x512_S192x512_160_0 c _ i hB.1 hB.2 rfl
    · refine (Stores.slab_store_of_not_mem _ inb_S512x512_S192x512_160_0 _ _ i
        (show (i 0).val < 160 ∨ 160 + 192 ≤ (i 0).val by omega)).trans ?_
      exact Stores.slab_store_of_mem m _ (k0_off1_inb c) c _ i (by omega) (by omega) h11

end Cert.Kernel.AG

end
-- ==== Proof.KB.Body.lean ====
/-
  The kernel body on one device, from what the launch deals it to what it hands back: the two units to the partners'
  barriers with the buffers they may write; the block converted into the staging scratch and copied to its place; then,
  once both partners are inside, the first hop, the direct slab, the second hop piece by piece as the first hop lands;
  at the end every transfer's two sides are waited for, and the three buffers are whole again.
-/
import proofs.«900668_g7700000000000669_dist_ag_v7x_xyz2x2x2_y_m512_n512_bf16_1_alg».proof.Proof.KB.Rules
import proofs.«900668_g7700000000000669_dist_ag_v7x_xyz2x2x2_y_m512_n512_bf16_1_alg».proof.Proof.KB.Regions
import proofs.«900668_g7700000000000669_dist_ag_v7x_xyz2x2x2_y_m512_n512_bf16_1_alg».proof.Proof.KB.Values
import proofs.«900668_g7700000000000669_dist_ag_v7x_xyz2x2x2_y_m512_n512_bf16_1_alg».proof.Proof.KB.Levels
import proofs.«900668_g7700000000000669_dist_ag_v7x_xyz2x2x2_y_m512_n512_bf16_1_alg».proof.Proof.KB.Stores
import proofs.«900668_g7700000000000669_dist_ag_v7x_xyz2x2x2_y_m512_n512_bf16_1_alg».proof.Proof.Gen.Kernel.Points

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

variable (K : Dev nD × Fin 25 → ℕ)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin25 (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
theorem bigSep_fin24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ (oL c ↦{fullShare} m (oL c)) ∗ (∃ f, sL c ↦{fullShare} f) ∗ (∃ f, rL c ↦{fullShare} f))
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

set_option maxRecDepth 65536 in
set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7) Kt := by
  simp only [cc0_body_eq_skeleton]; unfold cc0_body_skel
  simp only [k0_part13_eq_skeleton]; unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre ghost posAll payToks creds
  rw [bigSep_fin25]
  simp only [bigSep_fin5]
  iintro ⟨⟨⟨⟨#Hrec, ⟨Ha0, Ha1, Ha2, Ha3, Ha4, Ha5, Ha6, Ha7, Ha8, Ha9, Ha10, Ha11, Ha12, Ha13, Ha14, Ha15, Ha16, Ha17, Ha18, Ha19, Ha20, Ha21, Ha22, Ha23, Ha24⟩, HtBY, HtBX, ⟨HtYR0, HtYR1, HtYR2, HtYR3, HtYR4⟩, HtOR, ⟨HtFR0, HtFR1, HtFR2, HtFR3, HtFR4⟩,
      ⟨HtYS0, HtYS1, HtYS2, HtYS3, HtYS4⟩, HtOS, ⟨HtFS0, HtFS1, HtFS2, HtFS3, HtFS4⟩, HtOwn, HtStg⟩,
      ⟨HcB, ⟨HcYR0, HcYR1, HcYR2, HcYR3, HcYR4⟩, HcOR, ⟨HcFR0, HcFR1, HcFR2, HcFR3, HcFR4⟩⟩, #Hlev, Hout, ⟨%fs0, Hs⟩, ⟨%fr0, Hr⟩⟩,
    Ho, ⟨%d0, %g0, %hg0, Hx⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  -- the result array cut into its four slabs
  ihave Ho4 := (oL_split (F := F) c fullShare (m (oL c))).1 $$ Hout
  icases Ho4 with ⟨Hown, Hdir, Hstg, Hfwd⟩
  -- the unit to the y-partner's barrier
  iapply (wp_sigY m K c _ (dev1_eq c) (by decide) W) $$ [HO HtBY Hr Hdir]
  · isplitr; · iapply (inv_at m K (yN c, 0)); iexact Hrec
    isplitl [HO]; · iexact HO
    isplitl [HtBY]; · iexact HtBY
    isplitl [Hr Hdir]
    · isplitl [Hr]; · iexists fr0; iexact Hr
      iexists _; iexact Hdir
    · iapply (reached_at m K (yN c, 0)); iexact Hrec
  iintro HO
  -- the unit to the x-partner's barrier
  iapply (wp_sigX m K c _ (dev2_eq c) (by decide) W) $$ [HO HtBX Hfwd]
  · isplitr; · iapply (inv_at m K (xN c, 0)); iexact Hrec
    isplitl [HO]; · iexact HO
    isplitl [HtBX]; · iexact HtBX
    isplitl [Hfwd]; · iexists _; iexact Hfwd
    iapply (reached_at m K (xN c, 0)); iexact Hrec
  iintro HO
  -- the block converted into the staging scratch, slab by slab
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) (k0_off1 c) ![160, 512] (k0_off1_inb c))) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) ![160, 0] ![192, 512] inb_S512x512_S192x512_160_0)) (Mk := Finset.univ) (Finset.subset_univ _)) $$ Hs; iintro Hs
  iapply (wp_load 𝒱₀ (c : Thread nD τ) none Set.univ (m := xM) (Finset.subset_univ _)) $$ Hx; iintro Hx
  iapply (wp_load 𝒱₀ (c : Thread nD τ) none Set.univ (m := vS) (Finset.subset_univ _)) $$ Hs; iintro Hs
  iapply (wp_store 𝒱₀ (c : Thread nD τ) none Set.univ (m := vS) (r := (Rect.unit (s := S512x512) (k0_off2 c) ![160, 512] (k0_off2_inb c))) (Mk := Finset.univ) (Finset.subset_univ _)) $$ Hs; iintro Hs
  -- what the staging scratch now holds: the block, every entry converted
  rw [stores_stgC m c fs0]
  ihave HsC : (sL c ↦{fullShare} stgC m c) $$ [Hs]
  · iexact Hs
  ihave Hs2 := (halves (F := F) (ℓ := sL c) Finset.univ (stgC m c)).1 $$ HsC
  icases Hs2 with ⟨HsL, HsR⟩
  -- the block copied into its place in the result
  iapply (wp_own m K c (p_oMOwn c) rfl (m (oL c)) (land_own m c (m (oL c)))) $$ [HsL Hown HtOwn]
  · isplitr; · iapply (inv_at m K (c, kOwn)); iexact Hrec
    isplitl [HsL]; · iexact HsL
    isplitl [Hown]; · iexact Hown
    isplitl [HtOwn]; · iexact HtOwn
    iapply (reached_at m K (c, kOwn)); iexact Hrec
  iintro HcOwn
  -- both partners are inside: their buffers come with their units
  iapply (wp_waitBar m K c (by decide) (OY0 c) W) $$ [HcB HO Ha0]
  · isplitr; · iapply (inv_at m K (c, 0)); iexact Hrec
    isplitl [HcB]; · iexact HcB
    isplitl [HO]; · iexact HO
    isplitr; · iapply (mayWait_bar (F := F) c); iexact Hlev
    iexact Ha0
  iintro ⟨HO, Ha0, HpY, HpX⟩
  unfold barPayY barPayX
  icases HpY with ⟨⟨%frN, HrN⟩, ⟨%foD, HdirN⟩⟩
  icases HpX with ⟨%foF, HfwdN⟩
  ihave HrN5 := (rL_split (F := F) (yN c) fullShare frN).1 $$ HrN
  icases HrN5 with ⟨HrN0, HrN1, HrN2, HrN3, HrN4⟩
  ihave Hs7 := (sL_split (F := F) c qR (stgC m c)).1 $$ HsR
  icases Hs7 with ⟨Hs0, Hs1, Hs2, Hs3, Hs4, HsO, HsRest⟩
  ihave HfN5 := (oFwd_split (F := F) (xN c) fullShare foF).1 $$ HfwdN
  icases HfN5 with ⟨HfN0, HfN1, HfN2, HfN3, HfN4⟩
  -- first-hop transfer 0
  unfold OY0
  iapply (wp_ysend m K c _ (dev3_eq c) 0 (p_vSJ c 0) rfl rfl rfl frN (OY1 c) _ (land_y m c 0 frN)) $$ [Hs0 HrN0 HO HtYS0 HtYR0]
  · isplitr; · iapply (inv_at m K (c, kYS 0)); iexact Hrec
    isplitr; · iapply (inv_at m K (yN c, kYR 0)); iexact Hrec
    isplitl [Hs0]; · iexact Hs0
    isplitl [HrN0]; · iexact HrN0
    isplitl [HO]; · iexact HO
    isplitl [HtYS0]; · iexact HtYS0
    isplitr; · iapply (reached_at m K (c, kYS 0)); iexact Hrec
    isplitl [HtYR0]; · iexact HtYR0
    iapply (reached_at m K (yN c, kYR 0)); iexact Hrec
  iintro ⟨HcYS0, HO⟩
  -- first-hop transfer 1
  unfold OY1
  iapply (wp_ysend m K c _ (dev4_eq c) 1 (p_vSJ c 1) rfl rfl rfl frN (OY2 c) _ (land_y m c 1 frN)) $$ [Hs1 HrN1 HO HtYS1 HtYR1]
  · isplitr; · iapply (inv_at m K (c, kYS 1)); iexact Hrec
    isplitr; · iapply (inv_at m K (yN c, kYR 1)); iexact Hrec
    isplitl [Hs1]; · iexact Hs1
    isplitl [HrN1]; · iexact HrN1
    isplitl [HO]; · iexact HO
    isplitl [HtYS1]; · iexact HtYS1
    isplitr; · iapply (reached_at m K (c, kYS 1)); iexact Hrec
    isplitl [HtYR1]; · iexact HtYR1
    iapply (reached_at m K (yN c, kYR 1)); iexact Hrec
  iintro ⟨HcYS1, HO⟩
  -- first-hop transfer 2
  unfold OY2
  iapply (wp_ysend m K c _ (dev5_eq c) 2 (p_vSJ c 2) rfl rfl rfl frN (OY3 c) _ (land_y m c 2 frN)) $$ [Hs2 HrN2 HO HtYS2 HtYR2]
  · isplitr; · iapply (inv_at m K (c, kYS 2)); iexact Hrec
    isplitr; · iapply (inv_at m K (yN c, kYR 2)); iexact Hrec
    isplitl [Hs2]; · iexact Hs2
    isplitl [HrN2]; · iexact HrN2
    isplitl [HO]; · iexact HO
    isplitl [HtYS2]; · iexact HtYS2
    isplitr; · iapply (reached_at m K (c, kYS 2)); iexact Hrec
    isplitl [HtYR2]; · iexact HtYR2
    iapply (reached_at m K (yN c, kYR 2)); iexact Hrec
  iintro ⟨HcYS2, HO⟩
  -- first-hop transfer 3
  unfold OY3
  iapply (wp_ysend m K c _ (dev6_eq c) 3 (p_vSJ c 3) rfl rfl rfl frN (OY4 c) _ (land_y m c 3 frN)) $$ [Hs3 HrN3 HO HtYS3 HtYR3]
  · isplitr; · iapply (inv_at m K (c, kYS 3)); iexact Hrec
    isplitr; · iapply (inv_at m K (yN c, kYR 3)); iexact Hrec
    isplitl [Hs3]; · iexact Hs3
    isplitl [HrN3]; · iexact HrN3
    isplitl [HO]; · iexact HO
    isplitl [HtYS3]; · iexact HtYS3
    isplitr; · iapply (reached_at m K (c, kYS 3)); iexact Hrec
    isplitl [HtYR3]; · iexact HtYR3
    iapply (reached_at m K (yN c, kYR 3)); iexact Hrec
  iintro ⟨HcYS3, HO⟩
  -- first-hop transfer 4
  unfold OY4
  iapply (wp_ysend m K c _ (dev7_eq c) 4 (p_vSJ c 4) rfl rfl rfl frN (OO c) _ (land_y m c 4 frN)) $$ [Hs4 HrN4 HO HtYS4 HtYR4]
  · isplitr; · iapply (inv_at m K (c, kYS 4)); iexact Hrec
    isplitr; · iapply (inv_at m K (yN c, kYR 4)); iexact Hrec
    isplitl [Hs4]; · iexact Hs4
    isplitl [HrN4]; · iexact HrN4
    isplitl [HO]; · iexact HO
    isplitl [HtYS4]; · iexact HtYS4
    isplitr; · iapply (reached_at m K (c, kYS 4)); iexact Hrec
    isplitl [HtYR4]; · iexact HtYR4
    iapply (reached_at m K (yN c, kYR 4)); iexact Hrec
  iintro ⟨HcYS4, HO⟩
  -- the direct slab
  unfold OO
  iapply (wp_ovsend m K c _ (dev8_eq c) rfl (p_oMDir_send c) rfl rfl foD (OF0 c) _ (land_o m c foD)) $$ [HsO HdirN HO HtOS HtOR]
  · isplitr; · iapply (inv_at m K (c, kOS)); iexact Hrec
    isplitr; · iapply (inv_at m K (yN c, kOR)); iexact Hrec
    isplitl [HsO]; · iexact HsO
    isplitl [HdirN]; · iexact HdirN
    isplitl [HO]; · iexact HO
    isplitl [HtOS]; · iexact HtOS
    isplitr; · iapply (reached_at m K (c, kOS)); iexact Hrec
    isplitl [HtOR]; · iexact HtOR
    iapply (reached_at m K (yN c, kOR)); iexact Hrec
  iintro ⟨HcOS, HO⟩
  -- first-hop piece 0 has landed: its halves, and its forwarding to the x-partner
  iapply (wp_waitX m K c (kYR 0) (kYR_ne 0) (wpE_waitDma2_eq 𝒱₀ (c : Thread nD τ) none Set.univ) rfl rfl (OF0 c) _) $$ [HcYR0 HO Ha6]
  · isplitr; · iapply (inv_at m K (c, (kYR 0))); iexact Hrec
    isplitl [HcYR0]; · iexact HcYR0
    isplitl [HO]; · iexact HO
    isplitr; · iapply (mayWait_yr (F := F) c 0); iexact Hlev
    iexact Ha6
  iintro ⟨HO, Ha6, Hp⟩
  ihave Hr0 := (Entails.of_eq (pay_YR m c 0 false)) $$ Hp
  ihave Hr0h := (halves (F := F) (ℓ := rL c) (rJ 0).set (recvC m c)).1 $$ Hr0
  icases Hr0h with ⟨HrL0, HrR0⟩
  unfold OF0
  iapply (wp_fsend m K c _ (dev9_eq c) 0 rfl (p_oMFJ_send c 0) rfl rfl foF (OF1 c) _ (land_f m c 0 foF)) $$ [HrR0 HfN0 HO HtFS0 HtFR0]
  · isplitr; · iapply (inv_at m K (c, kFS 0)); iexact Hrec
    isplitr; · iapply (inv_at m K (xN c, kFR 0)); iexact Hrec
    isplitl [HrR0]; · iexact HrR0
    isplitl [HfN0]; · iexact HfN0
    isplitl [HO]; · iexact HO
    isplitl [HtFS0]; · iexact HtFS0
    isplitr; · iapply (reached_at m K (c, kFS 0)); iexact Hrec
    isplitl [HtFR0]; · iexact HtFR0
    iapply (reached_at m K (xN c, kFR 0)); iexact Hrec
  iintro ⟨HcFS0, HO⟩
  -- first-hop piece 1 has landed: its halves, and its forwarding to the x-partner
  iapply (wp_waitX m K c (kYR 1) (kYR_ne 1) (wpE_waitDma2_eq 𝒱₀ (c : Thread nD τ) none Set.univ) rfl rfl (OF1 c) _) $$ [HcYR1 HO Ha7]
  · isplitr; · iapply (inv_at m K (c, (kYR 1))); iexact Hrec
    isplitl [HcYR1]; · iexact HcYR1
    isplitl [HO]; · iexact HO
    isplitr; · iapply (mayWait_yr (F := F) c 1); iexact Hlev
    iexact Ha7
  iintro ⟨HO, Ha7, Hp⟩
  ihave Hr1 := (Entails.of_eq (pay_YR m c 1 false)) $$ Hp
  ihave Hr1h := (halves (F := F) (ℓ := rL c) (rJ 1).set (recvC m c)).1 $$ Hr1
  icases Hr1h with ⟨HrL1, HrR1⟩
  unfold OF1
  iapply (wp_fsend m K c _ (dev10_eq c) 1 rfl (p_oMFJ_send c 1) rfl rfl foF (OF2 c) _ (land_f m c 1 foF)) $$ [HrR1 HfN1 HO HtFS1 HtFR1]
  · isplitr; · iapply (inv_at m K (c, kFS 1)); iexact Hrec
    isplitr; · iapply (inv_at m K (xN c, kFR 1)); iexact Hrec
    isplitl [HrR1]; · iexact HrR1
    isplitl [HfN1]; · iexact HfN1
    isplitl [HO]; · iexact HO
    isplitl [HtFS1]; · iexact HtFS1
    isplitr; · iapply (reached_at m K (c, kFS 1)); iexact Hrec
    isplitl [HtFR1]; · iexact HtFR1
    iapply (reached_at m K (xN c, kFR 1)); iexact Hrec
  iintro ⟨HcFS1, HO⟩
  -- first-hop piece 2 has landed: its halves, and its forwarding to the x-partner
  iapply (wp_waitX m K c (kYR 2) (kYR_ne 2) (wpE_waitDma2_eq 𝒱₀ (c : Thread nD τ) none Set.univ) rfl rfl (OF2 c) _) $$ [HcYR2 HO Ha8]
  · isplitr; · iapply (inv_at m K (c, (kYR 2))); iexact Hrec
    isplitl [HcYR2]; · iexact HcYR2
    isplitl [HO]; · iexact HO
    isplitr; · iapply (mayWait_yr (F := F) c 2); iexact Hlev
    iexact Ha8
  iintro ⟨HO, Ha8, Hp⟩
  ihave Hr2 := (Entails.of_eq (pay_YR m c 2 false)) $$ Hp
  ihave Hr2h := (halves (F := F) (ℓ := rL c) (rJ 2).set (recvC m c)).1 $$ Hr2
  icases Hr2h with ⟨HrL2, HrR2⟩
  unfold OF2
  iapply (wp_fsend m K c _ (dev11_eq c) 2 rfl (p_oMFJ_send c 2) rfl rfl foF (OF3 c) _ (land_f m c 2 foF)) $$ [HrR2 HfN2 HO HtFS2 HtFR2]
  · isplitr; · iapply (inv_at m K (c, kFS 2)); iexact Hrec
    isplitr; · iapply (inv_at m K (xN c, kFR 2)); iexact Hrec
    isplitl [HrR2]; · iexact HrR2
    isplitl [HfN2]; · iexact HfN2
    isplitl [HO]; · iexact HO
    isplitl [HtFS2]; · iexact HtFS2
    isplitr; · iapply (reached_at m K (c, kFS 2)); iexact Hrec
    isplitl [HtFR2]; · iexact HtFR2
    iapply (reached_at m K (xN c, kFR 2)); iexact Hrec
  iintro ⟨HcFS2, HO⟩
  -- first-hop piece 3 has landed: its halves, and its forwarding to the x-partner
  iapply (wp_waitX m K c (kYR 3) (kYR_ne 3) (wpE_waitDma2_eq 𝒱₀ (c : Thread nD τ) none Set.univ) rfl rfl (OF3 c) _) $$ [HcYR3 HO Ha9]
  · isplitr; · iapply (inv_at m K (c, (kYR 3))); iexact Hrec
    isplitl [HcYR3]; · iexact HcYR3
    isplitl [HO]; · iexact HO
    isplitr; · iapply (mayWait_yr (F := F) c 3); iexact Hlev
    iexact Ha9
  iintro ⟨HO, Ha9, Hp⟩
  ihave Hr3 := (Entails.of_eq (pay_YR m c 3 false)) $$ Hp
  ihave Hr3h := (halves (F := F) (ℓ := rL c) (rJ 3).set (recvC m c)).1 $$ Hr3
  icases Hr3h with ⟨HrL3, HrR3⟩
  unfold OF3
  iapply (wp_fsend m K c _ (dev12_eq c) 3 rfl (p_oMFJ_send c 3) rfl rfl foF (OF4 c) _ (land_f m c 3 foF)) $$ [HrR3 HfN3 HO HtFS3 HtFR3]
  · isplitr; · iapply (inv_at m K (c, kFS 3)); iexact Hrec
    isplitr; · iapply (inv_at m K (xN c, kFR 3)); iexact Hrec
    isplitl [HrR3]; · iexact HrR3
    isplitl [HfN3]; · iexact HfN3
    isplitl [HO]; · iexact HO
    isplitl [HtFS3]; · iexact HtFS3
    isplitr; · iapply (reached_at m K (c, kFS 3)); iexact Hrec
    isplitl [HtFR3]; · iexact HtFR3
    iapply (reached_at m K (xN c, kFR 3)); iexact Hrec
  iintro ⟨HcFS3, HO⟩
  -- first-hop piece 4 has landed: its halves, and its forwarding to the x-partner
  iapply (wp_waitX m K c (kYR 4) (kYR_ne 4) (wpE_waitDma2_eq 𝒱₀ (c : Thread nD τ) none Set.univ) rfl rfl (OF4 c) _) $$ [HcYR4 HO Ha10]
  · isplitr; · iapply (inv_at m K (c, (kYR 4))); iexact Hrec
    isplitl [HcYR4]; · iexact HcYR4
    isplitl [HO]; · iexact HO
    isplitr; · iapply (mayWait_yr (F := F) c 4); iexact Hlev
    iexact Ha10
  iintro ⟨HO, Ha10, Hp⟩
  ihave Hr4 := (Entails.of_eq (pay_YR m c 4 false)) $$ Hp
  ihave Hr4h := (halves (F := F) (ℓ := rL c) (rJ 4).set (recvC m c)).1 $$ Hr4
  icases Hr4h with ⟨HrL4, HrR4⟩
  unfold OF4
  iapply (wp_fsend m K c _ (dev13_eq c) 4 rfl (p_oMFJ_send c 4) rfl rfl foF OF5 _ (land_f m c 4 foF)) $$ [HrR4 HfN4 HO HtFS4 HtFR4]
  · isplitr; · iapply (inv_at m K (c, kFS 4)); iexact Hrec
    isplitr; · iapply (inv_at m K (xN c, kFR 4)); iexact Hrec
    isplitl [HrR4]; · iexact HrR4
    isplitl [HfN4]; · iexact HfN4
    isplitl [HO]; · iexact HO
    isplitl [HtFS4]; · iexact HtFS4
    isplitr; · iapply (reached_at m K (c, kFS 4)); iexact Hrec
    isplitl [HtFR4]; · iexact HtFR4
    iapply (reached_at m K (xN c, kFR 4)); iexact Hrec
  iintro ⟨HcFS4, HO⟩
  -- the receive scratch, whole at its left half, copied into its slab of the result
  unfold OF5
  ihave Hrl := (rL_split (F := F) c qL (recvC m c)).2 $$ [HrL0 HrL1 HrL2 HrL3 HrL4]
  · isplitl [HrL0]; · iexact HrL0
    isplitl [HrL1]; · iexact HrL1
    isplitl [HrL2]; · iexact HrL2
    isplitl [HrL3]; · iexact HrL3
    iexact HrL4
  iapply (wp_stgcopy m K c (p_oMStg c) rfl (m (oL c)) (land_stg m c (m (oL c)))) $$ [Hrl Hstg HtStg]
  · isplitr; · iapply (inv_at m K (c, kStg)); iexact Hrec
    isplitl [Hrl]; · iexact Hrl
    isplitl [Hstg]; · iexact Hstg
    isplitl [HtStg]; · iexact HtStg
    iapply (reached_at m K (c, kStg)); iexact Hrec
  iintro HcStg
  -- the direct slab has landed
  iapply (wp_waitX m K c kOR (by decide) (wpE_waitDma2_eq 𝒱₀ (c : Thread nD τ) none Set.univ) rfl rfl 0 _) $$ [HcOR HO Ha12]
  · isplitr; · iapply (inv_at m K (c, kOR)); iexact Hrec
    isplitl [HcOR]; · iexact HcOR
    isplitl [HO]; · iexact HO
    isplitr; · rw [MayWait_zero]; iempintro
    iexact Ha12
  iintro ⟨HO, Ha12, Hp⟩
  ihave Hdir' := (Entails.of_eq (pay_OR m c false)) $$ Hp
  -- forwarded piece 0 has landed
  iapply (wp_waitX m K c (kFR 0) (kFR_ne 0) (wpE_waitDma2_eq 𝒱₀ (c : Thread nD τ) none Set.univ) rfl rfl 0 _) $$ [HcFR0 HO Ha18]
  · isplitr; · iapply (inv_at m K (c, (kFR 0))); iexact Hrec
    isplitl [HcFR0]; · iexact HcFR0
    isplitl [HO]; · iexact HO
    isplitr; · rw [MayWait_zero]; iempintro
    iexact Ha18
  iintro ⟨HO, Ha18, Hp⟩
  ihave HfJ0 := (Entails.of_eq (pay_FR m c 0 false)) $$ Hp
  -- forwarded piece 1 has landed
  iapply (wp_waitX m K c (kFR 1) (kFR_ne 1) (wpE_waitDma2_eq 𝒱₀ (c : Thread nD τ) none Set.univ) rfl rfl 0 _) $$ [HcFR1 HO Ha19]
  · isplitr; · iapply (inv_at m K (c, (kFR 1))); iexact Hrec
    isplitl [HcFR1]; · iexact HcFR1
    isplitl [HO]; · iexact HO
    isplitr; · rw [MayWait_zero]; iempintro
    iexact Ha19
  iintro ⟨HO, Ha19, Hp⟩
  ihave HfJ1 := (Entails.of_eq (pay_FR m c 1 false)) $$ Hp
  -- forwarded piece 2 has landed
  iapply (wp_waitX m K c (kFR 2) (kFR_ne 2) (wpE_waitDma2_eq 𝒱₀ (c : Thread nD τ) none Set.univ) rfl rfl 0 _) $$ [HcFR2 HO Ha20]
  · isplitr; · iapply (inv_at m K (c, (kFR 2))); iexact Hrec
    isplitl [HcFR2]; · iexact HcFR2
    isplitl [HO]; · iexact HO
    isplitr; · rw [MayWait_zero]; iempintro
    iexact Ha20
  iintro ⟨HO, Ha20, Hp⟩
  ihave HfJ2 := (Entails.of_eq (pay_FR m c 2 false)) $$ Hp
  -- forwarded piece 3 has landed
  iapply (wp_waitX m K c (kFR 3) (kFR_ne 3) (wpE_waitDma2_eq 𝒱₀ (c : Thread nD τ) none Set.univ) rfl rfl 0 _) $$ [HcFR3 HO Ha21]
  · isplitr; · iapply (inv_at m K (c, (kFR 3))); iexact Hrec
    isplitl [HcFR3]; · iexact HcFR3
    isplitl [HO]; · iexact HO
    isplitr; · rw [MayWait_zero]; iempintro
    iexact Ha21
  iintro ⟨HO, Ha21, Hp⟩
  ihave HfJ3 := (Entails.of_eq (pay_FR m c 3 false)) $$ Hp
  -- forwarded piece 4 has landed
  iapply (wp_waitX m K c (kFR 4) (kFR_ne 4) (wpE_waitDma2_eq 𝒱₀ (c : Thread nD τ) none Set.univ) rfl rfl 0 _) $$ [HcFR4 HO Ha22]
  · isplitr; · iapply (inv_at m K (c, (kFR 4))); iexact Hrec
    isplitl [HcFR4]; · iexact HcFR4
    isplitl [HO]; · iexact HO
    isplitr; · rw [MayWait_zero]; iempintro
    iexact Ha22
  iintro ⟨HO, Ha22, Hp⟩
  ihave HfJ4 := (Entails.of_eq (pay_FR m c 4 false)) $$ Hp
  -- first-hop transfer 0 has read its source
  iapply (wp_waitX m K c (kYS 0) (kYS_ne 0) (wpE_waitDma2_eq 𝒱₀ (c : Thread nD τ) none Set.univ) rfl rfl 0 _) $$ [HcYS0 HO Ha1]
  · isplitr; · iapply (inv_at m K (c, (kYS 0))); iexact Hrec
    isplitl [HcYS0]; · iexact HcYS0
    isplitl [HO]; · iexact HO
    isplitr; · rw [MayWait_zero]; iempintro
    iexact Ha1
  iintro ⟨HO, Ha1, Hp⟩
  ihave Hs0 := (Entails.of_eq (pay_YS m c 0 false)) $$ Hp
  -- first-hop transfer 1 has read its source
  iapply (wp_waitX m K c (kYS 1) (kYS_ne 1) (wpE_waitDma2_eq 𝒱₀ (c : Thread nD τ) none Set.univ) rfl rfl 0 _) $$ [HcYS1 HO Ha2]
  · isplitr; · iapply (inv_at m K (c, (kYS 1))); iexact Hrec
    isplitl [HcYS1]; · iexact HcYS1
    isplitl [HO]; · iexact HO
    isplitr; · rw [MayWait_zero]; iempintro
    iexact Ha2
  iintro ⟨HO, Ha2, Hp⟩
  ihave Hs1 := (Entails.of_eq (pay_YS m c 1 false)) $$ Hp
  -- first-hop transfer 2 has read its source
  iapply (wp_waitX m K c (kYS 2) (kYS_ne 2) (wpE_waitDma2_eq 𝒱₀ (c : Thread nD τ) none Set.univ) rfl rfl 0 _) $$ [HcYS2 HO Ha3]
  · isplitr; · iapply (inv_at m K (c, (kYS 2))); iexact Hrec
    isplitl [HcYS2]; · iexact HcYS2
    isplitl [HO]; · iexact HO
    isplitr; · rw [MayWait_zero]; iempintro
    iexact Ha3
  iintro ⟨HO, Ha3, Hp⟩
  ihave Hs2 := (Entails.of_eq (pay_YS m c 2 false)) $$ Hp
  -- first-hop transfer 3 has read its source
  iapply (wp_waitX m K c (kYS 3) (kYS_ne 3) (wpE_waitDma2_eq 𝒱₀ (c : Thread nD τ) none Set.univ) rfl rfl 0 _) $$ [HcYS3 HO Ha4]
  · isplitr; · iapply (inv_at m K (c, (kYS 3))); iexact Hrec
    isplitl [HcYS3]; · iexact HcYS3
    isplitl [HO]; · iexact HO
    isplitr; · rw [MayWait_zero]; iempintro
    iexact Ha4
  iintro ⟨HO, Ha4, Hp⟩
  ihave Hs3 := (Entails.of_eq (pay_YS m c 3 false)) $$ Hp
  -- first-hop transfer 4 has read its source
  iapply (wp_waitX m K c (kYS 4) (kYS_ne 4) (wpE_waitDma2_eq 𝒱₀ (c : Thread nD τ) none Set.univ) rfl rfl 0 _) $$ [HcYS4 HO Ha5]
  · isplitr; · iapply (inv_at m K (c, (kYS 4))); iexact Hrec
    isplitl [HcYS4]; · iexact HcYS4
    isplitl [HO]; · iexact HO
    isplitr; · rw [MayWait_zero]; iempintro
    iexact Ha5
  iintro ⟨HO, Ha5, Hp⟩
  ihave Hs4 := (Entails.of_eq (pay_YS m c 4 false)) $$ Hp
  -- the direct slab's source
  iapply (wp_waitX m K c kOS (by decide) (wpE_waitDma2_eq 𝒱₀ (c : Thread nD τ) none Set.univ) rfl rfl 0 _) $$ [HcOS HO Ha11]
  · isplitr; · iapply (inv_at m K (c, kOS)); iexact Hrec
    isplitl [HcOS]; · iexact HcOS
    isplitl [HO]; · iexact HO
    isplitr; · rw [MayWait_zero]; iempintro
    iexact Ha11
  iintro ⟨HO, Ha11, Hp⟩
  ihave HsO := (Entails.of_eq (pay_OS m c false)) $$ Hp
  -- second-hop transfer 0 has read its source
  iapply (wp_waitX m K c (kFS 0) (kFS_ne 0) (wpE_waitDma2_eq 𝒱₀ (c : Thread nD τ) none Set.univ) rfl rfl 0 _) $$ [HcFS0 HO Ha13]
  · isplitr; · iapply (inv_at m K (c, (kFS 0))); iexact Hrec
    isplitl [HcFS0]; · iexact HcFS0
    isplitl [HO]; · iexact HO
    isplitr; · rw [MayWait_zero]; iempintro
    iexact Ha13
  iintro ⟨HO, Ha13, Hp⟩
  ihave HrR0 := (Entails.of_eq (pay_FS m c 0 false)) $$ Hp
  -- second-hop transfer 1 has read its source
  iapply (wp_waitX m K c (kFS 1) (kFS_ne 1) (wpE_waitDma2_eq 𝒱₀ (c : Thread nD τ) none Set.univ) rfl rfl 0 _) $$ [HcFS1 HO Ha14]
  · isplitr; · iapply (inv_at m K (c, (kFS 1))); iexact Hrec
    isplitl [HcFS1]; · iexact HcFS1
    isplitl [HO]; · iexact HO
    isplitr; · rw [MayWait_zero]; iempintro
    iexact Ha14
  iintro ⟨HO, Ha14, Hp⟩
  ihave HrR1 := (Entails.of_eq (pay_FS m c 1 false)) $$ Hp
  -- second-hop transfer 2 has read its source
  iapply (wp_waitX m K c (kFS 2) (kFS_ne 2) (wpE_waitDma2_eq 𝒱₀ (c : Thread nD τ) none Set.univ) rfl rfl 0 _) $$ [HcFS2 HO Ha15]
  · isplitr; · iapply (inv_at m K (c, (kFS 2))); iexact Hrec
    isplitl [HcFS2]; · iexact HcFS2
    isplitl [HO]; · iexact HO
    isplitr; · rw [MayWait_zero]; iempintro
    iexact Ha15
  iintro ⟨HO, Ha15, Hp⟩
  ihave HrR2 := (Entails.of_eq (pay_FS m c 2 false)) $$ Hp
  -- second-hop transfer 3 has read its source
  iapply (wp_waitX m K c (kFS 3) (kFS_ne 3) (wpE_waitDma2_eq 𝒱₀ (c : Thread nD τ) none Set.univ) rfl rfl 0 _) $$ [HcFS3 HO Ha16]
  · isplitr; · iapply (inv_at m K (c, (kFS 3))); iexact Hrec
    isplitl [HcFS3]; · iexact HcFS3
    isplitl [HO]; · iexact HO
    isplitr; · rw [MayWait_zero]; iempintro
    iexact Ha16
  iintro ⟨HO, Ha16, Hp⟩
  ihave HrR3 := (Entails.of_eq (pay_FS m c 3 false)) $$ Hp
  -- second-hop transfer 4 has read its source
  iapply (wp_waitX m K c (kFS 4) (kFS_ne 4) (wpE_waitDma2_eq 𝒱₀ (c : Thread nD τ) none Set.univ) rfl rfl 0 _) $$ [HcFS4 HO Ha17]
  · isplitr; · iapply (inv_at m K (c, (kFS 4))); iexact Hrec
    isplitl [HcFS4]; · iexact HcFS4
    isplitl [HO]; · iexact HO
    isplitr; · rw [MayWait_zero]; iempintro
    iexact Ha17
  iintro ⟨HO, Ha17, Hp⟩
  ihave HrR4 := (Entails.of_eq (pay_FS m c 4 false)) $$ Hp
  -- the two local copies
  iapply (wp_waitX m K c kOwn (by decide) (wpE_waitDma2_eq 𝒱₀ (c : Thread nD τ) none Set.univ) rfl rfl 0 _) $$ [HcOwn HO Ha23]
  · isplitr; · iapply (inv_at m K (c, kOwn)); iexact Hrec
    isplitl [HcOwn]; · iexact HcOwn
    isplitl [HO]; · iexact HO
    isplitr; · rw [MayWait_zero]; iempintro
    iexact Ha23
  iintro ⟨HO, Ha23, Hp⟩
  ihave Hp' := (Entails.of_eq (pay_Own m c false)) $$ Hp
  icases Hp' with ⟨Hown', HsL⟩
  iapply (wp_waitX m K c kStg (by decide) (wpE_waitDma2_eq 𝒱₀ (c : Thread nD τ) none Set.univ) rfl rfl 0 _) $$ [HcStg HO Ha24]
  · isplitr; · iapply (inv_at m K (c, kStg)); iexact Hrec
    isplitl [HcStg]; · iexact HcStg
    isplitl [HO]; · iexact HO
    isplitr; · rw [MayWait_zero]; iempintro
    iexact Ha24
  iintro ⟨HO, Ha24, Hp⟩
  ihave Hp' := (Entails.of_eq (pay_Stg m c false)) $$ Hp
  icases Hp' with ⟨Hstg', Hrl⟩
  -- the three buffers whole again
  ihave HsR := (sL_split (F := F) c qR (stgC m c)).2 $$ [Hs0 Hs1 Hs2 Hs3 Hs4 HsO HsRest]
  · isplitl [Hs0]; · iexact Hs0
    isplitl [Hs1]; · iexact Hs1
    isplitl [Hs2]; · iexact Hs2
    isplitl [Hs3]; · iexact Hs3
    isplitl [Hs4]; · iexact Hs4
    isplitl [HsO]; · iexact HsO
    iexact HsRest
  ihave Hsfull := (halves (F := F) (ℓ := sL c) Finset.univ (stgC m c)).2 $$ [HsL HsR]
  · isplitl [HsL]; · iexact HsL
    iexact HsR
  ihave HrR := (rL_split (F := F) c qR (recvC m c)).2 $$ [HrR0 HrR1 HrR2 HrR3 HrR4]
  · isplitl [HrR0]; · iexact HrR0
    isplitl [HrR1]; · iexact HrR1
    isplitl [HrR2]; · iexact HrR2
    isplitl [HrR3]; · iexact HrR3
    iexact HrR4
  ihave Hrfull := (halves (F := F) (ℓ := rL c) Finset.univ (recvC m c)).2 $$ [Hrl HrR]
  · isplitl [Hrl]; · iexact Hrl
    iexact HrR
  ihave Hfwd' := (oFwd_split (F := F) c fullShare (outC m c)).2 $$ [HfJ0 HfJ1 HfJ2 HfJ3 HfJ4]
  · isplitl [HfJ0]; · iexact HfJ0
    isplitl [HfJ1]; · iexact HfJ1
    isplitl [HfJ2]; · iexact HfJ2
    isplitl [HfJ3]; · iexact HfJ3
    iexact HfJ4
  ihave Hout := (oL_split (F := F) c fullShare (outC m c)).2 $$ [Hown' Hdir' Hstg' Hfwd']
  · isplitl [Hown']; · iexact Hown'
    isplitl [Hdir']; · iexact Hdir'
    isplitl [Hstg']; · iexact Hstg'
    iexact Hfwd'
  -- every transfer cell's one round is consumed: the cells close, their counters at zero
  imod (close_cell m K c 1 (by decide)) $$ [Ha1] with Hz1
  · isplitr; · iapply (inv_at m K (c, 1)); iexact Hrec
    iexact Ha1
  imod (close_cell m K c 2 (by decide)) $$ [Ha2] with Hz2
  · isplitr; · iapply (inv_at m K (c, 2)); iexact Hrec
    iexact Ha2
  imod (close_cell m K c 3 (by decide)) $$ [Ha3] with Hz3
  · isplitr; · iapply (inv_at m K (c, 3)); iexact Hrec
    iexact Ha3
  imod (close_cell m K c 4 (by decide)) $$ [Ha4] with Hz4
  · isplitr; · iapply (inv_at m K (c, 4)); iexact Hrec
    iexact Ha4
  imod (close_cell m K c 5 (by decide)) $$ [Ha5] with Hz5
  · isplitr; · iapply (inv_at m K (c, 5)); iexact Hrec
    iexact Ha5
  imod (close_cell m K c 6 (by decide)) $$ [Ha6] with Hz6
  · isplitr; · iapply (inv_at m K (c, 6)); iexact Hrec
    iexact Ha6
  imod (close_cell m K c 7 (by decide)) $$ [Ha7] with Hz7
  · isplitr; · iapply (inv_at m K (c, 7)); iexact Hrec
    iexact Ha7
  imod (close_cell m K c 8 (by decide)) $$ [Ha8] with Hz8
  · isplitr; · iapply (inv_at m K (c, 8)); iexact Hrec
    iexact Ha8
  imod (close_cell m K c 9 (by decide)) $$ [Ha9] with Hz9
  · isplitr; · iapply (inv_at m K (c, 9)); iexact Hrec
    iexact Ha9
  imod (close_cell m K c 10 (by decide)) $$ [Ha10] with Hz10
  · isplitr; · iapply (inv_at m K (c, 10)); iexact Hrec
    iexact Ha10
  imod (close_cell m K c 11 (by decide)) $$ [Ha11] with Hz11
  · isplitr; · iapply (inv_at m K (c, 11)); iexact Hrec
    iexact Ha11
  imod (close_cell m K c 12 (by decide)) $$ [Ha12] with Hz12
  · isplitr; · iapply (inv_at m K (c, 12)); iexact Hrec
    iexact Ha12
  imod (close_cell m K c 13 (by decide)) $$ [Ha13] with Hz13
  · isplitr; · iapply (inv_at m K (c, 13)); iexact Hrec
    iexact Ha13
  imod (close_cell m K c 14 (by decide)) $$ [Ha14] with Hz14
  · isplitr; · iapply (inv_at m K (c, 14)); iexact Hrec
    iexact Ha14
  imod (close_cell m K c 15 (by decide)) $$ [Ha15] with Hz15
  · isplitr; · iapply (inv_at m K (c, 15)); iexact Hrec
    iexact Ha15
  imod (close_cell m K c 16 (by decide)) $$ [Ha16] with Hz16
  · isplitr; · iapply (inv_at m K (c, 16)); iexact Hrec
    iexact Ha16
  imod (close_cell m K c 17 (by decide)) $$ [Ha17] with Hz17
  · isplitr; · iapply (inv_at m K (c, 17)); iexact Hrec
    iexact Ha17
  imod (close_cell m K c 18 (by decide)) $$ [Ha18] with Hz18
  · isplitr; · iapply (inv_at m K (c, 18)); iexact Hrec
    iexact Ha18
  imod (close_cell m K c 19 (by decide)) $$ [Ha19] with Hz19
  · isplitr; · iapply (inv_at m K (c, 19)); iexact Hrec
    iexact Ha19
  imod (close_cell m K c 20 (by decide)) $$ [Ha20] with Hz20
  · isplitr; · iapply (inv_at m K (c, 20)); iexact Hrec
    iexact Ha20
  imod (close_cell m K c 21 (by decide)) $$ [Ha21] with Hz21
  · isplitr; · iapply (inv_at m K (c, 21)); iexact Hrec
    iexact Ha21
  imod (close_cell m K c 22 (by decide)) $$ [Ha22] with Hz22
  · isplitr; · iapply (inv_at m K (c, 22)); iexact Hrec
    iexact Ha22
  imod (close_cell m K c 23 (by decide)) $$ [Ha23] with Hz23
  · isplitr; · iapply (inv_at m K (c, 23)); iexact Hrec
    iexact Ha23
  imod (close_cell m K c 24 (by decide)) $$ [Ha24] with Hz24
  · isplitr; · iapply (inv_at m K (c, 24)); iexact Hrec
    iexact Ha24
  rw [wp_ret]; imodintro
  iapply Hk
  unfold bodyPost Φ₁ Dat.owesAt Pipeline.owesWithin
  rw [show (dats m 0 c).owed t₀.succ = 0 from rfl, bigSep_fin24]
  isplitl [Hout Hsfull Hrfull Hz1 Hz2 Hz3 Hz4 Hz5 Hz6 Hz7 Hz8 Hz9 Hz10 Hz11 Hz12 Hz13 Hz14 Hz15 Hz16 Hz17 Hz18 Hz19 Hz20 Hz21 Hz22 Hz23 Hz24]
  · isplitl [Hout]; · iexact Hout
    isplitl [Hsfull Hrfull]
    · isplitl [Hsfull]; · iexists _; iexact Hsfull
      iexists _; iexact Hrfull
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    iexact Hz24
  isplitl [HO]
  · iexists (insert (csem kStg, ()) (insert (csem kOwn, ()) (insert (csem (kFS 4), ()) (insert (csem (kFS 3), ()) (insert (csem (kFS 2), ()) (insert (csem (kFS 1), ()) (insert (csem (kFS 0), ()) (insert (csem kOS, ()) (insert (csem (kYS 4), ()) (insert (csem (kYS 3), ()) (insert (csem (kYS 2), ()) (insert (csem (kYS 1), ()) (insert (csem (kYS 0), ()) (insert (csem (kFR 4), ()) (insert (csem (kFR 3), ()) (insert (csem (kFR 2), ()) (insert (csem (kFR 1), ()) (insert (csem (kFR 0), ()) (insert (csem kOR, ()) (insert (csem (kYR 4), ()) (insert (csem (kYR 3), ()) (insert (csem (kYR 2), ()) (insert (csem (kYR 1), ()) (insert (csem (kYR 0), ()) (insert (csem 0, ()) W)))))))))))))))))))))))))
    isplitr; · ipureintro; exact fun _ _ => Or.inl trivial
    iexact HO
  iexists _; isplitr; · (ipureintro; rfl)
  iexact Hx

/-! ## The library's body obligation -/

def bodyPre' (c : Dev nD) : sProp 𝕄 :=
  iprop(Φ₀ m c ∗ (dats m 0 c).owesAt () t₀.castSucc ∗ (∃ d, stg c cc0_stg0_0 ((dats m 0 c).before (0 : Fin 1) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The body obligation on device c: the pipeline's invariant before the one grid point, what the device still owes, and the
    staged block, to the invariant after it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m c)
  unfold bodyPre' Φ₀ start
  iintro ⟨⟨⟨⟨%K, Hg⟩, Hcr, Hlev, Hout⟩, Hs, Hr⟩, Ho, Hx⟩
  iapply (sound_body m K c fun _ => bodyPost m c)
  unfold bodyPre
  isplitr []
  · isplitl [Hg Hcr Hlev Hout Hs Hr]
    · isplitl [Hg]; · iexact Hg
      isplitl [Hcr]; · iexact Hcr
      isplitl [Hlev]; · iexact Hlev
      isplitl [Hout]; · iexact Hout
      isplitl [Hs]; · iexact Hs
      iexact Hr
    isplitl [Ho]; · iexact Ho
    iexact Hx
  · iintro H; iexact H

/-- info: 'Cert.Kernel.AG.body_obligation' depends on axioms: [propext, Classical.choice, Quot.sound] -/
#guard_msgs in #print axioms body_obligation

end Cert.Kernel.AG

end
-- ==== Proof.KI.Ideal.lean ====
/-
  The value of the all-gather over the extended reals. There a change of float format is the identity, so a device's
  staging scratch holds its block of x as it stands, and the pipeline stages the whole block. The device with mesh
  coordinate y holds rows [512 y, 512 y + 512) of the whole array X. Row 512 q + a of the gathered result is staged row a
  of a device with coordinate q — the device itself, its y-partner, or (on the forwarded slab) its x-partner's y-partner —,
  that is X's row 512 q + a: the result is X, entry by entry, on every device.
-/
import proofs.«900668_g7700000000000669_dist_ag_v7x_xyz2x2x2_y_m512_n512_bf16_1_alg».proof.Proof.KI.Values
import Idealize.ShloMosaic.Lib.Layout
import Idealize.ShloMosaic.PureOps.Ideal

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)
open Idealize.ShloMosaic.RefSig (tileCredit tileCredit_pos tileCredit_eq_zero)

variable {F : FTy → Type} [FloatOps F]

local notation "𝕄" => MT nD τ sig Unit (Elt F) ℕ UU ℕ

variable (m : (ℓ : Loc nD τ sig) → Buf (Elt F) ℓ)

/-- The pipeline's one window is the whole block: what it stages is the argument buffer itself. -/
theorem xstg_eq (c : Dev nD) : xstg m c = m ((c : Thread nD τ).loc main_arg0) :=
  Memref.read_access_unit_zero (Elt F) main_arg0 (funext fun a => Nat.zero_mul _) _ _

/-- The block a device holds along the rows is the one its coordinate on mesh axis y names; the columns are not cut. -/
theorem meshBlock_rows (d : Dev nD) : ((Layout.meshBlock [2, 2, 2] ![[1], []] d) 0).val = yC d := by revert d; decide
theorem meshBlock_cols (d : Dev nD) : ((Layout.meshBlock [2, 2, 2] ![[1], []] d) 1).val = 0 := by revert d; decide

section Ideal

variable (mI : (ℓ : Loc nD τ sig) → Buf (Elt Ideal) ℓ)

/-- Over the extended reals the staging scratch holds the device's block of x. -/
theorem stgC_ideal (d : Dev nD) (p : S512x512.Idx) : stgC (F := Ideal) mI d p = mI ((d : Thread nD τ).loc main_arg0) p := by
  show FloatOps.truncf .bf16 bitsLt_bf16_f32 (xstg mI d p) = _
  rw [Ideal.truncf_def, xstg_eq]

variable (X : (⟨2, ![1024, 512]⟩ : Shape).Idx → Elt Ideal .f32)
  (hag : ∀ c : Dev nD, mI ((c : Thread nD τ).loc main_arg0)
    = Layout.blockN ⟨2, ![512, 512]⟩ ⟨2, ![1024, 512]⟩ (Layout.meshBlock [2, 2, 2] ![[1], []] c) X)

include hag in
/-- Staged row a of a device with coordinate yC d is row 512 yC d + a of the whole array. -/
theorem stgC_whole (d : Dev nD) (a : Fin 512) (i : S1024x512.Idx) (h0 : (i 0).val = 512 * yC d + a.val) :
    stgC (F := Ideal) mI d (ix2 a (i 1)) = X i := by
  rw [stgC_ideal, hag d, Layout.blockN_apply]
  congr 1
  funext b
  match b with
  | ⟨0, _⟩ =>
    apply Fin.ext
    rw [Layout.TilesN.idx_val]
    show ((Layout.meshBlock [2, 2, 2] ![[1], []] d) 0).val * 512 + a.val = (i 0).val
    rw [meshBlock_rows, h0]; omega
  | ⟨1, _⟩ =>
    apply Fin.ext
    rw [Layout.TilesN.idx_val]
    show ((Layout.meshBlock [2, 2, 2] ![[1], []] d) 1).val * 512 + (i 1).val = (i 1).val
    rw [meshBlock_cols]; omega

include hag in
/-- THE VALUE: on every device the gathered result is the whole array, entry by entry. -/
theorem outC_ideal (c : Dev nD) :
    outC (F := Ideal) mI c = truncf (F := Ideal) (s := ⟨2, ![1024, 512]⟩) (φ := .f32) .bf16 X bitsLt_bf16_f32 := by
  funext i
  show outC (F := Ideal) mI c i = X i
  have hi := idx2_lt0 (i : S1024x512.Idx)
  have hy := yC_lt c
  have hs := sP_lt c
  let a : Fin 512 := ⟨(i 0).val % 512, Nat.mod_lt _ (by decide)⟩
  by_cases hq : (i 0).val / 512 = yC c
  · have h0 : (i 0).val = mine c + a.val := by show (i 0).val = 512 * yC c + (i 0).val % 512; omega
    rw [outC_own mI c i a h0]
    exact stgC_whole mI X hag c a i h0
  · have h0 : (i 0).val = other c + a.val := by show (i 0).val = 512 * (1 - yC c) + (i 0).val % 512; omega
    by_cases hf : rfw c ≤ a.val ∧ a.val < rfw c + 160
    · rw [outC_fwd mI c i a h0 hf.1 hf.2]
      exact stgC_whole mI X hag (yN (xN c)) a i (by rw [yC_yN, yC_xN]; exact h0)
    · rw [outC_dir mI c i a h0 (by omega)]
      exact stgC_whole mI X hag (yN c) a i (by rw [yC_yN]; exact h0)

end Ideal

/-- info: 'Cert.KernelIdeal.AG.outC_ideal' depends on axioms: [propext, Classical.choice, Quot.sound] -/
#guard_msgs in #print axioms outC_ideal

end Cert.KernelIdeal.AG

end
-- ==== Proof.RefSide.lean ====
/-
  The reference side of the all-gather certificate.

  The reference converts every entry of x : f32[1024, 512] to bf16, on one device over the whole array: its result is the
  entrywise conversion of the launch contents of x, and x is left as it was.
-/
import proofs.«900668_g7700000000000669_dist_ag_v7x_xyz2x2x2_y_m512_n512_bf16_1_alg».proof.Defs
import proofs.«900668_g7700000000000669_dist_ag_v7x_xyz2x2x2_y_m512_n512_bf16_1_alg».proof.Proof.Gen.ReferenceIdeal
import proofs.«900668_g7700000000000669_dist_ag_v7x_xyz2x2x2_y_m512_n512_bf16_1_alg».proof.Proof.Gen.Pre_finite_inputs_ReferenceIdeal
import proofs.«900668_g7700000000000669_dist_ag_v7x_xyz2x2x2_y_m512_n512_bf16_1_alg».proof.Proof.Gen.ReferenceIdeal.Run
import proofs.«900668_g7700000000000669_dist_ag_v7x_xyz2x2x2_y_m512_n512_bf16_1_alg».proof.Proof.Gen.ReferenceIdeal.Read
import Idealize.ShloMosaic.Lib.Layout
import Idealize.ShloMosaic.PureOps.Ideal

noncomputable section

namespace Cert.RefSide

open Idealize.ShloMosaic Idealize.SL.Sem

/-- The reference runs and leaves its argument array unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run read on its one device: the result array ends at the entrywise conversion of x, and x unchanged. -/
theorem run_ri (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v0)
          = truncf (F := Ideal) (s := Cert.ReferenceIdeal.S1024x512) (φ := .f32) .bf16 (m' (((0 : Dev Cert.ReferenceIdeal.nD).tc : Thread Cert.ReferenceIdeal.nD Cert.ReferenceIdeal.τ).loc Cert.ReferenceIdeal.main_arg0)) Cert.ReferenceIdeal.Facts₀.bitsLt_bf16_f32
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- info: 'Cert.RefSide.frame_ri' depends on axioms: [propext, Classical.choice, Quot.sound] -/
#guard_msgs in #print axioms frame_ri
/-- info: 'Cert.RefSide.run_ri' depends on axioms: [propext, Classical.choice, Quot.sound] -/
#guard_msgs in #print axioms run_ri

end Cert.RefSide

end
-- ==== Proof.lean ====
/-
  The all-gather along mesh axis y on the 2 × 2 × 2 mesh against the one-device conversion of the whole array. Each frame
  is the mesh's run with the result dropped: every device's body meets its obligation under the protocol's schedule of
  semaphore rounds, and the launch turns that into termination of every fair execution with the arguments unchanged. Over
  the extended reals a change of float format is the identity, each device's block is its rows of the whole array, and the
  gathered result is the whole array entry by entry on every device: the reference's result.
-/
import proofs.«900668_g7700000000000669_dist_ag_v7x_xyz2x2x2_y_m512_n512_bf16_1_alg».proof.Defs
import proofs.«900668_g7700000000000669_dist_ag_v7x_xyz2x2x2_y_m512_n512_bf16_1_alg».proof.Proof.Gen.Kernel
import proofs.«900668_g7700000000000669_dist_ag_v7x_xyz2x2x2_y_m512_n512_bf16_1_alg».proof.Proof.Gen.Kernel.Skeleton
import proofs.«900668_g7700000000000669_dist_ag_v7x_xyz2x2x2_y_m512_n512_bf16_1_alg».proof.Proof.Gen.Kernel.Launch
import proofs.«900668_g7700000000000669_dist_ag_v7x_xyz2x2x2_y_m512_n512_bf16_1_alg».proof.Proof.Gen.Kernel.Points
import proofs.«900668_g7700000000000669_dist_ag_v7x_xyz2x2x2_y_m512_n512_bf16_1_alg».proof.Proof.Gen.Kernel.Frame
import proofs.«900668_g7700000000000669_dist_ag_v7x_xyz2x2x2_y_m512_n512_bf16_1_alg».proof.Proof.Gen.KernelIdeal
import proofs.«900668_g7700000000000669_dist_ag_v7x_xyz2x2x2_y_m512_n512_bf16_1_alg».proof.Proof.Gen.KernelIdeal.Skeleton
import proofs.«900668_g7700000000000669_dist_ag_v7x_xyz2x2x2_y_m512_n512_bf16_1_alg».proof.Proof.Gen.KernelIdeal.Launch
import proofs.«900668_g7700000000000669_dist_ag_v7x_xyz2x2x2_y_m512_n512_bf16_1_alg».proof.Proof.Gen.KernelIdeal.Points
import proofs.«900668_g7700000000000669_dist_ag_v7x_xyz2x2x2_y_m512_n512_bf16_1_alg».proof.Proof.Gen.KernelIdeal.Frame
import proofs.«900668_g7700000000000669_dist_ag_v7x_xyz2x2x2_y_m512_n512_bf16_1_alg».proof.Proof.Gen.ReferenceIdeal
import proofs.«900668_g7700000000000669_dist_ag_v7x_xyz2x2x2_y_m512_n512_bf16_1_alg».proof.Proof.Gen.Pre_finite_inputs_Kernel
import proofs.«900668_g7700000000000669_dist_ag_v7x_xyz2x2x2_y_m512_n512_bf16_1_alg».proof.Proof.Gen.Pre_finite_inputs_ReferenceIdeal
import Idealize.ShloMosaic.Adequacy
import Idealize.ShloMosaic.Init
import proofs.«900668_g7700000000000669_dist_ag_v7x_xyz2x2x2_y_m512_n512_bf16_1_alg».proof.Proof.KI.Launch
import proofs.«900668_g7700000000000669_dist_ag_v7x_xyz2x2x2_y_m512_n512_bf16_1_alg».proof.Proof.KI.Body
import proofs.«900668_g7700000000000669_dist_ag_v7x_xyz2x2x2_y_m512_n512_bf16_1_alg».proof.Proof.KB.Launch
import proofs.«900668_g7700000000000669_dist_ag_v7x_xyz2x2x2_y_m512_n512_bf16_1_alg».proof.Proof.KB.Body
import proofs.«900668_g7700000000000669_dist_ag_v7x_xyz2x2x2_y_m512_n512_bf16_1_alg».proof.Proof.KI.Ideal
import proofs.«900668_g7700000000000669_dist_ag_v7x_xyz2x2x2_y_m512_n512_bf16_1_alg».proof.Proof.RefSide

noncomputable section

namespace Cert.Proof

open Idealize.ShloMosaic Idealize.SL.Sem

/-- The kernel at the word level: its run on the mesh, the result array dropped. -/
theorem frame_k : Cert.frame_Kernel := fun m ρ _ =>
  (θ_run Cert.Kernel.defs _ _).mono (fun _ h c => (h c).2) (Cert.Kernel.AG.run_main (F := Bits) m ρ (Cert.Kernel.AG.body_obligation m))

/-- The same over the extended reals. -/
theorem frame_ki : Cert.frame_KernelIdeal := fun m ρ _ =>
  (θ_run Cert.KernelIdeal.defs _ _).mono (fun _ h c => (h c).2) (Cert.KernelIdeal.AG.run_main (F := Ideal) m ρ (Cert.KernelIdeal.AG.body_obligation m))

/-- Over the extended reals every device's result array ends at the whole array converted entry by entry: what the
    reference's one device computes. -/
theorem algebraic : Cert.algebraic_KernelIdeal_ReferenceIdeal := fun m ρ m' ρ' _ hag =>
  ⟨truncf (F := Ideal) (s := Cert.ReferenceIdeal.S1024x512) (φ := .f32) .bf16 (m' (((0 : Dev Cert.ReferenceIdeal.nD).tc : Thread Cert.ReferenceIdeal.nD Cert.ReferenceIdeal.τ).loc Cert.ReferenceIdeal.main_arg0)) Cert.ReferenceIdeal.Facts₀.bitsLt_bf16_f32,
    (θ_run Cert.KernelIdeal.defs _ _).mono (fun _ h c => ⟨(h c).1.trans (Cert.KernelIdeal.AG.outC_ideal m _ hag c), (h c).2⟩)
      (Cert.KernelIdeal.AG.run_main (F := Ideal) m ρ (Cert.KernelIdeal.AG.body_obligation m)),
    Cert.RefSide.run_ri m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, trivial, algebraic⟩

/-- info: 'Cert.Proof.claim' depends on axioms: [propext, Classical.choice, Quot.sound] -/
#guard_msgs in #print axioms claim

end Cert.Proof

end
